-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x1024 : Shape := ⟨3, ![32, 256, 1024]⟩
abbrev S32x2048x1024 : Shape := ⟨3, ![32, 2048, 1024]⟩
abbrev S32x2048x2 : Shape := ⟨3, ![32, 2048, 2]⟩
abbrev S32x2048x1 : Shape := ⟨3, ![32, 2048, 1]⟩
abbrev S1024x2048 : Shape := ⟨2, ![1024, 2048]⟩
abbrev S1024 : Shape := ⟨1, ![1024]⟩
abbrev S1024x3072 : Shape := ⟨2, ![1024, 3072]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S32x2048x1 : S_.BroadcastsInDim S32x2048x1 (![] : Fin 0 → Fin S32x2048x1.rank)
  reducesTo_S32x2048x1_S_d0_1_2 : S32x2048x1.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S32x2048x2 : S_.BroadcastsInDim S32x2048x2 (![] : Fin 0 → Fin S32x2048x2.rank)
  reducesTo_S32x2048x2_S_d0_1_2 : S32x2048x2.ReducesTo [0, 1, 2] S_

variable [Facts]

def fn_part2 {F : FTy → Type} [FloatOps F] (main_arg3 : IVec S32x2048x2 32) (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_c_14 : IVec S_ 32 := constantI S_ 32 0#32
  let main_v39 : IVec S32x2048x2 32 := broadcastInDim S32x2048x2 ![] bcast_S_S32x2048x2 main_c_14
  let main_v40 : IVec S32x2048x2 1 := cmpi .sge main_arg3 main_v39
  let main_c_15 : IVec S_ 1 := constantI S_ 1 1#1
  let main_v41 : IVec S_ 1 := (fun x v => Host.reduce IntOp.andi x v reducesTo_S32x2048x2_S_d0_1_2 h_S_) main_v40 main_c_15
  let main_v42 : IVec S_ 1 := andi main_v38 main_v41
  let main_c_16 : IVec S_ 32 := constantI S_ 32 256#32
  let main_v43 : IVec S32x2048x2 32 := broadcastInDim S32x2048x2 ![] bcast_S_S32x2048x2 main_c_16
  let main_v44 : IVec S32x2048x2 1 := cmpi .slt main_arg3 main_v43
  let main_c_17 : IVec S_ 1 := constantI S_ 1 1#1
  let main_v45 : IVec S_ 1 := (fun x v => Host.reduce IntOp.andi x v reducesTo_S32x2048x2_S_d0_1_2 h_S_) main_v44 main_c_17
  let main_v46 : IVec S_ 1 := andi main_v42 main_v45
  main_v46

def fn_part1 {F : FTy → Type} [FloatOps F] (main_arg3 : IVec S32x2048x2 32) (main_arg5 : FVec F S1024x2048 .f32) (main_arg6 : FVec F S1024 .f32) (main_arg7 : FVec F S1024x3072 .f32) (main_arg8 : FVec F S1024 .f32) (main_v13 : IVec S_ 1) (main_v16 : IVec S32x2048x1 1) : IVec S_ 1 :=
  let main_c_5 : IVec S_ 1 := constantI S_ 1 1#1
  let main_v17 : IVec S_ 1 := (fun x v => Host.reduce IntOp.andi x v reducesTo_S32x2048x1_S_d0_1_2 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x3072 .f32 := Host.absf main_arg7
  let main_cst_10 : FVec F S_ .f32 := constant S_ .f32 0x7F800000#32
  let main_v30 : FVec F S1024x3072 .f32 := broadcastInDim S1024x3072 ![] bcast_S_S1024x3072 main_cst_10
  let main_v31 : IVec S1024x3072 1 := cmpf .olt main_v29 main_v30
  let main_c_11 : IVec S_ 1 := constantI S_ 1 1#1
  let main_v32 : IVec S_ 1 := (fun x v => Host.reduce IntOp.andi x v reducesTo_S1024x3072_S_d0_1 h_S_) main_v31 main_c_11
  let main_v33 : IVec S_ 1 := andi main_v28 main_v32
  fn_part2 (F := F) main_arg3 main_arg8 main_v33

def fn {F : FTy → Type} [FloatOps F] (main_arg0 : FVec F S32x256x1024 .f32) (main_arg1 : FVec F S32x256x1024 .f32) (main_arg2 : FVec F S32x2048x1024 .f32) (main_arg3 : IVec S32x2048x2 32) (main_arg4 : FVec F S32x2048x1 .f32) (main_arg5 : FVec F S1024x2048 .f32) (main_arg6 : FVec F S1024 .f32) (main_arg7 : FVec F S1024x3072 .f32) (main_arg8 : FVec F S1024 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  let main_v4 : FVec F S32x256x1024 .f32 := Host.absf main_arg1
  let main_cst_0 : FVec F S_ .f32 := constant S_ .f32 0x7F800000#32
  let main_v5 : FVec F S32x256x1024 .f32 := broadcastInDim S32x256x1024 ![] bcast_S_S32x256x1024 main_cst_0
  let main_v6 : IVec S32x256x1024 1 := cmpf .olt main_v4 main_v5
  let main_c_1 : IVec S_ 1 := constantI S_ 1 1#1
  let main_v7 : IVec S_ 1 := (fun x v => Host.reduce IntOp.andi x v reducesTo_S32x256x1024_S_d0_1_2 h_S_) main_v6 main_c_1
  let main_v8 : IVec S_ 1 := andi main_v3 main_v7
  let main_v9 : FVec F S32x2048x1024 .f32 := Host.absf main_arg2
  let main_cst_2 : FVec F S_ .f32 := constant S_ .f32 0x7F800000#32
  let main_v10 : FVec F S32x2048x1024 .f32 := broadcastInDim S32x2048x1024 ![] bcast_S_S32x2048x1024 main_cst_2
  let main_v11 : IVec S32x2048x1024 1 := cmpf .olt main_v9 main_v10
  let main_c_3 : IVec S_ 1 := constantI S_ 1 1#1
  let main_v12 : IVec S_ 1 := (fun x v => Host.reduce IntOp.andi x v reducesTo_S32x2048x1024_S_d0_1_2 h_S_) main_v11 main_c_3
  let main_v13 : IVec S_ 1 := andi main_v8 main_v12
  let main_v14 : FVec F S32x2048x1 .f32 := Host.absf main_arg4
  let main_cst_4 : FVec F S_ .f32 := constant S_ .f32 0x7F800000#32
  let main_v15 : FVec F S32x2048x1 .f32 := broadcastInDim S32x2048x1 ![] bcast_S_S32x2048x1 main_cst_4
  let main_v16 : IVec S32x2048x1 1 := cmpf .olt main_v14 main_v15
  fn_part1 (F := F) main_arg3 main_arg5 main_arg6 main_arg7 main_arg8 main_v13 main_v16
-- ==== Kernel.lean ====
abbrev S32x256x1024 : Shape := ⟨3, ![32, 256, 1024]⟩
abbrev S32x2048x1024 : Shape := ⟨3, ![32, 2048, 1024]⟩
abbrev S32x2048x2 : Shape := ⟨3, ![32, 2048, 2]⟩
abbrev S32x2048x1 : Shape := ⟨3, ![32, 2048, 1]⟩
abbrev S1024x2048 : Shape := ⟨2, ![1024, 2048]⟩
abbrev S1024 : Shape := ⟨1, ![1024]⟩
abbrev S1024x3072 : Shape := ⟨2, ![1024, 3072]⟩
abbrev S2048x1024 : Shape := ⟨2, ![2048, 1024]⟩
abbrev S1024x1024 : Shape := ⟨2, ![1024, 1024]⟩
abbrev S1x1024 : Shape := ⟨2, ![1, 1024]⟩
abbrev S8192x1024 : Shape := ⟨2, ![8192, 1024]⟩
abbrev S3072x1024 : Shape := ⟨2, ![3072, 1024]⟩
abbrev S1x256x1024 : Shape := ⟨3, ![1, 256, 1024]⟩
abbrev S1x512x1024 : Shape := ⟨3, ![1, 512, 1024]⟩
abbrev S1x512x2 : Shape := ⟨3, ![1, 512, 2]⟩
abbrev S1x512x1 : Shape := ⟨3, ![1, 512, 1]⟩
abbrev S256x1024 : Shape := ⟨2, ![256, 1024]⟩
abbrev S512x2 : Shape := ⟨2, ![512, 2]⟩
abbrev S512x1 : Shape := ⟨2, ![512, 1]⟩
abbrev S512x256 : Shape := ⟨2, ![512, 256]⟩
abbrev S512x1024 : Shape := ⟨2, ![512, 1024]⟩

abbrev nBuf : Space → Nat
  | .hbm => 28
  | .vmem => 25
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x2048x1024, .f32⟩
  | .hbm, ⟨3, _⟩ => ⟨S32x2048x2, .i32⟩
  | .hbm, ⟨4, _⟩ => ⟨S32x2048x1, .f32⟩
  | .hbm, ⟨5, _⟩ => ⟨S1024x2048, .f32⟩
  | .hbm, ⟨6, _⟩ => ⟨S1024, .f32⟩
  | .hbm, ⟨7, _⟩ => ⟨S1024x3072, .f32⟩
  | .hbm, ⟨8, _⟩ => ⟨S1024, .f32⟩
  | .hbm, ⟨9, _⟩ => ⟨S2048x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S32x256x1024, .f32⟩
  | .hbm, ⟨19, _⟩ => ⟨S3072x1024, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S32x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x2, .i32⟩
  | .local _ .vmem, ⟨14, _⟩ => ⟨S1x512x2, .i32⟩
  | .local _ .vmem, ⟨15, _⟩ => ⟨S1x512x1, .f32⟩
  | .local _ .vmem, ⟨16, _⟩ => ⟨S1x512x1, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x512x1024, .f32⟩
  | .local _ .vmem, ⟨22, _⟩ => ⟨S1x512x1024, .f32⟩
  | .local _ .vmem, ⟨23, _⟩ => ⟨S256x1024, .bf16⟩
  | .local _ .vmem, ⟨24, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x2 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  transposes_S1024x2048_S2048x1024_1_0 : S1024x2048.Transposes [1, 0] S2048x1024
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  shapeCasts_S1024_S1x1024 : S1024.ShapeCasts S1x1024
  shapeCasts_S32x256x1024_S8192x1024 : S32x256x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S32x256x1024 : S8192x1024.ShapeCasts S32x256x1024
  transposes_S1024x3072_S3072x1024_1_0 : S1024x3072.Transposes [1, 0] S3072x1024
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  slices_S512x2_o0_0_S512x1 : S512x2.Slices ![0, 0] S512x1
  slices_S512x2_o0_1_S512x1 : S512x2.Slices ![0, 1] S512x1
  iota_S512x256_d1_w32 : S512x256.Iotas .tc 32 [1]
  broadcasts_S512x1_S512x256 : S512x1.Broadcasts S512x256
  natLt_1_32 : 1 < 32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S32x256x1024.size a
  hwx1_0 : ∀ i : grid1.Coords, EltTy.bits .f32 = 32 ∨ (Rect.block (s := S32x256x1024) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S32x2048x1024.size a
  hwx1_1 : ∀ i : grid1.Coords, EltTy.bits .f32 = 32 ∨ (Rect.block (s := S32x2048x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2.size a ≤ S32x2048x2.size a
  hwx1_2 : ∀ i : grid1.Coords, EltTy.bits .i32 = 32 ∨ (Rect.block (s := S32x2048x2) S1x512x2.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S32x2048x1.size a
  hwx1_3 : ∀ i : grid1.Coords, EltTy.bits .f32 = 32 ∨ (Rect.block (s := S32x2048x1) S1x512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .bf16 = 32 ∨ (Rect.block (s := S1024x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x1024.size a ≤ S32x2048x1024.size a
  hwx1_8 : ∀ i : grid1.Coords, EltTy.bits .f32 = 32 ∨ (Rect.block (s := S32x2048x1024) S1x512x1024.size (cc1_transform_8 i) (hinb1_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x512x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x512x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S32x256x1024 : Shape := ⟨3, ![32, 256, 1024]⟩
abbrev S32x2048x1024 : Shape := ⟨3, ![32, 2048, 1024]⟩
abbrev S32x2048x2 : Shape := ⟨3, ![32, 2048, 2]⟩
abbrev S32x2048x1 : Shape := ⟨3, ![32, 2048, 1]⟩
abbrev S1024x2048 : Shape := ⟨2, ![1024, 2048]⟩
abbrev S1024 : Shape := ⟨1, ![1024]⟩
abbrev S1024x3072 : Shape := ⟨2, ![1024, 3072]⟩
abbrev S32x256x2048 : Shape := ⟨3, ![32, 256, 2048]⟩
abbrev S1x1x1024 : Shape := ⟨3, ![1, 1, 1024]⟩
abbrev S_ : Shape := ⟨0, ![]⟩
abbrev S1 : Shape := ⟨1, ![1]⟩
abbrev S1x1x1 : Shape := ⟨3, ![1, 1, 1]⟩
abbrev S32x2048 : Shape := ⟨2, ![32, 2048]⟩
abbrev S32x2048x3072 : Shape := ⟨3, ![32, 2048, 3072]⟩

abbrev nBuf : Space → Nat
  | .hbm => 75
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x2048x1024, .f32⟩
  | .hbm, ⟨3, _⟩ => ⟨S32x2048x2, .i32⟩
  | .hbm, ⟨4, _⟩ => ⟨S32x2048x1, .f32⟩
  | .hbm, ⟨5, _⟩ => ⟨S1024x2048, .f32⟩
  | .hbm, ⟨6, _⟩ => ⟨S1024, .f32⟩
  | .hbm, ⟨7, _⟩ => ⟨S1024x3072, .f32⟩
  | .hbm, ⟨8, _⟩ => ⟨S1024, .f32⟩
  | .hbm, ⟨9, _⟩ => ⟨S32x256x2048, .f32⟩
  | .hbm, ⟨10, _⟩ => ⟨S32x256x1024, .f32⟩
  | .hbm, ⟨11, _⟩ => ⟨S1x1x1024, .f32⟩
  | .hbm, ⟨12, _⟩ => ⟨S32x256x1024, .f32⟩
  | .hbm, ⟨13, _⟩ => ⟨S32x256x1024, .f32⟩
  | .hbm, ⟨14, _⟩ => ⟨S_, .f32⟩
  | .hbm, ⟨15, _⟩ => ⟨S32x256x1024, .f32⟩
  | .hbm, ⟨16, _⟩ => ⟨S32x256x1024, .f32⟩
  | .hbm, ⟨17, _⟩ => ⟨S32x256x1024, .f32⟩
  | .hbm, ⟨18, _⟩ => ⟨S32x2048x1, .i32⟩
  | .hbm, ⟨19, _⟩ => ⟨S32x2048x1, .i32⟩
  | .hbm, ⟨20, _⟩ => ⟨S_, .i32⟩
  | .hbm, ⟨21, _⟩ => ⟨S32x2048x1, .i32⟩
  | .hbm, ⟨22, _⟩ => ⟨S32x2048x1, .i1⟩
  | .hbm, ⟨23, _⟩ => ⟨S_, .i32⟩
  | .hbm, ⟨24, _⟩ => ⟨S32x2048x1, .i32⟩
  | .hbm, ⟨25, _⟩ => ⟨S32x2048x1, .i32⟩
  | .hbm, ⟨26, _⟩ => ⟨S32x2048x1, .i32⟩
  | .hbm, ⟨27, _⟩ => ⟨S1, .i32⟩
  | .hbm, ⟨28, _⟩ => ⟨S_, .i32⟩
  | .hbm, ⟨29, _⟩ => ⟨S32x2048x1, .i32⟩
  | .hbm, ⟨30, _⟩ => ⟨S32x2048x1, .i1⟩
  | .hbm, ⟨31, _⟩ => ⟨S1x1x1, .i32⟩
  | .hbm, ⟨32, _⟩ => ⟨S32x2048x1, .i32⟩
  | .hbm, ⟨33, _⟩ => ⟨S32x2048x1, .i1⟩
  | .hbm, ⟨34, _⟩ => ⟨S32x2048x1, .i1⟩
  | .hbm, ⟨35, _⟩ => ⟨S_, .i1⟩
  | .hbm, ⟨36, _⟩ => ⟨S32x2048, .i1⟩
  | .hbm, ⟨37, _⟩ => ⟨S32x2048x1024, .f32⟩
  | .hbm, ⟨38, _⟩ => ⟨S32x2048x1024, .i1⟩
  | .hbm, ⟨39, _⟩ => ⟨S_, .f32⟩
  | .hbm, ⟨40, _⟩ => ⟨S32x2048x1024, .f32⟩
  | .hbm, ⟨41, _⟩ => ⟨S32x2048x1024, .f32⟩
  | .hbm, ⟨42, _⟩ => ⟨S_, .i32⟩
  | .hbm, ⟨43, _⟩ => ⟨S32x2048x1, .i32⟩
  | .hbm, ⟨44, _⟩ => ⟨S32x2048x1, .i1⟩
  | .hbm, ⟨45, _⟩ => ⟨S_, .i32⟩
  | .hbm, ⟨46, _⟩ => ⟨S32x2048x1, .i32⟩
  | .hbm, ⟨47, _⟩ => ⟨S32x2048x1, .i32⟩
  | .hbm, ⟨48, _⟩ => ⟨S32x2048x1, .i32⟩
  | .hbm, ⟨49, _⟩ => ⟨S1, .i32⟩
  | .hbm, ⟨50, _⟩ => ⟨S_, .i32⟩
  | .hbm, ⟨51, _⟩ => ⟨S32x2048x1, .i32⟩
  | .hbm, ⟨52, _⟩ => ⟨S32x2048x1, .i1⟩
  | .hbm, ⟨53, _⟩ => ⟨S1x1x1, .i32⟩
  | .hbm, ⟨54, _⟩ => ⟨S32x2048x1, .i32⟩
  | .hbm, ⟨55, _⟩ => ⟨S32x2048x1, .i1⟩
  | .hbm, ⟨56, _⟩ => ⟨S32x2048x1, .i1⟩
  | .hbm, ⟨57, _⟩ => ⟨S_, .i1⟩
  | .hbm, ⟨58, _⟩ => ⟨S32x2048, .i1⟩
  | .hbm, ⟨59, _⟩ => ⟨S32x2048x1024, .f32⟩
  | .hbm, ⟨60, _⟩ => ⟨S32x2048x1024, .i1⟩
  | .hbm, ⟨61, _⟩ => ⟨S_, .f32⟩
  | .hbm, ⟨62, _⟩ => ⟨S32x2048x1024, .f32⟩
  | .hbm, ⟨63, _⟩ => ⟨S32x2048x1024, .f32⟩
  | .hbm, ⟨64, _⟩ => ⟨S32x2048x3072, .f32⟩
  | .hbm, ⟨65, _⟩ => ⟨S32x2048x1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | .hbm, ⟨69, _⟩ => ⟨S_, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S32x2048x1024, .f32⟩
  | .hbm, ⟨74, _⟩ => ⟨S32x2048x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_1 : Ref sig .tc := ⟨.hbm, 27, rfl⟩
abbrev main_call1_c_2 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v9 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_c_2 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_c_3 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_call3_cst : Ref sig .tc := ⟨.hbm, 69, rfl⟩
abbrev main_call3_v0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩

abbrev nD : Nat := 1
abbrev τ : Topo := Topo.v7x

variable {F : FTy → Type} [FloatOps F]

class Facts₀ : Prop where
  concatenates_S32x256x1024_S32x256x1024_S32x256x2048_d2 : Shape.Concatenates [S32x256x1024, S32x256x1024] S32x256x2048 2
  bcast_S1024_S1x1x1024_2 : S1024.BroadcastsInDim S1x1x1024 (![2] : Fin 1 → Fin S1x1x1024.rank)
  bcast_S1x1x1024_S32x256x1024_0_1_2 : S1x1x1024.BroadcastsInDim S32x256x1024 (![0, 1, 2] : Fin 3 → Fin S32x256x1024.rank)
  bcast_S_S32x256x1024 : S_.BroadcastsInDim S32x256x1024 (![] : Fin 0 → Fin S32x256x1024.rank)
  slices_S32x2048x2_S32x2048x1_0_0_0 : S32x2048x2.Slices ![0, 0, 0] S32x2048x1
  slices_S32x2048x2_S32x2048x1_0_0_1 : S32x2048x2.Slices ![0, 0, 1] S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x2048x1024_0_1 : S32x2048.BroadcastsInDim S32x2048x1024 (![0, 1] : Fin 2 → Fin S32x2048x1024.rank)
  bcast_S_S32x2048x1024 : S_.BroadcastsInDim S32x2048x1024 (![] : Fin 0 → Fin S32x2048x1024.rank)
  concatenates_S32x2048x1024_S32x2048x1024_S32x2048x1024_S32x2048x3072_d2 : Shape.Concatenates [S32x2048x1024, S32x2048x1024, S32x2048x1024] S32x2048x3072 2
  bcast_S1x1x1024_S32x2048x1024_0_1_2 : S1x1x1024.BroadcastsInDim S32x2048x1024 (![0, 1, 2] : Fin 3 → Fin S32x2048x1024.rank)
  bcast_S32x2048x1_S32x2048x1024_0_1_2 : S32x2048x1.BroadcastsInDim S32x2048x1024 (![0, 1, 2] : Fin 3 → Fin S32x2048x1024.rank)
  dot_S32x256x2048_S1024x2048_S32x256x1024_2_1_01_0_n_n_wf : DotDims.WF S32x256x2048 S1024x2048 S32x256x1024 [2] [1] [0, 1] [0] [] []
  gather_S32x256x1024_S32x2048x1_S32x2048x1024_2_1_0_0_1_2_111024_wf : GatherDims.WF S32x256x1024 S32x2048x1 S32x2048x1024 [2] [1] [0] [1] [0] 2 ![1, 1, 1024]
  dot_S32x2048x3072_S1024x3072_S32x2048x1024_2_1_01_0_n_n_wf : DotDims.WF S32x2048x3072 S1024x3072 S32x2048x1024 [2] [1] [0, 1] [0] [] []

variable [Facts₀]

def dot_S32x256x2048_S1024x2048_S32x256x1024_2_1_01_0_n_n : DotDims S32x256x2048 S1024x2048 S32x256x1024 where
  lhsContracting := [2]
  rhsContracting := [1]
  lhsNonContracting := [0, 1]
  rhsNonContracting := [0]
  lhsBatch := []
  rhsBatch := []
  wf := dot_S32x256x2048_S1024x2048_S32x256x1024_2_1_01_0_n_n_wf
def gather_S32x256x1024_S32x2048x1_S32x2048x1024_2_1_0_0_1_2_111024 : GatherDims S32x256x1024 S32x2048x1 S32x2048x1024 where
  offsetDims := [2]
  collapsedSliceDims := [1]
  operandBatchingDims := [0]
  startIndicesBatchingDims := [0]
  startIndexMap := [1]
  indexVectorDim := 2
  sliceSizes := ![1, 1, 1024]
  wf := gather_S32x256x1024_S32x2048x1_S32x2048x1024_2_1_0_0_1_2_111024_wf
def dot_S32x2048x3072_S1024x3072_S32x2048x1024_2_1_01_0_n_n : DotDims S32x2048x3072 S1024x3072 S32x2048x1024 where
  lhsContracting := [2]
  rhsContracting := [1]
  lhsNonContracting := [0, 1]
  rhsNonContracting := [0]
  lhsBatch := []
  rhsBatch := []
  wf := dot_S32x2048x3072_S1024x3072_S32x2048x1024_2_1_01_0_n_n_wf

class Facts : Prop extends Facts₀ where

variable [Facts]
-- ==== Proof.KR0Frame.lean ====
/-
  The first pallas_call (the attribute layer) as a region of @main, at any float instance and at any contents `V` of the
  TensorCore's buffers when the region is entered.

  Its grid has 8 points; point t stages rows [1024 t, 1024 t + 1024) of the flattened node and attribute features
  (windows 0 and 1), the two weight halves and the bias whole (windows 2, 3, 4: one block each, fetched once), and
  writes back rows [1024 t, 1024 t + 1024) of the result (window 5). The body loads its five input blocks whole,
  computes one value from them and stores it over the whole output block; it keeps nothing between points. So the
  proof data say: after the body every input buffer still holds its block and the output buffer holds that one value of
  the point's input blocks; the region's invariant is the scoped rest and the generator register, untouched.
-/
import proofs.«410875_j5720896438794_3_alg».proof.Proof.Gen.Kernel.Launch
import proofs.«410875_j5720896438794_3_alg».proof.Proof.Gen.Kernel.Skeleton
import proofs.«410875_j5720896438794_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the region-entry contents and whose body leaves the block in place (the window is uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place (the window is uncut and never idle). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place (the window is uncut and never idle). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place (the window is uncut and never idle). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place (the window is uncut and never idle). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole output block as one rectangle. -/
abbrev r0_out : Rect S1024x1024 := Rect.unit (s := S1024x1024) ![0, 0] S1024x1024.size inb_S1024x1024_S1024x1024_0_0
/-- The whole bias block as one rectangle. -/
abbrev r0_bias : Rect S1x1024 := Rect.unit (s := S1x1024) ![0, 0] S1x1024.size inb_S1x1024_S1x1024_0_0

/-- The output window's staging buffer after the body, from the input blocks: its one store, over the whole block, of
    the body's value of the five loaded blocks. -/
def out0_5 (x0 x1 : Vec F S1024x1024 .f32) (x2 x3 : Vec F S1024x1024 .bf16) (x4 : Vec F S1x1024 .f32) : Vec F S1024x1024 .f32 :=
  View.canon [⟨r0_out, k0_pay1 (View.ld x0 r0_out) (View.ld x1 r0_out) (View.ld x2 r0_out) (View.ld x3 r0_out) (View.ld x4 r0_bias)⟩]

/-- The store covers the buffer. -/
theorem cover0_5 (p0 : Vec F S1024x1024 .f32) (y : S1024x1024.Idx) :
    ∃ pc ∈ ([⟨r0_out, p0⟩] : List (View.Piece (Elt F) S1024x1024 .f32)), y ∈ pc.1.set :=
  View.cover_of_tiled [⟨r0_out, p0⟩] S1024x1024.size (by rfl) y

/-! ## The body's triple -/

set_option maxHeartbeats 1000000 in
/-- The kernel body on whole staging memrefs, the inputs' at read contents and the output's at anything, runs to the
    continuation holding the inputs' as they were and the output's at `out0_5` of the inputs'. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (x0 x1 : Vec F S1024x1024 .f32) (x2 x3 : Vec F S1024x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__attr_kernel i arg1 harg1 arg2 harg2 arg3 harg3 arg4 harg4 arg5 harg5 arg6 harg6) K := by
  simp only [cc0__attr_kernel_eq_skeleton]; unfold cc0__attr_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the attribute layer's pipeline on core `c`: the arrays as the region finds them; after the body at
    point `t` each input's buffer at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Runs.lean ====
import proofs.«410875_j5720896438794_3_alg».proof.Proof.Gen.Kernel.Launch
import proofs.«410875_j5720896438794_3_alg».proof.Proof.Gen.Kernel.Skeleton
import proofs.«410875_j5720896438794_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (the relation kernel on the grid 32 × 4): what its frame is stated over

Point `t = 4·b + r` of the grid handles relation rows `512·r … 512·r + 511` of batch `b`. At `r = 0` the kernel
projects the batch's 256 object rows through two weight matrices into two bf16 buffers of shape 256 × 1024 that are
no window of the pipeline; the three later points of the batch read those two buffers without writing them. So what a
point computes depends on what an EARLIER point left in memory: the two buffers are carried from point to point.

Everything here is stated at a parameter `V`, the TensorCore's buffer contents when the region is entered. -/

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the object rows of batch b): its current staging buffer holds the window's block at every point, whether
    the point fetched it or not (where it was not fetched the block index has not moved), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the relation rows of the point): its current staging buffer holds the window's block at every point, whether
    the point fetched it or not (where it was not fetched the block index has not moved), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the edge endpoints of the point): its current staging buffer holds the window's block at every point, whether
    the point fetched it or not (where it was not fetched the block index has not moved), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the relation mask of the point): its current staging buffer holds the window's block at every point, whether
    the point fetched it or not (where it was not fetched the block index has not moved), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the first weight matrix): its current staging buffer holds the window's block at every point, whether
    the point fetched it or not (where it was not fetched the block index has not moved), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the second weight matrix): its current staging buffer holds the window's block at every point, whether
    the point fetched it or not (where it was not fetched the block index has not moved), for any proof data whose
    array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the third weight matrix): its current staging buffer holds the window's block at every point, whether
    the point fetched it or not (where it was not fetched the block index has not moved), for any proof data whose
    array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the bias row): its current staging buffer holds the window's block at every point, whether
    the point fetched it or not (where it was not fetched the block index has not moved), for any proof data whose
    array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The one branch of the body -/

/-- The branch condition of the body, from the grid coordinates: the second coordinate compared with zero, the
    comparison widened to a word and tested again, as the body spells it. -/
abbrev cond1_0 (i : grid1.Coords) : Prop := (Scalar.cmpi .ne (Scalar.extui (Scalar.cmpi .eq (BitVec.ofNat 32 (i 1).val) 0#32)) 0#32) = 1#1
/-- It holds exactly at the first point of each batch, `t ≡ 0 (mod 4)`: decided over the 128 points. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The output window is live everywhere -/

/-- The body stores the whole output block at every point, and the configuration calls no point idle. -/
theorem liveAt1_8 : ∀ t : Fin cfg1.N, cfg1.idle 8 (grid1.coords t) = false := fun _ => rfl

/-! ## The memrefs the body is called with -/

/-- One staging buffer of the output window, through which its contents are stated (which of the two does not
    matter: a covering list of pieces reads back the same through any view of the shape). -/
abbrev VO1_8 : View sig .tc .vmem S1x512x1024 .f32 := (Memref.whole cc1_stg8_0 : Memref sig .tc .vmem S1x512x1024 .f32).view
/-- Each window's current staging memref at point `t`, and its wholeness. -/
abbrev ms1_0 (t : Fin cfg1.N) : Memref sig .tc .vmem S1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x1024 .f32 := win1_8.stage (cfg1.slots t 8)
abbrev hs1_8 (t : Fin cfg1.N) : (ms1_8 t).IsWhole := hstage1_8 ((cfg1.slots t 8).cast nbuf1_8)
/-- The two carried buffers as memrefs: whole scoped buffers of the kernel's own, passed beside the windows. -/
abbrev scM1_0 : Memref sig .tc .vmem S256x1024 .bf16 := Memref.whole cc1_scratch0
abbrev scM1_1 : Memref sig .tc .vmem S256x1024 .bf16 := Memref.whole cc1_scratch1
/-- The same as views: what each holds is stated through it. -/
abbrev VS1_0 : View sig .tc .vmem S256x1024 .bf16 := scM1_0.view
abbrev VS1_1 : View sig .tc .vmem S256x1024 .bf16 := scM1_1.view

/-! ## The region invariant, spelled out -/

/-- The nine staging buffers of the FIRST pallas_call, each whole at some contents: scoped buffers of the core that
    this region never touches. They ride along as one assertion. -/
def otherStaging (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f))

/-- The class invariant of the region with the two carried buffers as memrefs owned at some contents: the other
    call's staging buffers, the two carried buffers, the generator register at some state. -/
theorem PhiA1_eq (c : Dev nD) :
    (Pipeline.ΦA spec1 c : sProp 𝕄)
      = iprop(iprop(otherStaging (F := F) c ∗ (∃ d, owns (c : Thread nD τ) scM1_0 fullShare d) ∗ (∃ d, owns (c : Thread nD τ) scM1_1 fullShare d)) ∗ (∃ r, prngReg c r)) := by
  unfold Pipeline.ΦA otherStaging; rw [scopedRest1_eq]; simp only [scM1_0, scM1_1, owns_whole]
  refine BI.equiv_iff.mp ⟨?_, ?_⟩
  · show (_ : sProp 𝕄) ⊢ _
    iintro ⟨⟨H1, H2, H3, H4, H5, H6, H7, H8, H9, HS0, HS1⟩, Hg⟩
    isplitr [Hg]
    · isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [HS0]; · iexact HS0
      iexact HS1
    iexact Hg
  · show (_ : sProp 𝕄) ⊢ _
    iintro ⟨⟨⟨H1, H2, H3, H4, H5, H6, H7, H8, H9⟩, HS0, HS1⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iexact HS1
    iexact Hg

end Cert.Kernel.Hand

end
-- ==== Proof.KR1RunA.lean ====
import proofs.«410875_j5720896438794_3_alg».proof.Proof.KR1Runs

-- membership in a rectangle of full extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the relation kernel at the FIRST point of a batch

The branch is taken: the body loads the batch's object rows and the first weight matrix, writes the first projection
over the whole first carried buffer, loads the third weight matrix and writes the second projection over the whole
second carried buffer; then, as at every point, it gathers from the two buffers by the edge endpoints, adds the
relation term, and stores the whole output block. Both carried buffers are entered at contents nobody knows and left
covered by one store each. -/

-- (the run's proof term is large: the definition's epilogue walks it past the default budget)
set_option maxHeartbeats 1000000 in
/-- What the body's stores leave in the output's staging memref and in the two carried buffers, as pieces (last first),
    at a point where the branch is taken, WITH the proof that on whole memrefs — the eight inputs' at their contents
    `x0 … x7`, the output's and the two carried buffers' at anything — the body runs to the continuation holding the
    inputs' as they were and each of the three written buffers with its pieces written over what it held. The lists are
    the witness the symbolic run finds: they are fixed when each buffer is handed to the continuation. -/
noncomputable def kernelRun1_A (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) :
    Σ' (L8 : List (View.Piece (Elt F) S1x512x1024 .f32)) (LS0 : List (View.Piece (Elt F) S256x1024 .bf16)), { LS1 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__rela_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__rela_kernel_eq_skeleton]; unfold cc1__rela_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.Kernel.Hand

end
-- ==== Proof.KR1RunB.lean ====
import proofs.«410875_j5720896438794_3_alg».proof.Proof.KR1RunA

-- membership in a rectangle of full extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the relation kernel at a LATER point of a batch

The branch is not taken: the body reads the two carried buffers as the batch's first point left them, gathers from
them by the edge endpoints, adds the relation term, and stores the whole output block. It writes neither carried
buffer, so each comes back at exactly the contents it was handed at. -/

-- (the run's proof term is large: the definition's epilogue walks it past the default budget)
set_option maxHeartbeats 1000000 in
/-- What the body's store leaves in the output's staging memref, as pieces (last first), at a point where the branch is
    not taken, WITH the proof that on whole memrefs — the eight inputs' at their contents `x0 … x7`, the two carried
    buffers' at the contents `xs0`, `xs1` the point before left, the output's at anything — the body runs to the
    continuation holding the inputs' and the two carried buffers' as they were and the output's with its pieces written
    over what it held. The list is the witness the symbolic run finds. -/
noncomputable def kernelRun1_B (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 : Vec F S256x1024 .bf16) (xs1 : Vec F S256x1024 .bf16) :
    { L8 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1) -∗ K ⟨⟩))
          ⊢ wp frame (wpE (defs₀ (F := F)) Variants.none c none) E (cc1__rela_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__rela_kernel_eq_skeleton]; unfold cc1__rela_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _; isplitr; · ipureintro; exact harg12.read_unread _
    iexact HS1

end Cert.Kernel.Hand

end
-- ==== Proof.KR1Frame.lean ====
import proofs.«410875_j5720896438794_3_alg».proof.Proof.KR1RunB

-- membership in a rectangle of full extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The relation kernel's frame: what each point leaves, and the invariant that carries the two buffers

The 128 points come in 32 batches of four. The first point of a batch overwrites both carried buffers whole; the three
that follow only read them. So after ANY point the two buffers hold what the most recent first-of-batch point wrote,
and the output block is a function of the point's own input blocks and of those two buffers. `outsAt1` states this as a
recursion on the point; `PhiS1` is the region invariant that owns the two buffers at exactly those contents between
points; the body obligation then follows point by point from the two runs of the body. -/

section Region
variable (V : (c : Dev nD) → (b : Ref sig .tc) → Buf (Elt F) ((c : Thread nD τ).loc b))

/-! ## What each case leaves: the found pieces read back -/

/-- At a first-of-batch point the one store into the output block covers it. -/
theorem cover1_A_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S1x512x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x512x1024.size (by sl_kernel_rfl) y

/-- What a first-of-batch point leaves in the output's staging buffer: its pieces read back (over junk: they cover). -/
def out1_A_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) : Vec F S1x512x1024 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- At a first-of-batch point the one store into the first carried buffer covers it. -/
theorem scover1_A_0 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S256x1024.size (by sl_kernel_rfl) y

/-- What a first-of-batch point leaves in the first carried buffer. -/
def sout1_A_0 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) : Vec F S256x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- At a first-of-batch point the one store into the second carried buffer covers it. -/
theorem scover1_A_1 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S256x1024.size (by sl_kernel_rfl) y

/-- What a first-of-batch point leaves in the second carried buffer. -/
def sout1_A_1 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) : Vec F S256x1024 .bf16 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- At a later point of a batch the one store into the output block covers it. -/
theorem cover1_B_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 : Vec F S256x1024 .bf16) (xs1 : Vec F S256x1024 .bf16) (y : S1x512x1024.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1 S1x512x1024.size (by sl_kernel_rfl) y

/-- What a later point of a batch leaves in the output's staging buffer, given what the two carried buffers hold. -/
def out1_B_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 : Vec F S256x1024 .bf16) (xs1 : Vec F S256x1024 .bf16) : Vec F S1x512x1024 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1)

/-! ## What the buffers hold after each point -/

/-- After the body at position `n`: the output's staging buffer, then the first carried buffer, then the second. A
    first-of-batch point (`n ≡ 0 mod 4`) computes all three from its own input blocks; any other point computes the
    output from its input blocks and the carried buffers as the point before left them, and leaves those two as they
    were. -/
def outsAt1 (c : Dev nD) : (n : ℕ) → n < cfg1.N → Vec F S1x512x1024 .f32 × Vec F S256x1024 .bf16 × Vec F S256x1024 .bf16
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, (outsAt1 c n (Nat.lt_of_succ_lt hn)).2.1, (outsAt1 c n (Nat.lt_of_succ_lt hn)).2.2)

/-- `outsAt1` at a first-of-batch point. -/
theorem outsAt1_A (c : Dev nD) (t : Fin cfg1.N) (h0 : t.val % 4 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans rfl

/-- `outsAt1` at a later point of a batch: the output over what the point before left in the two carried buffers,
    which stay as they were. -/
theorem outsAt1_B (c : Dev nD) (t : Fin cfg1.N) (h0 : ¬t.val % 4 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant -/

/-- The invariant before position `n`. Before the first point it is the class invariant (both carried buffers at
    anything). Afterwards: the other call's staging buffers, the two carried buffers OWNED at what the point before
    left in them, and the generator register at some state. -/
def PhiS1 (c : Dev nD) : (n : ℕ) → n ≤ cfg1.N → sProp 𝕄
  | 0, _ => Pipeline.ΦA spec1 c
  | n + 1, hn => iprop(iprop(otherStaging (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(iprop(otherStaging (F := F) c ∗ owns (c : Thread nD τ) scM1_0 fullShare ((outsAt1 V c n hn).2.1) ∗ owns (c : Thread nD τ) scM1_1 fullShare ((outsAt1 V c n hn).2.2)) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(otherStaging (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of the second pallas_call on core `c`: the arrays as the region finds them; after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns (no point is idle for any window, so each buffer is left at `after`). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4800000 in
/-- The body at any point. The inputs' memrefs hold their blocks; the point's residue mod 4 says which run of the body
    applies. At a first-of-batch point the invariant hands over both carried buffers (at anything at the very first
    point, at named contents later: forgotten either way) and takes them back at what the point's stores cover them
    with. At a later point it hands them over at what the point before left and takes them back unchanged. The core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8]
  have hN : t.val < 128 := lt_of_lt_of_eq t.isLt (show cfg1.N = 128 from N_1)
  by_cases h0 : t.val % 4 = 0
  · rw [outsAt1_A V c t h0]
    unfold out1_A_8 sout1_A_0 sout1_A_1; (try dsimp only)
    by_cases hz : t.val = 0
    · rw [PhiS1_castSucc V c t, PhiS1_zero V c _ _ hz, PhiA1_eq]
      iintro ⟨⟨⟨Hst, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [Hst HS0 HS1 Hg]
      · isplitl [Hst HS0 HS1]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
    · rw [PhiS1_castSucc V c t, PhiS1_pos V c _ _ hz]
      iintro ⟨⟨⟨Hst, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      iintro ⟨H0, H1, H2, H3, H4, H5, H6, H7, ⟨%e8, H8⟩, ⟨%es0, HS0⟩, ⟨%es1, HS1⟩⟩
      isplitl [Hst HS0 HS1 Hg]
      · isplitl [Hst HS0 HS1]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
  · rw [outsAt1_B V c t h0]
    unfold out1_B_8; (try dsimp only)
    by_cases hz : t.val = 0
    · exfalso; omega
    · rw [PhiS1_castSucc V c t, PhiS1_pos V c _ _ hz]
      iintro ⟨⟨⟨Hst, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, HS0, HS1⟩
      isplitl [Hst HS0 HS1 Hg]
      · isplitl [Hst HS0 HS1]
        · isplitl [Hst]; · iexact Hst
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the region and out of it -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the carried buffers' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hst, HS0, HS1⟩, Hg⟩
  isplitl [Hst HS0 HS1]
  · isplitl [Hst]; · iexact Hst
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.Hand

end
-- ==== Proof.KFrameRun.lean ====
/-
  @main as four segments — the host lines that cut the weights and flatten the node features, the attribute layer's
  pallas_call, the host lines that restore its result's shape and cut the relation weights, the relation layer's
  pallas_call — and the launch over them: every weakly fair execution terminates, and at the end every unscoped buffer
  of a TensorCore holds what the fold below says: the launch contents pushed through each host stretch, and through each
  region the region's arrays at what its write-backs leave, every other buffer untouched.
  From it: the frame (no stretch and no region writes an argument) and the two results' contents.
-/
import proofs.«410875_j5720896438794_3_alg».proof.Proof.KR0Frame
import proofs.«410875_j5720896438794_3_alg».proof.Proof.KR1Frame
import proofs.«410875_j5720896438794_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the first host stretch (the attribute layer's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the attribute layer's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the relation layer's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the relation layer's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## A buffer no host line writes and the attribute layer does not stage keeps its launch contents up to the
    relation layer's entry -/

theorem through_host (c : Dev nD) (b : Ref sig .tc) (h1 : b ∉ hostOps1_W) (h0 : ∀ w, Pipeline.arrRef spec0 w ≠ b) (h00 : b ∉ hostOps0_W) :
    W3 m c (Proc.devRef .tc b) = m ((c : Thread nD τ).loc b) :=
  (StableHlo.after_of_writes_sub hostOps1 _ hostOps1_writes h1).trans
    ((W2_of_ne m c b h0).trans ((StableHlo.after_of_writes_sub hostOps0 _ hostOps0_writes h00).trans rfl))

theorem W4_main_arg1 (c : Dev nD) : W4 m c (Proc.devRef .tc main_arg1) = m ((c : Thread nD τ).loc main_arg1) :=
  (W4_of_ne m c main_arg1 (by decide)).trans (through_host m c main_arg1 (by decide) (by decide) (by decide))
theorem W4_main_arg5 (c : Dev nD) : W4 m c (Proc.devRef .tc main_arg5) = m ((c : Thread nD τ).loc main_arg5) :=
  (W4_of_ne m c main_arg5 (by decide)).trans (through_host m c main_arg5 (by decide) (by decide) (by decide))
theorem W4_main_arg6 (c : Dev nD) : W4 m c (Proc.devRef .tc main_arg6) = m ((c : Thread nD τ).loc main_arg6) :=
  (W4_of_ne m c main_arg6 (by decide)).trans (through_host m c main_arg6 (by decide) (by decide) (by decide))
theorem W4_main_arg7 (c : Dev nD) : W4 m c (Proc.devRef .tc main_arg7) = m ((c : Thread nD τ).loc main_arg7) :=
  (W4_of_ne m c main_arg7 (by decide)).trans (through_host m c main_arg7 (by decide) (by decide) (by decide))
theorem W4_main_arg8 (c : Dev nD) : W4 m c (Proc.devRef .tc main_arg8) = m ((c : Thread nD τ).loc main_arg8) :=
  (W4_of_ne m c main_arg8 (by decide)).trans (through_host m c main_arg8 (by decide) (by decide) (by decide))
theorem W4_main_arg0 (c : Dev nD) : W4 m c (Proc.devRef .tc main_arg0) = m ((c : Thread nD τ).loc main_arg0) :=
  (W4_arr m c 0).trans (((dat1 (U3 m) c).arrAt_in 0 rfl _).trans ((A_eq1 (U3 m) c 0).trans (through_host m c main_arg0 (by decide) (by decide) (by decide))))
theorem W4_main_arg2 (c : Dev nD) : W4 m c (Proc.devRef .tc main_arg2) = m ((c : Thread nD τ).loc main_arg2) :=
  (W4_arr m c 1).trans (((dat1 (U3 m) c).arrAt_in 1 rfl _).trans ((A_eq1 (U3 m) c 1).trans (through_host m c main_arg2 (by decide) (by decide) (by decide))))
theorem W4_main_arg3 (c : Dev nD) : W4 m c (Proc.devRef .tc main_arg3) = m ((c : Thread nD τ).loc main_arg3) :=
  (W4_arr m c 2).trans (((dat1 (U3 m) c).arrAt_in 2 rfl _).trans ((A_eq1 (U3 m) c 2).trans (through_host m c main_arg3 (by decide) (by decide) (by decide))))
theorem W4_main_arg4 (c : Dev nD) : W4 m c (Proc.devRef .tc main_arg4) = m ((c : Thread nD τ).loc main_arg4) :=
  (W4_arr m c 3).trans (((dat1 (U3 m) c).arrAt_in 3 rfl _).trans ((A_eq1 (U3 m) c 3).trans (through_host m c main_arg4 (by decide) (by decide) (by decide))))

/-! ## The proof data family and the thread state -/

/-- No pipeline has a prefetched table. -/
abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (U1 m) c
  | ⟨1, _⟩ => fun c => dat1 (U3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The attribute layer over the thread state: entered from every unscoped buffer at `W1`, left at `W2`. -/
def reg0 : Pipeline.RegionSeg (pcfgs (F := F)) admT (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The relation layer over the thread state: entered from every unscoped buffer at `W3`, left at `W4`. Its invariant
    starts as the scoped rest and the generator register and, from the first point on, names what the two projection
    buffers hold; at the end those contents are forgotten again. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (U3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (U3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segsT : List (Pipeline.Seg (pcfgs (F := F)) admT (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segsT m) := (main_chain c).trans (by chain_rfl)

set_option backward.isDefEq.respectTransparency.types false in
/-- THE RUN: from any memory with zero counters every weakly fair execution of @main on the TensorCores terminates,
    nothing faulting, and in every final state every unscoped TensorCore buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admT (pdats m) () cellOf_inj emb₁ defs₀ 𝒱₀ L lv m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

end Cert.Kernel.Hand

end
-- ==== Proof.R0Frame.lean ====
/-
  The first pallas_call (the attribute layer) as a region of @main, at any float instance and at any contents `V` of the
  TensorCore's buffers when the region is entered.

  Its grid has 8 points; point t stages rows [1024 t, 1024 t + 1024) of the flattened node and attribute features
  (windows 0 and 1), the two weight halves and the bias whole (windows 2, 3, 4: one block each, fetched once), and
  writes back rows [1024 t, 1024 t + 1024) of the result (window 5). The body loads its five input blocks whole,
  computes one value from them and stores it over the whole output block; it keeps nothing between points. So the
  proof data say: after the body every input buffer still holds its block and the output buffer holds that one value of
  the point's input blocks; the region's invariant is the scoped rest and the generator register, untouched.
-/
import proofs.«410875_j5720896438794_3_alg».proof.Proof.Gen.KernelIdeal.Launch
import proofs.«410875_j5720896438794_3_alg».proof.Proof.Gen.KernelIdeal.Skeleton
import proofs.«410875_j5720896438794_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the region-entry contents and whose body leaves the block in place (the window is uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place (the window is uncut and never idle). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place (the window is uncut and never idle). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place (the window is uncut and never idle). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place (the window is uncut and never idle). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store -/

/-- The whole output block as one rectangle. -/
abbrev r0_out : Rect S1024x1024 := Rect.unit (s := S1024x1024) ![0, 0] S1024x1024.size inb_S1024x1024_S1024x1024_0_0
/-- The whole bias block as one rectangle. -/
abbrev r0_bias : Rect S1x1024 := Rect.unit (s := S1x1024) ![0, 0] S1x1024.size inb_S1x1024_S1x1024_0_0

/-- The output window's staging buffer after the body, from the input blocks: its one store, over the whole block, of
    the body's value of the five loaded blocks. -/
def out0_5 (x0 x1 : Vec F S1024x1024 .f32) (x2 x3 : Vec F S1024x1024 .bf16) (x4 : Vec F S1x1024 .f32) : Vec F S1024x1024 .f32 :=
  View.canon [⟨r0_out, k0_pay1 (View.ld x0 r0_out) (View.ld x1 r0_out) (View.ld x2 r0_out) (View.ld x3 r0_out) (View.ld x4 r0_bias)⟩]

/-- The store covers the buffer. -/
theorem cover0_5 (p0 : Vec F S1024x1024 .f32) (y : S1024x1024.Idx) :
    ∃ pc ∈ ([⟨r0_out, p0⟩] : List (View.Piece (Elt F) S1024x1024 .f32)), y ∈ pc.1.set :=
  View.cover_of_tiled [⟨r0_out, p0⟩] S1024x1024.size (by rfl) y

/-! ## The body's triple -/

set_option maxHeartbeats 1000000 in
/-- The kernel body on whole staging memrefs, the inputs' at read contents and the output's at anything, runs to the
    continuation holding the inputs' as they were and the output's at `out0_5` of the inputs'. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (x0 x1 : Vec F S1024x1024 .f32) (x2 x3 : Vec F S1024x1024 .bf16) (x4 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__attr_kernel i arg1 harg1 arg2 harg2 arg3 harg3 arg4 harg4 arg5 harg5 arg6 harg6) K := by
  simp only [cc0__attr_kernel_eq_skeleton]; unfold cc0__attr_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the attribute layer's pipeline on core `c`: the arrays as the region finds them; after the body at
    point `t` each input's buffer at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Runs.lean ====
import proofs.«410875_j5720896438794_3_alg».proof.Proof.Gen.KernelIdeal.Launch
import proofs.«410875_j5720896438794_3_alg».proof.Proof.Gen.KernelIdeal.Skeleton
import proofs.«410875_j5720896438794_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call (the relation kernel on the grid 32 × 4): what its frame is stated over

Point `t = 4·b + r` of the grid handles relation rows `512·r … 512·r + 511` of batch `b`. At `r = 0` the kernel
projects the batch's 256 object rows through two weight matrices into two bf16 buffers of shape 256 × 1024 that are
no window of the pipeline; the three later points of the batch read those two buffers without writing them. So what a
point computes depends on what an EARLIER point left in memory: the two buffers are carried from point to point.

Everything here is stated at a parameter `V`, the TensorCore's buffer contents when the region is entered. -/

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the object rows of batch b): its current staging buffer holds the window's block at every point, whether
    the point fetched it or not (where it was not fetched the block index has not moved), for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the relation rows of the point): its current staging buffer holds the window's block at every point, whether
    the point fetched it or not (where it was not fetched the block index has not moved), for any proof data whose
    array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the edge endpoints of the point): its current staging buffer holds the window's block at every point, whether
    the point fetched it or not (where it was not fetched the block index has not moved), for any proof data whose
    array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the relation mask of the point): its current staging buffer holds the window's block at every point, whether
    the point fetched it or not (where it was not fetched the block index has not moved), for any proof data whose
    array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the first weight matrix): its current staging buffer holds the window's block at every point, whether
    the point fetched it or not (where it was not fetched the block index has not moved), for any proof data whose
    array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the second weight matrix): its current staging buffer holds the window's block at every point, whether
    the point fetched it or not (where it was not fetched the block index has not moved), for any proof data whose
    array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the third weight matrix): its current staging buffer holds the window's block at every point, whether
    the point fetched it or not (where it was not fetched the block index has not moved), for any proof data whose
    array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the bias row): its current staging buffer holds the window's block at every point, whether
    the point fetched it or not (where it was not fetched the block index has not moved), for any proof data whose
    array is `V`'s and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The one branch of the body -/

/-- The branch condition of the body, from the grid coordinates: the second coordinate compared with zero, the
    comparison widened to a word and tested again, as the body spells it. -/
abbrev cond1_0 (i : grid1.Coords) : Prop := (Scalar.cmpi .ne (Scalar.extui (Scalar.cmpi .eq (BitVec.ofNat 32 (i 1).val) 0#32)) 0#32) = 1#1
/-- It holds exactly at the first point of each batch, `t ≡ 0 (mod 4)`: decided over the 128 points. -/
theorem hcond1_0 : ∀ t : Fin cfg1.N, cond1_0 (grid1.coords t) ↔ t.val % 4 = 0 :=
  (by decide +kernel : ∀ t : Fin grid1.N, cond1_0 (grid1.coords t) ↔ t.val % 4 = 0)

/-! ## The output window is live everywhere -/

/-- The body stores the whole output block at every point, and the configuration calls no point idle. -/
theorem liveAt1_8 : ∀ t : Fin cfg1.N, cfg1.idle 8 (grid1.coords t) = false := fun _ => rfl

/-! ## The memrefs the body is called with -/

/-- One staging buffer of the output window, through which its contents are stated (which of the two does not
    matter: a covering list of pieces reads back the same through any view of the shape). -/
abbrev VO1_8 : View sig .tc .vmem S1x512x1024 .f32 := (Memref.whole cc1_stg8_0 : Memref sig .tc .vmem S1x512x1024 .f32).view
/-- Each window's current staging memref at point `t`, and its wholeness. -/
abbrev ms1_0 (t : Fin cfg1.N) : Memref sig .tc .vmem S1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x1024 .f32 := win1_8.stage (cfg1.slots t 8)
abbrev hs1_8 (t : Fin cfg1.N) : (ms1_8 t).IsWhole := hstage1_8 ((cfg1.slots t 8).cast nbuf1_8)
/-- The two carried buffers as memrefs: whole scoped buffers of the kernel's own, passed beside the windows. -/
abbrev scM1_0 : Memref sig .tc .vmem S256x1024 .bf16 := Memref.whole cc1_scratch0
abbrev scM1_1 : Memref sig .tc .vmem S256x1024 .bf16 := Memref.whole cc1_scratch1
/-- The same as views: what each holds is stated through it. -/
abbrev VS1_0 : View sig .tc .vmem S256x1024 .bf16 := scM1_0.view
abbrev VS1_1 : View sig .tc .vmem S256x1024 .bf16 := scM1_1.view

/-! ## The region invariant, spelled out -/

/-- The nine staging buffers of the FIRST pallas_call, each whole at some contents: scoped buffers of the core that
    this region never touches. They ride along as one assertion. -/
def otherStaging (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f))

/-- The class invariant of the region with the two carried buffers as memrefs owned at some contents: the other
    call's staging buffers, the two carried buffers, the generator register at some state. -/
theorem PhiA1_eq (c : Dev nD) :
    (Pipeline.ΦA spec1 c : sProp 𝕄)
      = iprop(iprop(otherStaging (F := F) c ∗ (∃ d, owns (c : Thread nD τ) scM1_0 fullShare d) ∗ (∃ d, owns (c : Thread nD τ) scM1_1 fullShare d)) ∗ (∃ r, prngReg c r)) := by
  unfold Pipeline.ΦA otherStaging; rw [scopedRest1_eq]; simp only [scM1_0, scM1_1, owns_whole]
  refine BI.equiv_iff.mp ⟨?_, ?_⟩
  · show (_ : sProp 𝕄) ⊢ _
    iintro ⟨⟨H1, H2, H3, H4, H5, H6, H7, H8, H9, HS0, HS1⟩, Hg⟩
    isplitr [Hg]
    · isplitl [H1 H2 H3 H4 H5 H6 H7 H8 H9]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [HS0]; · iexact HS0
      iexact HS1
    iexact Hg
  · show (_ : sProp 𝕄) ⊢ _
    iintro ⟨⟨⟨H1, H2, H3, H4, H5, H6, H7, H8, H9⟩, HS0, HS1⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iexact HS1
    iexact Hg

end Cert.KernelIdeal.Hand

end
-- ==== Proof.R1RunA.lean ====
import proofs.«410875_j5720896438794_3_alg».proof.Proof.R1Runs

-- membership in a rectangle of full extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the relation kernel at the FIRST point of a batch

The branch is taken: the body loads the batch's object rows and the first weight matrix, writes the first projection
over the whole first carried buffer, loads the third weight matrix and writes the second projection over the whole
second carried buffer; then, as at every point, it gathers from the two buffers by the edge endpoints, adds the
relation term, and stores the whole output block. Both carried buffers are entered at contents nobody knows and left
covered by one store each. -/

-- (the run's proof term is large: the definition's epilogue walks it past the default budget)
set_option maxHeartbeats 1000000 in
/-- What the body's stores leave in the output's staging memref and in the two carried buffers, as pieces (last first),
    at a point where the branch is taken, WITH the proof that on whole memrefs — the eight inputs' at their contents
    `x0 … x7`, the output's and the two carried buffers' at anything — the body runs to the continuation holding the
    inputs' as they were and each of the three written buffers with its pieces written over what it held. The lists are
    the witness the symbolic run finds: they are fixed when each buffer is handed to the continuation. -/
noncomputable def kernelRun1_A (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) :
    Σ' (L8 : List (View.Piece (Elt F) S1x512x1024 .f32)) (LS0 : List (View.Piece (Elt F) S256x1024 .bf16)), { LS1 : List (View.Piece (Elt F) S256x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__rela_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1__rela_kernel_eq_skeleton]; unfold cc1__rela_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    iexists _; iexact HS1

end Cert.KernelIdeal.Hand

end
-- ==== Proof.R1RunB.lean ====
import proofs.«410875_j5720896438794_3_alg».proof.Proof.R1RunA

-- membership in a rectangle of full extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the relation kernel at a LATER point of a batch

The branch is not taken: the body reads the two carried buffers as the batch's first point left them, gathers from
them by the edge endpoints, adds the relation term, and stores the whole output block. It writes neither carried
buffer, so each comes back at exactly the contents it was handed at. -/

-- (the run's proof term is large: the definition's epilogue walks it past the default budget)
set_option maxHeartbeats 1000000 in
/-- What the body's store leaves in the output's staging memref, as pieces (last first), at a point where the branch is
    not taken, WITH the proof that on whole memrefs — the eight inputs' at their contents `x0 … x7`, the two carried
    buffers' at the contents `xs0`, `xs1` the point before left, the output's at anything — the body runs to the
    continuation holding the inputs' and the two carried buffers' as they were and the output's with its pieces written
    over what it held. The list is the witness the symbolic run finds. -/
noncomputable def kernelRun1_B (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 : Vec F S256x1024 .bf16) (xs1 : Vec F S256x1024 .bf16) :
    { L8 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0 ∗ owns (c : Thread nD τ) arg12 fullShare xs1) -∗ K ⟨⟩))
          ⊢ wp frame (wpE (defs₀ (F := F)) Variants.none c none) E (cc1__rela_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1__rela_kernel_eq_skeleton]; unfold cc1__rela_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _; isplitr; · ipureintro; exact harg11.read_unread _
      iexact HS0
    iexists _; isplitr; · ipureintro; exact harg12.read_unread _
    iexact HS1

end Cert.KernelIdeal.Hand

end
-- ==== Proof.R1Frame.lean ====
import proofs.«410875_j5720896438794_3_alg».proof.Proof.R1RunB

-- membership in a rectangle of full extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The relation kernel's frame: what each point leaves, and the invariant that carries the two buffers

The 128 points come in 32 batches of four. The first point of a batch overwrites both carried buffers whole; the three
that follow only read them. So after ANY point the two buffers hold what the most recent first-of-batch point wrote,
and the output block is a function of the point's own input blocks and of those two buffers. `outsAt1` states this as a
recursion on the point; `PhiS1` is the region invariant that owns the two buffers at exactly those contents between
points; the body obligation then follows point by point from the two runs of the body. -/

section Region
variable (V : (c : Dev nD) → (b : Ref sig .tc) → Buf (Elt F) ((c : Thread nD τ).loc b))

/-! ## What each case leaves: the found pieces read back -/

/-- At a first-of-batch point the one store into the output block covers it. -/
theorem cover1_A_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S1x512x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x512x1024.size (by sl_kernel_rfl) y

/-- What a first-of-batch point leaves in the output's staging buffer: its pieces read back (over junk: they cover). -/
def out1_A_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) : Vec F S1x512x1024 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- At a first-of-batch point the one store into the first carried buffer covers it. -/
theorem scover1_A_0 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S256x1024.size (by sl_kernel_rfl) y

/-- What a first-of-batch point leaves in the first carried buffer. -/
def sout1_A_0 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) : Vec F S256x1024 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- At a first-of-batch point the one store into the second carried buffer covers it. -/
theorem scover1_A_1 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S256x1024.size (by sl_kernel_rfl) y

/-- What a first-of-batch point leaves in the second carried buffer. -/
def sout1_A_1 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) : Vec F S256x1024 .bf16 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- At a later point of a batch the one store into the output block covers it. -/
theorem cover1_B_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 : Vec F S256x1024 .bf16) (xs1 : Vec F S256x1024 .bf16) (y : S1x512x1024.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1 S1x512x1024.size (by sl_kernel_rfl) y

/-- What a later point of a batch leaves in the output's staging buffer, given what the two carried buffers hold. -/
def out1_B_8 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 : Vec F S256x1024 .bf16) (xs1 : Vec F S256x1024 .bf16) : Vec F S1x512x1024 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1)

/-! ## What the buffers hold after each point -/

/-- After the body at position `n`: the output's staging buffer, then the first carried buffer, then the second. A
    first-of-batch point (`n ≡ 0 mod 4`) computes all three from its own input blocks; any other point computes the
    output from its input blocks and the carried buffers as the point before left them, and leaves those two as they
    were. -/
def outsAt1 (c : Dev nD) : (n : ℕ) → n < cfg1.N → Vec F S1x512x1024 .f32 × Vec F S256x1024 .bf16 × Vec F S256x1024 .bf16
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2, (outsAt1 c n (Nat.lt_of_succ_lt hn)).2.1, (outsAt1 c n (Nat.lt_of_succ_lt hn)).2.2)

/-- `outsAt1` at a first-of-batch point. -/
theorem outsAt1_A (c : Dev nD) (t : Fin cfg1.N) (h0 : t.val % 4 = 0) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans rfl

/-- `outsAt1` at a later point of a batch: the output over what the point before left in the two carried buffers,
    which stay as they were. -/
theorem outsAt1_B (c : Dev nD) (t : Fin cfg1.N) (h0 : ¬t.val % 4 = 0) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2, (outsAt1 V c (t.val - 1) (Nat.lt_of_le_of_lt (Nat.sub_le _ _) t.isLt)).2.1, (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region invariant -/

/-- The invariant before position `n`. Before the first point it is the class invariant (both carried buffers at
    anything). Afterwards: the other call's staging buffers, the two carried buffers OWNED at what the point before
    left in them, and the generator register at some state. -/
def PhiS1 (c : Dev nD) : (n : ℕ) → n ≤ cfg1.N → sProp 𝕄
  | 0, _ => Pipeline.ΦA spec1 c
  | n + 1, hn => iprop(iprop(otherStaging (F := F) c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried buffers at that point's contents. -/
theorem PhiS1_succ (c : Dev nD) (n : ℕ) (hn : n < cfg1.N) :
    PhiS1 V c (n + 1) hn = iprop(iprop(otherStaging (F := F) c ∗ owns (c : Thread nD τ) scM1_0 fullShare ((outsAt1 V c n hn).2.1) ∗ owns (c : Thread nD τ) scM1_1 fullShare ((outsAt1 V c n hn).2.2)) ∗ (∃ r, prngReg c r)) := rfl

/-- Before a point that is not the first: the carried buffers at what the point before left. -/
theorem PhiS1_pos (c : Dev nD) (n : ℕ) (h : n ≤ cfg1.N) (hz : n ≠ 0) :
    PhiS1 V c n h = iprop(iprop(otherStaging (F := F) c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of the second pallas_call on core `c`: the arrays as the region finds them; after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns (no point is idle for any window, so each buffer is left at `after`). -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4800000 in
/-- The body at any point. The inputs' memrefs hold their blocks; the point's residue mod 4 says which run of the body
    applies. At a first-of-batch point the invariant hands over both carried buffers (at anything at the very first
    point, at named contents later: forgotten either way) and takes them back at what the point's stores cover them
    with. At a later point it hands them over at what the point before left and takes them back unchanged. The core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5, after1_6, after1_7, after1_8]
  have hN : t.val < 128 := lt_of_lt_of_eq t.isLt (show cfg1.N = 128 from N_1)
  by_cases h0 : t.val % 4 = 0
  · rw [outsAt1_A V c t h0]
    unfold out1_A_8 sout1_A_0 sout1_A_1; (try dsimp only)
    by_cases hz : t.val = 0
    · rw [PhiS1_castSucc V c t, PhiS1_zero V c _ _ hz, PhiA1_eq]
      iintro ⟨⟨⟨Hst, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [Hst HS0 HS1 Hg]
      · isplitl [Hst HS0 HS1]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
    · rw [PhiS1_castSucc V c t, PhiS1_pos V c _ _ hz]
      iintro ⟨⟨⟨Hst, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      iintro ⟨H0, H1, H2, H3, H4, H5, H6, H7, ⟨%e8, H8⟩, ⟨%es0, HS0⟩, ⟨%es1, HS1⟩⟩
      isplitl [Hst HS0 HS1 Hg]
      · isplitl [Hst HS0 HS1]
        · isplitl [Hst]; · iexact Hst
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _ _ _)
  · rw [outsAt1_B V c t h0]
    unfold out1_B_8; (try dsimp only)
    by_cases hz : t.val = 0
    · exfalso; omega
    · rw [PhiS1_castSucc V c t, PhiS1_pos V c _ _ hz]
      iintro ⟨⟨⟨Hst, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) _ _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, HS0, HS1⟩
      isplitl [Hst HS0 HS1 Hg]
      · isplitl [Hst HS0 HS1]
        · isplitl [Hst]; · iexact Hst
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the region and out of it -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the carried buffers' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hst, HS0, HS1⟩, Hg⟩
  isplitl [Hst HS0 HS1]
  · isplitl [Hst]; · iexact Hst
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Hand

end
-- ==== Proof.FrameRun.lean ====
/-
  @main as four segments — the host lines that cut the weights and flatten the node features, the attribute layer's
  pallas_call, the host lines that restore its result's shape and cut the relation weights, the relation layer's
  pallas_call — and the launch over them: every weakly fair execution terminates, and at the end every unscoped buffer
  of a TensorCore holds what the fold below says: the launch contents pushed through each host stretch, and through each
  region the region's arrays at what its write-backs leave, every other buffer untouched.
  From it: the frame (no stretch and no region writes an argument) and the two results' contents.
-/
import proofs.«410875_j5720896438794_3_alg».proof.Proof.R0Frame
import proofs.«410875_j5720896438794_3_alg».proof.Proof.R1Frame
import proofs.«410875_j5720896438794_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the first host stretch (the attribute layer's entry). -/
abbrev W1 : Dev nD → Valuation τ sig (Elt F) := fun c => StableHlo.after hostOps0 (W0 m c)
/-- The same read at the TensorCore's references. -/
abbrev U1 : (c : Dev nD) → (b : Ref sig .tc) → Buf (Elt F) ((c : Thread nD τ).loc b) := fun c b => W1 m c b
/-- At the attribute layer's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the relation layer's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the relation layer's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-! ## A buffer no host line writes and the attribute layer does not stage keeps its launch contents up to the
    relation layer's entry -/

theorem through_host (c : Dev nD) (b : Ref sig .tc) (h1 : b ∉ hostOps1_W) (h0 : ∀ w, Pipeline.arrRef spec0 w ≠ b) (h00 : b ∉ hostOps0_W) :
    W3 m c (Proc.devRef .tc b) = m ((c : Thread nD τ).loc b) :=
  (StableHlo.after_of_writes_sub hostOps1 _ hostOps1_writes h1).trans
    ((W2_of_ne m c b h0).trans ((StableHlo.after_of_writes_sub hostOps0 _ hostOps0_writes h00).trans rfl))

theorem W4_main_arg1 (c : Dev nD) : W4 m c (Proc.devRef .tc main_arg1) = m ((c : Thread nD τ).loc main_arg1) :=
  (W4_of_ne m c main_arg1 (by decide)).trans (through_host m c main_arg1 (by decide) (by decide) (by decide))
theorem W4_main_arg5 (c : Dev nD) : W4 m c (Proc.devRef .tc main_arg5) = m ((c : Thread nD τ).loc main_arg5) :=
  (W4_of_ne m c main_arg5 (by decide)).trans (through_host m c main_arg5 (by decide) (by decide) (by decide))
theorem W4_main_arg6 (c : Dev nD) : W4 m c (Proc.devRef .tc main_arg6) = m ((c : Thread nD τ).loc main_arg6) :=
  (W4_of_ne m c main_arg6 (by decide)).trans (through_host m c main_arg6 (by decide) (by decide) (by decide))
theorem W4_main_arg7 (c : Dev nD) : W4 m c (Proc.devRef .tc main_arg7) = m ((c : Thread nD τ).loc main_arg7) :=
  (W4_of_ne m c main_arg7 (by decide)).trans (through_host m c main_arg7 (by decide) (by decide) (by decide))
theorem W4_main_arg8 (c : Dev nD) : W4 m c (Proc.devRef .tc main_arg8) = m ((c : Thread nD τ).loc main_arg8) :=
  (W4_of_ne m c main_arg8 (by decide)).trans (through_host m c main_arg8 (by decide) (by decide) (by decide))
theorem W4_main_arg0 (c : Dev nD) : W4 m c (Proc.devRef .tc main_arg0) = m ((c : Thread nD τ).loc main_arg0) :=
  (W4_arr m c 0).trans (((dat1 (U3 m) c).arrAt_in 0 rfl _).trans ((A_eq1 (U3 m) c 0).trans (through_host m c main_arg0 (by decide) (by decide) (by decide))))
theorem W4_main_arg2 (c : Dev nD) : W4 m c (Proc.devRef .tc main_arg2) = m ((c : Thread nD τ).loc main_arg2) :=
  (W4_arr m c 1).trans (((dat1 (U3 m) c).arrAt_in 1 rfl _).trans ((A_eq1 (U3 m) c 1).trans (through_host m c main_arg2 (by decide) (by decide) (by decide))))
theorem W4_main_arg3 (c : Dev nD) : W4 m c (Proc.devRef .tc main_arg3) = m ((c : Thread nD τ).loc main_arg3) :=
  (W4_arr m c 2).trans (((dat1 (U3 m) c).arrAt_in 2 rfl _).trans ((A_eq1 (U3 m) c 2).trans (through_host m c main_arg3 (by decide) (by decide) (by decide))))
theorem W4_main_arg4 (c : Dev nD) : W4 m c (Proc.devRef .tc main_arg4) = m ((c : Thread nD τ).loc main_arg4) :=
  (W4_arr m c 3).trans (((dat1 (U3 m) c).arrAt_in 3 rfl _).trans ((A_eq1 (U3 m) c 3).trans (through_host m c main_arg4 (by decide) (by decide) (by decide))))

/-! ## The proof data family and the thread state -/

/-- No pipeline has a prefetched table. -/
abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (U1 m) c
  | ⟨1, _⟩ => fun c => dat1 (U3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The attribute layer over the thread state: entered from every unscoped buffer at `W1`, left at `W2`. -/
def reg0 : Pipeline.RegionSeg (pcfgs (F := F)) admT (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The relation layer over the thread state: entered from every unscoped buffer at `W3`, left at `W4`. Its invariant
    starts as the scoped rest and the generator register and, from the first point on, names what the two projection
    buffers hold; at the end those contents are forgotten again. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (U3 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (U3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segsT : List (Pipeline.Seg (pcfgs (F := F)) admT (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segsT m) := (main_chain c).trans (by chain_rfl)

set_option backward.isDefEq.respectTransparency.types false in
/-- THE RUN: from any memory with zero counters every weakly fair execution of @main on the TensorCores terminates,
    nothing faulting, and in every final state every unscoped TensorCore buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admT (pdats m) () cellOf_inj emb₁ defs₀ 𝒱₀ L lv m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c)⟩) (run_all m ρ)

end Cert.KernelIdeal.Hand

end
-- ==== Proof.PayAttr.lean ====
import proofs.«410875_j5720896438794_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! # The attribute kernel's block value at the extended reals

At the ideal values a float is an extended real, the narrowing to bf16 is the identity and the matrix
product into the zero splat is the plain sum of products. So the block the first kernel stores is, entry
by entry, `relu (x · W1 + a · W2 + bias) + a`: the two row-by-column sums, the bias of the column, the
maximum with zero, and the attribute entry added back. -/

open scoped BigOperators

noncomputable section

namespace Cert.KernelIdeal.PayAttr

open Cert.KernelIdeal Cert.KernelIdeal.Gen Idealize.ShloMosaic Idealize.SL.Sem Idealize.ShloMosaic.ValueIdx

/-- The block's entry at row `p`, column `q`: the sum over `k` of `x[p,k] * w1[k,q]` plus the sum over `k` of
    `a[p,k] * w2[k,q]`, plus the bias of column `q`, cut below at zero, plus `a[p,q]`. -/
def attrBlock (x a : Vec Ideal S1024x1024 .f32) (w1 w2 : Vec Ideal S1024x1024 .bf16) (bias : Vec Ideal S1x1024 .f32)
    (p q : Fin 1024) : Ideal .f32 :=
  max (((∑ k : Fin 1024, x (ix2 p k) * w1 (ix2 k q)) + (∑ k : Fin 1024, a (ix2 p k) * w2 (ix2 k q))) + bias (ix2 0 q))
    (Ideal.ofBits .f32 0x00000000#32) + a (ix2 p q)

/-! ## The product's operand indices, axis by axis

The product contracts the left operand's axis 1 with the right operand's axis 0; the left operand's axis 0
is the result's row and the right operand's axis 1 is the result's column. -/

/-- The left operand's row is the result's row. -/
theorem lhs_attr_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

/-- The left operand's column is the contraction position. -/
theorem lhs_attr_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

/-- The right operand's row is the contraction position. -/
theorem rhs_attr_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The right operand's column is the result's column. -/
theorem rhs_attr_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into the zero splat, read at `(p, q)`: the sum over `k` of `l[p,k] * r[k,q]`. -/
theorem matmul_attr_apply (l r : FVec Ideal S1024x1024 .bf16) (p q : Fin 1024) :
    matmul (F := Ideal) dot_S1024x1024_S1024x1024_S1024x1024_1_0_0_1_n_n none l r (constant (F := Ideal) S1024x1024 .f32 0x00000000#32) (ix2 p q)
      = ∑ k : Fin 1024, l (ix2 p k) * r (ix2 k q) := by
  show FloatOps.matmul dot_S1024x1024_S1024x1024_S1024x1024_1_0_0_1_n_n none l r (constant (F := Ideal) S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_attr_0 _ _
    | ⟨1, _⟩ => exact (lhs_attr_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_attr_0 _ _).trans hk
    | ⟨1, _⟩ => exact rhs_attr_1 _ _)
  rw [el, er]

/-- The first kernel's stored block, entry by entry. -/
theorem k0_pay1_apply (x a : Vec Ideal S1024x1024 .f32) (w1 w2 : Vec Ideal S1024x1024 .bf16) (bias : Vec Ideal S1x1024 .f32)
    (p q : Fin 1024) :
    Cert.KernelIdeal.Gen.k0_pay1 (F := Ideal) x a w1 w2 bias (ix2 p q) = attrBlock x a w1 w2 bias p q := by
  unfold Gen.k0_pay1 attrBlock
  simp only [shapeCast_self]
  rw [addf_apply, maximumf_apply, addf_apply, addf_apply, broadcast_apply, matmul_attr_apply, matmul_attr_apply,
    broadcastTo_1b_ab_apply]
  rfl

end Cert.KernelIdeal.PayAttr
-- ==== Proof.R0Value.lean ====
import proofs.«410875_j5720896438794_3_alg».proof.Proof.R0Frame
import proofs.«410875_j5720896438794_3_alg».proof.Proof.PayAttr
import Idealize.ShloMosaic.Lib.ValueIdx
import Idealize.ShloMosaic.Lib.Pipeline.Value
import Idealize.ShloMosaic.PureOps.Ideal.Laws

/-! # The attribute layer's result array, from one point's block to the whole array

Point `t` of the attribute layer's grid stages rows `1024 t … 1024 t + 1023` of the two feature arrays, the two
weight halves and the bias whole, and writes back rows `1024 t … 1024 t + 1023` of the result. The block it writes is,
entry by entry, the whole-array function `attrFlat` read at the block's rows; the eight row blocks tile the array, so
after the region the result array is `attrFlat` of the arrays as the region finds them. -/

open scoped BigOperators

noncomputable section

namespace Cert.KernelIdeal.R0Value

open Cert.KernelIdeal Cert.KernelIdeal.Gen Cert.KernelIdeal.Hand Cert.KernelIdeal.PayAttr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The attribute layer's whole result array from the flattened node and attribute features, the two weight halves
    and the bias: row `P`, column `q` is `relu (x[P,:] · w1[:,q] + a[P,:] · w2[:,q] + bias[q]) + a[P,q]`. -/
def attrFlat (x a : Vec Ideal S8192x1024 .f32) (w1 w2 : Vec Ideal S1024x1024 .bf16) (bias : Vec Ideal S1x1024 .f32) :
    Vec Ideal S8192x1024 .f32 := fun i =>
  max (((∑ k : Fin 1024, x (ix2 (i 0 : Fin 8192) k) * w1 (ix2 k (i 1 : Fin 1024)))
      + (∑ k : Fin 1024, a (ix2 (i 0 : Fin 8192) k) * w2 (ix2 k (i 1 : Fin 1024)))) + bias (ix2 0 (i 1 : Fin 1024)))
    (Ideal.ofBits .f32 0x00000000#32) + a i

/-- The array at a row and a column, spelled by coordinates. -/
theorem attrFlat_apply (x a : Vec Ideal S8192x1024 .f32) (w1 w2 : Vec Ideal S1024x1024 .bf16) (bias : Vec Ideal S1x1024 .f32)
    (P : Fin 8192) (q : Fin 1024) :
    attrFlat x a w1 w2 bias (ix2 P q)
      = max (((∑ k : Fin 1024, x (ix2 P k) * w1 (ix2 k q)) + (∑ k : Fin 1024, a (ix2 P k) * w2 (ix2 k q))) + bias (ix2 0 q))
          (Ideal.ofBits .f32 0x00000000#32) + a (ix2 P q) := rfl

theorem hz : (![0, 0] : Fin 2 → Nat) = fun _ => 0 := funext fun a => by fin_cases a <;> rfl

/-- The printed index maps, decided over the grid: point `t` reads row block `t` of the two feature arrays, the one
    block of each weight half and of the bias, and writes row block `t` of the result. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has 8 points. -/
theorem N0 : cfg0.N = 8 := by decide

/-! ## The input blocks, read off the arrays -/

/-- Window 0's block at point `t` is rows `1024 t … 1024 t + 1023` of the node features. -/
theorem iblk0_0_apply (c : Dev nD) (t : Fin cfg0.N) (y : S1024x1024.Idx) (k : S8192x1024.Idx)
    (hk0 : (k 0).val = 1024 * t.val + (y 0).val) (hk1 : (k 1).val = (y 1).val) :
    (iblk0 V c 0 t : Vec Ideal S1024x1024 .f32) y = (V c main_v6 : Vec Ideal S8192x1024 .f32) k := by
  obtain ⟨e00, e01, -⟩ := idx_facts t
  unfold iblk0
  rw [View.read_apply]
  show V c main_v6 _ = V c main_v6 _
  congr 1
  funext a
  apply Fin.ext
  match a with
  | ⟨0, _⟩ => show win0_0.index t (0 : Fin 2) * 1024 + 1 * (y 0).val = (k 0).val; rw [e00, hk0]; omega
  | ⟨1, _⟩ => show win0_0.index t (1 : Fin 2) * 1024 + 1 * (y 1).val = (k 1).val; rw [e01, hk1]; omega

/-- Window 1's block at point `t` is rows `1024 t … 1024 t + 1023` of the attribute features. -/
theorem iblk0_1_apply (c : Dev nD) (t : Fin cfg0.N) (y : S1024x1024.Idx) (k : S8192x1024.Idx)
    (hk0 : (k 0).val = 1024 * t.val + (y 0).val) (hk1 : (k 1).val = (y 1).val) :
    (iblk0 V c 1 t : Vec Ideal S1024x1024 .f32) y = (V c main_v7 : Vec Ideal S8192x1024 .f32) k := by
  obtain ⟨-, -, e10, e11, -⟩ := idx_facts t
  unfold iblk0
  rw [View.read_apply]
  show V c main_v7 _ = V c main_v7 _
  congr 1
  funext a
  apply Fin.ext
  match a with
  | ⟨0, _⟩ => show win0_1.index t (0 : Fin 2) * 1024 + 1 * (y 0).val = (k 0).val; rw [e10, hk0]; omega
  | ⟨1, _⟩ => show win0_1.index t (1 : Fin 2) * 1024 + 1 * (y 1).val = (k 1).val; rw [e11, hk1]; omega

/-- Window 2's one block is the first weight half. -/
theorem iblk0_2_eq (c : Dev nD) (t : Fin cfg0.N) : (iblk0 V c 2 t : Vec Ideal S1024x1024 .bf16) = V c main_v2 := by
  obtain ⟨-, -, -, -, e20, e21, -⟩ := idx_facts t
  funext y
  unfold iblk0
  rw [View.read_apply]
  show V c main_v2 _ = V c main_v2 y
  congr 1
  funext a
  apply Fin.ext
  match a with
  | ⟨0, _⟩ => show win0_2.index t (0 : Fin 2) * 1024 + 1 * (y 0).val = (y 0).val; rw [e20]; omega
  | ⟨1, _⟩ => show win0_2.index t (1 : Fin 2) * 1024 + 1 * (y 1).val = (y 1).val; rw [e21]; omega

/-- Window 3's one block is the second weight half. -/
theorem iblk0_3_eq (c : Dev nD) (t : Fin cfg0.N) : (iblk0 V c 3 t : Vec Ideal S1024x1024 .bf16) = V c main_v4 := by
  obtain ⟨-, -, -, -, -, -, e30, e31, -⟩ := idx_facts t
  funext y
  unfold iblk0
  rw [View.read_apply]
  show V c main_v4 _ = V c main_v4 y
  congr 1
  funext a
  apply Fin.ext
  match a with
  | ⟨0, _⟩ => show win0_3.index t (0 : Fin 2) * 1024 + 1 * (y 0).val = (y 0).val; rw [e30]; omega
  | ⟨1, _⟩ => show win0_3.index t (1 : Fin 2) * 1024 + 1 * (y 1).val = (y 1).val; rw [e31]; omega

/-- Window 4's one block is the bias row. -/
theorem iblk0_4_eq (c : Dev nD) (t : Fin cfg0.N) : (iblk0 V c 4 t : Vec Ideal S1x1024 .f32) = V c main_v5 := by
  obtain ⟨-, -, -, -, -, -, -, -, e40, e41, -⟩ := idx_facts t
  funext y
  unfold iblk0
  rw [View.read_apply]
  show V c main_v5 _ = V c main_v5 y
  congr 1
  funext a
  apply Fin.ext
  match a with
  | ⟨0, _⟩ => show win0_4.index t (0 : Fin 2) * 1 + 1 * (y 0).val = (y 0).val; rw [e40]; omega
  | ⟨1, _⟩ => show win0_4.index t (1 : Fin 2) * 1024 + 1 * (y 1).val = (y 1).val; rw [e41]; omega

/-! ## One point's block is its rows of the whole array -/

/-- If the two feature blocks are rows `1024 n …` of their arrays and the weight and bias blocks are their arrays, the
    body's value at `y` is the whole array's value at row `1024 n + y 0`, column `y 1`. -/
theorem point_eq (X A : Vec Ideal S8192x1024 .f32) (W1 W2 : Vec Ideal S1024x1024 .bf16) (B : Vec Ideal S1x1024 .f32)
    (x a : Vec Ideal S1024x1024 .f32) (w1 w2 : Vec Ideal S1024x1024 .bf16) (b : Vec Ideal S1x1024 .f32) (n : Nat)
    (hx : ∀ (y : S1024x1024.Idx) (k : S8192x1024.Idx), (k 0).val = 1024 * n + (y 0).val → (k 1).val = (y 1).val → x y = X k)
    (ha : ∀ (y : S1024x1024.Idx) (k : S8192x1024.Idx), (k 0).val = 1024 * n + (y 0).val → (k 1).val = (y 1).val → a y = A k)
    (hw1 : w1 = W1) (hw2 : w2 = W2) (hb : b = B)
    (y : S1024x1024.Idx) (i : S8192x1024.Idx) (hi0 : (i 0).val = 1024 * n + (y 0).val) (hi1 : (i 1).val = (y 1).val) :
    k0_pay1 (F := Ideal) x a w1 w2 b y = attrFlat X A W1 W2 B i := by
  subst hw1 hw2 hb
  obtain ⟨p, q, rfl⟩ : ∃ (p : Fin 1024) (q : Fin 1024), y = ix2 p q := ⟨y 0, y 1, eq_ix2 y⟩
  obtain ⟨P, Q, rfl⟩ : ∃ (P : Fin 8192) (Q : Fin 1024), i = ix2 P Q := ⟨i 0, i 1, eq_ix2 i⟩
  obtain rfl : Q = q := Fin.ext hi1
  rw [k0_pay1_apply, attrFlat_apply]
  unfold attrBlock
  have ex : ∀ k : Fin 1024, x (ix2 p k) = X (ix2 P k) := fun k => hx _ _ hi0 rfl
  have ea : ∀ k : Fin 1024, a (ix2 p k) = A (ix2 P k) := fun k => ha _ _ hi0 rfl
  simp only [ex, ea]

/-! ## What each point writes back, and the whole array -/

/-- WHAT POINT `t` WRITES BACK is block `t` of `attrFlat` of the arrays as the region finds them. -/
theorem flushed5_eq (c : Dev nD) (t : Fin cfg0.N) :
    (dat0 (F := Ideal) V c).flushed 5 t = ((cfg0.win 5).blk t).view.read (Elt Ideal)
      (attrFlat (V c main_v6) (V c main_v7) (V c main_v2) (V c main_v4) (V c main_v5)) := by
  show (cfg0.win 5).cut (grid0.coords t) ((dat0 V c).after 5 t) = _
  rw [after0_5]
  unfold out0_5
  rw [View.canon_unit_zero hz]
  simp only [View.ld_unit_zero (S := S1024x1024) hz, View.ld_unit_zero (S := S1x1024) hz]
  funext j
  obtain ⟨-, -, -, -, -, -, -, -, -, -, e50, e51⟩ := idx_facts t
  refine point_eq (V c main_v6) (V c main_v7) (V c main_v2) (V c main_v4) (V c main_v5) _ _ _ _ _ t.val
    (iblk0_0_apply V c t) (iblk0_1_apply V c t) (iblk0_2_eq V c t) (iblk0_3_eq V c t) (iblk0_4_eq V c t) _ _ ?_ ?_
  · show win0_5.index t (0 : Fin 2) * 1024 + 1 * (j 0).val = 1024 * t.val + (j 0).val
    rw [e50]; omega
  · show win0_5.index t (1 : Fin 2) * 1024 + 1 * (j 1).val = (j 1).val
    rw [e51]; omega

/-- An index of the array is in point `t`'s block iff each coordinate is in the block's range on its axis. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- Every row of the array is in the block of the point its row block names. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  let t : Fin cfg0.N := ⟨(i 0).val / 1024, by rw [N0]; omega⟩
  obtain ⟨-, -, -, -, -, -, -, -, -, -, e50, e51⟩ := idx_facts t
  have ht : t.val = (i 0).val / 1024 := rfl
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e50, ht]; omega
  | ⟨1, _⟩ => show win0_5.index t (1 : Fin 2) * 1024 ≤ (i 1).val ∧ (i 1).val < win0_5.index t (1 : Fin 2) * 1024 + 1024; rw [e51]; omega

/-- THE ARRAY after the region: `attrFlat` of the arrays as the region finds them. -/
theorem final0 (c : Dev nD) :
    (dat0 (F := Ideal) V c).arrAt 5 cfg0.N = attrFlat (V c main_v6) (V c main_v7) (V c main_v2) (V c main_v4) (V c main_v5) :=
  (dat0 (F := Ideal) V c).arrAt_eq_of_cover 5 (attrFlat (V c main_v6) (V c main_v7) (V c main_v2) (V c main_v4) (V c main_v5))
    (fun t _ => flushed5_eq V c t) cover5

end Cert.KernelIdeal.R0Value
-- ==== Proof.Spec.lean ====
/-
  What the two programs compute, index by index, over the extended reals.

  The node features `obj`, `attr` are [32, 256, 1024], the relation features `rela` [32, 2048, 1024], an edge
  (b, r) names its subject node `edges (b, r, 0)` and its object node `edges (b, r, 1)`, the mask is [32, 2048, 1],
  the two linear layers have weights `Wa` [1024, 2048], `Wr` [1024, 3072] and biases [1024].

  * the new attribute features:
      relu( Σ_k obj(b,n,k)·Wa(d,k) + Σ_k attr(b,n,k)·Wa(d,1024+k) + ba(d) ) + attr(b,n,d)
  * the new relation features:
      ( relu( (Σ_k obj(b,s,k)·Wr(d,k) + Σ_k obj(b,o,k)·Wr(d,2048+k)) + Σ_k rela(b,r,k)·Wr(d,1024+k) + br(d) )
        + rela(b,r,d) ) · mask(b,r,0),      s, o the edge's two nodes.

  Each sum runs over k < 1024: a contraction over the concatenated axis (2048 or 3072 long) is the sum of its
  stretches, which holds in any commutative monoid, so nothing here needs finiteness.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SNode : Shape := ⟨3, ![32, 256, 1024]⟩
abbrev SRel : Shape := ⟨3, ![32, 2048, 1024]⟩
abbrev SEdge : Shape := ⟨3, ![32, 2048, 2]⟩
abbrev SMask : Shape := ⟨3, ![32, 2048, 1]⟩
abbrev SWa : Shape := ⟨2, ![1024, 2048]⟩
abbrev SWr : Shape := ⟨2, ![1024, 3072]⟩
abbrev SB : Shape := ⟨1, ![1024]⟩

/-- The node an edge word names: the word's value, for a word in [0, 256). -/
def nodeOf (e : BitVec 32) : Fin 256 := ⟨e.toNat % 256, Nat.mod_lt _ (by decide)⟩

/-- Every edge word names a node: it lies in [0, 256) read as a signed integer. -/
def EdgesInRange (edges : IVec SEdge 32) : Prop := ∀ i : SEdge.Idx, 0 ≤ (edges i).toInt ∧ (edges i).toInt < 256

/-- Column `k` of the stretch of the concatenated axis that starts at `off`. -/
abbrev colAt {n : Nat} (off : Nat) (h : off + 1024 ≤ n) (k : Fin 1024) : Fin n := ⟨off + k.val, by omega⟩

/-- The float zero as the programs spell it. -/
abbrev zeroF : Ideal .f32 := Ideal.ofBits .f32 0x00000000#32

/-- The attribute layer before the relu: both stretches of the contraction, then the bias. -/
def attrAcc (obj attr : FVec Ideal SNode .f32) (Wa : FVec Ideal SWa .f32) (ba : FVec Ideal SB .f32)
    (b : Fin 32) (n : Fin 256) (d : Fin 1024) : Ideal .f32 :=
  ((∑ k : Fin 1024, obj (ix3 b n k) * Wa (ix2 d (colAt 0 (by decide) k)))
    + (∑ k : Fin 1024, attr (ix3 b n k) * Wa (ix2 d (colAt 1024 (by decide) k)))) + ba (ix1 d)

/-- The new attribute features at (b, n, d). -/
def newAttrAt (obj attr : FVec Ideal SNode .f32) (Wa : FVec Ideal SWa .f32) (ba : FVec Ideal SB .f32)
    (b : Fin 32) (n : Fin 256) (d : Fin 1024) : Ideal .f32 :=
  max (attrAcc obj attr Wa ba b n d) zeroF + attr (ix3 b n d)

/-- The new attribute features as one array. -/
def newAttr (obj attr : FVec Ideal SNode .f32) (Wa : FVec Ideal SWa .f32) (ba : FVec Ideal SB .f32) : FVec Ideal SNode .f32 :=
  fun i => newAttrAt obj attr Wa ba (i 0) (i 1) (i 2)

theorem newAttr_apply (obj attr : FVec Ideal SNode .f32) (Wa : FVec Ideal SWa .f32) (ba : FVec Ideal SB .f32)
    (b : Fin 32) (n : Fin 256) (d : Fin 1024) :
    newAttr obj attr Wa ba (ix3 b n d) = newAttrAt obj attr Wa ba b n d := rfl

/-- The relation layer before the relu: the subject's and the object's projections, the relation's, the bias. -/
def relaAcc (obj : FVec Ideal SNode .f32) (rela : FVec Ideal SRel .f32) (edges : IVec SEdge 32)
    (Wr : FVec Ideal SWr .f32) (br : FVec Ideal SB .f32) (b : Fin 32) (r : Fin 2048) (d : Fin 1024) : Ideal .f32 :=
  (((∑ k : Fin 1024, obj (ix3 b (nodeOf (edges (ix3 b r 0))) k) * Wr (ix2 d (colAt 0 (by decide) k)))
      + (∑ k : Fin 1024, obj (ix3 b (nodeOf (edges (ix3 b r 1))) k) * Wr (ix2 d (colAt 2048 (by decide) k))))
    + (∑ k : Fin 1024, rela (ix3 b r k) * Wr (ix2 d (colAt 1024 (by decide) k)))) + br (ix1 d)

/-- The new relation features at (b, r, d). -/
def newRelaAt (obj : FVec Ideal SNode .f32) (rela : FVec Ideal SRel .f32) (edges : IVec SEdge 32) (mask : FVec Ideal SMask .f32)
    (Wr : FVec Ideal SWr .f32) (br : FVec Ideal SB .f32) (b : Fin 32) (r : Fin 2048) (d : Fin 1024) : Ideal .f32 :=
  (max (relaAcc obj rela edges Wr br b r d) zeroF + rela (ix3 b r d)) * mask (ix3 b r 0)

/-- The new relation features as one array. -/
def newRela (obj : FVec Ideal SNode .f32) (rela : FVec Ideal SRel .f32) (edges : IVec SEdge 32) (mask : FVec Ideal SMask .f32)
    (Wr : FVec Ideal SWr .f32) (br : FVec Ideal SB .f32) : FVec Ideal SRel .f32 :=
  fun i => newRelaAt obj rela edges mask Wr br (i 0) (i 1) (i 2)

theorem newRela_apply (obj : FVec Ideal SNode .f32) (rela : FVec Ideal SRel .f32) (edges : IVec SEdge 32) (mask : FVec Ideal SMask .f32)
    (Wr : FVec Ideal SWr .f32) (br : FVec Ideal SB .f32) (b : Fin 32) (r : Fin 2048) (d : Fin 1024) :
    newRela obj rela edges mask Wr br (ix3 b r d) = newRelaAt obj rela edges mask Wr br b r d := rfl

end Cert.Spec

end
-- ==== Proof.HostValues.lean ====
/-
  The host lines of the kernel's @main, read as values.

  Before the attribute layer: the attribute weights [1024, 2048] are transposed and cut into their two halves of 1024
  rows (entry (k, q) of a half is the weight's entry (q, off + k)), the bias [1024] becomes a row [1, 1024], the node and
  attribute features [32, 256, 1024] are flattened to [8192, 1024] (row 256 b + n). Before the relation layer: the
  attribute layer's result is given back its shape [32, 256, 1024], and the relation weights [1024, 3072] are transposed
  and cut into three parts of 1024 rows. A change of float format is the identity over the extended reals.
-/
import proofs.«410875_j5720896438794_3_alg».proof.Proof.Gen.KernelIdeal.Launch
import proofs.«410875_j5720896438794_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostVal

open Cert.KernelIdeal Cert.KernelIdeal.Gen Cert.Spec
open Idealize.ShloMosaic Idealize.ShloMosaic.TcCoe Idealize.ShloMosaic.ValueIdx Idealize.SL.Sem Idealize.ShloMosaic.StableHlo

/-! ## The layouts at coordinates -/

section Layout
variable {α : Type}

/-- A part of 1024 rows, from row `o`, of the transposed attribute weights: entry (k, q) is the weight at (q, o + k). -/
theorem wcutA_apply (o : Nat) (ho : o + 1024 ≤ 2048) (Wa : S1024x2048.Idx → α) (hs : S2048x1024.Slices ![o, 0] S1024x1024) (k q : Fin 1024) :
    extractStridedSlice S1024x1024 ![o, 0] (transpose S2048x1024 [1, 0] Wa transposes_S1024x2048_S2048x1024_1_0) hs (ix2 k q)
      = Wa (ix2 q (colAt o ho k)) :=
  (slice2_axis0_eq o _ hs k q).trans (transpose_ix2_apply Wa transposes_S1024x2048_S2048x1024_1_0 _ q)

/-- A part of 1024 rows, from row `o`, of the transposed relation weights: entry (k, q) is the weight at (q, o + k). -/
theorem wcutR_apply (o : Nat) (ho : o + 1024 ≤ 3072) (Wr : S1024x3072.Idx → α) (hs : S3072x1024.Slices ![o, 0] S1024x1024) (k q : Fin 1024) :
    extractStridedSlice S1024x1024 ![o, 0] (transpose S3072x1024 [1, 0] Wr transposes_S1024x3072_S3072x1024_1_0) hs (ix2 k q)
      = Wr (ix2 q (colAt o ho k)) :=
  (slice2_axis0_eq o _ hs k q).trans (transpose_ix2_apply Wr transposes_S1024x3072_S3072x1024_1_0 _ q)

/-- The flattened features: row 256 b + n is node n of batch b. -/
theorem flat_apply (x : S32x256x1024.Idx → α) (h : S32x256x1024.ShapeCasts S8192x1024) (b : Fin 32) (n : Fin 256) (k : Fin 1024) (P : Fin 8192)
    (hP : P.val = 256 * b.val + n.val) : shapeCast S8192x1024 x h (ix2 P k) = x (ix3 b n k) :=
  shapeCast_apply x h _ _ (by
    rw [Shape.rowMajor_val_two, Shape.rowMajor_val_three]
    show (b.val * 256 + n.val) * 1024 + k.val = P.val * 1024 + k.val
    rw [hP]; ring)

/-- The result given back its shape: node n of batch b is row 256 b + n. -/
theorem unflat_apply (y : S8192x1024.Idx → α) (h : S8192x1024.ShapeCasts S32x256x1024) (b : Fin 32) (n : Fin 256) (d : Fin 1024) (P : Fin 8192)
    (hP : P.val = 256 * b.val + n.val) : shapeCast S32x256x1024 y h (ix3 b n d) = y (ix2 P d) :=
  shapeCast_apply y h _ _ (by
    rw [Shape.rowMajor_val_two, Shape.rowMajor_val_three]
    show P.val * 1024 + d.val = (b.val * 256 + n.val) * 1024 + d.val
    rw [hP]; ring)

/-- The bias as a row. -/
theorem biasrow_apply (v : S1024.Idx → α) (h : S1024.ShapeCasts S1x1024) (u : Fin 1) (q : Fin 1024) :
    shapeCast S1x1024 v h (ix2 u q) = v (ix1 q) :=
  shapeCast_a_1a_apply v h u q

end Layout

/-! ## What the host lines leave in the buffers the regions stage -/

variable {F : FTy → Type} [FloatOps F]
variable (m : (ℓ : Loc nD τ sig) → Buf (Elt F) ℓ) (c : Dev nD)

/-- The launch contents as a valuation of core `c`'s buffers. -/
abbrev W0 : Valuation τ sig (Elt F) := fun b => m ((c : Dev nD), b)

theorem v6_eq : StableHlo.after hostOps0 (W0 m c) (Proc.devRef .tc main_v6)
    = shapeCast S8192x1024 (m ((c : Thread nD τ).loc main_arg0)) shapeCasts_S32x256x1024_S8192x1024 := by
  after_results <;> rfl
theorem v7_eq : StableHlo.after hostOps0 (W0 m c) (Proc.devRef .tc main_v7)
    = shapeCast S8192x1024 (m ((c : Thread nD τ).loc main_arg1)) shapeCasts_S32x256x1024_S8192x1024 := by
  after_results <;> rfl
theorem v5_eq : StableHlo.after hostOps0 (W0 m c) (Proc.devRef .tc main_v5)
    = shapeCast S1x1024 (m ((c : Thread nD τ).loc main_arg6)) shapeCasts_S1024_S1x1024 := by
  after_results <;> rfl
theorem v2_eq : StableHlo.after hostOps0 (W0 m c) (Proc.devRef .tc main_v2)
    = truncf .bf16 (extractStridedSlice S1024x1024 ![0, 0]
        (transpose S2048x1024 [1, 0] (m ((c : Thread nD τ).loc main_arg5)) transposes_S1024x2048_S2048x1024_1_0) slices_S2048x1024_S1024x1024_0_0) bitsLt_bf16_f32 := by
  after_results <;> rfl
theorem v4_eq : StableHlo.after hostOps0 (W0 m c) (Proc.devRef .tc main_v4)
    = truncf .bf16 (extractStridedSlice S1024x1024 ![1024, 0]
        (transpose S2048x1024 [1, 0] (m ((c : Thread nD τ).loc main_arg5)) transposes_S1024x2048_S2048x1024_1_0) slices_S2048x1024_S1024x1024_1024_0) bitsLt_bf16_f32 := by
  after_results <;> rfl

/-- The second host stretch, from any contents `W` at its start. -/
theorem v9_eq (W : Valuation τ sig (Elt F)) : StableHlo.after hostOps1 W (Proc.devRef .tc main_v9)
    = shapeCast S32x256x1024 (W (Proc.devRef .tc main_v8)) shapeCasts_S8192x1024_S32x256x1024 := by
  after_results <;> rfl
theorem v17_eq (W : Valuation τ sig (Elt F)) : StableHlo.after hostOps1 W (Proc.devRef .tc main_v17)
    = shapeCast S1x1024 (W (Proc.devRef .tc main_arg8)) shapeCasts_S1024_S1x1024 := by
  after_results <;> rfl
theorem v12_eq (W : Valuation τ sig (Elt F)) : StableHlo.after hostOps1 W (Proc.devRef .tc main_v12)
    = truncf .bf16 (extractStridedSlice S1024x1024 ![0, 0]
        (transpose S3072x1024 [1, 0] (W (Proc.devRef .tc main_arg7)) transposes_S1024x3072_S3072x1024_1_0) slices_S3072x1024_S1024x1024_0_0) bitsLt_bf16_f32 := by
  after_results <;> rfl
theorem v14_eq (W : Valuation τ sig (Elt F)) : StableHlo.after hostOps1 W (Proc.devRef .tc main_v14)
    = truncf .bf16 (extractStridedSlice S1024x1024 ![1024, 0]
        (transpose S3072x1024 [1, 0] (W (Proc.devRef .tc main_arg7)) transposes_S1024x3072_S3072x1024_1_0) slices_S3072x1024_S1024x1024_1024_0) bitsLt_bf16_f32 := by
  after_results <;> rfl
theorem v16_eq (W : Valuation τ sig (Elt F)) : StableHlo.after hostOps1 W (Proc.devRef .tc main_v16)
    = truncf .bf16 (extractStridedSlice S1024x1024 ![2048, 0]
        (transpose S3072x1024 [1, 0] (W (Proc.devRef .tc main_arg7)) transposes_S1024x3072_S3072x1024_1_0) slices_S3072x1024_S1024x1024_2048_0) bitsLt_bf16_f32 := by
  after_results <;> rfl

end Cert.KernelIdeal.HostVal

end
-- ==== Proof.AttrBridge.lean ====
/-
  The attribute layer's result is the specification's.

  The pallas_call computes, on the flattened features, row P = 256 b + n:
     relu( Σ_k obj(P,k)·W1(k,q) + Σ_k attr(P,k)·W2(k,q) + bias(0,q) ) + attr(P,q),
  with W1, W2 the two halves of the transposed weights: W1(k,q) = Wa(q,k), W2(k,q) = Wa(q,1024+k). Giving the result
  back its shape [32, 256, 1024] and reading the host layouts at coordinates, this is term for term the
  specification's new attribute features at (b, n, q).
-/
import proofs.«410875_j5720896438794_3_alg».proof.Proof.R0Value
import proofs.«410875_j5720896438794_3_alg».proof.Proof.HostValues
import proofs.«410875_j5720896438794_3_alg».proof.Proof.Spec

noncomputable section

namespace Cert.KernelIdeal.AttrBridge

open Cert.KernelIdeal Cert.KernelIdeal.Gen Cert.Spec Cert.KernelIdeal.HostVal Cert.KernelIdeal.R0Value
open Idealize.ShloMosaic Idealize.ShloMosaic.ValueIdx

theorem attr_bridge (x0 x1 : FVec Ideal S32x256x1024 .f32) (x5 : FVec Ideal S1024x2048 .f32) (x6 : FVec Ideal S1024 .f32) :
    shapeCast S32x256x1024
      (attrFlat (shapeCast S8192x1024 x0 shapeCasts_S32x256x1024_S8192x1024) (shapeCast S8192x1024 x1 shapeCasts_S32x256x1024_S8192x1024)
        (truncf .bf16 (extractStridedSlice S1024x1024 ![0, 0] (transpose S2048x1024 [1, 0] x5 transposes_S1024x2048_S2048x1024_1_0) slices_S2048x1024_S1024x1024_0_0) bitsLt_bf16_f32)
        (truncf .bf16 (extractStridedSlice S1024x1024 ![1024, 0] (transpose S2048x1024 [1, 0] x5 transposes_S1024x2048_S2048x1024_1_0) slices_S2048x1024_S1024x1024_1024_0) bitsLt_bf16_f32)
        (shapeCast S1x1024 x6 shapeCasts_S1024_S1x1024))
      shapeCasts_S8192x1024_S32x256x1024
    = newAttr x0 x1 x5 x6 := by
  funext i
  obtain ⟨b, n, d, rfl⟩ : ∃ (b : Fin 32) (n : Fin 256) (d : Fin 1024), i = ix3 b n d := ⟨i 0, i 1, i 2, eq_ix3 i⟩
  have hP : 256 * b.val + n.val < 8192 := by have := b.isLt; have := n.isLt; omega
  rw [unflat_apply _ _ b n d ⟨256 * b.val + n.val, hP⟩ rfl, attrFlat_apply, newAttr_apply]
  unfold newAttrAt attrAcc
  simp only [flat_apply _ _ b n _ ⟨256 * b.val + n.val, hP⟩ rfl, truncf_apply, wcutA_apply 0 (by decide), wcutA_apply 1024 (by decide),
    biasrow_apply]

end Cert.KernelIdeal.AttrBridge

end
-- ==== Proof.KernelAttr.lean ====
/-
  What the idealized kernel's @main leaves in its second result: the attribute layer's array given back its shape, which
  is the specification's new attribute features — the region's array is the closed form of its value proof, and the host
  lines' layouts are read at coordinates.
-/
import proofs.«410875_j5720896438794_3_alg».proof.Proof.FrameRun
import proofs.«410875_j5720896438794_3_alg».proof.Proof.AttrBridge

noncomputable section

namespace Cert.KernelIdeal.KernelValue

open Cert.KernelIdeal Cert.KernelIdeal.Gen Cert.KernelIdeal.Hand Cert.Spec
open Idealize.ShloMosaic Idealize.ShloMosaic.TcCoe Idealize.SL.Sem

variable (m : (ℓ : Loc nD τ sig) → Buf (Elt Ideal) ℓ) (c : Dev nD)

/-- The new attribute features. -/
theorem attr_result :
    W4 (F := Ideal) m c (Proc.devRef .tc main_v9)
      = newAttr (m ((c : Thread nD τ).loc main_arg0)) (m ((c : Thread nD τ).loc main_arg1)) (m ((c : Thread nD τ).loc main_arg5)) (m ((c : Thread nD τ).loc main_arg6)) := by
  rw [W4_of_ne m c main_v9 (by decide)]
  refine (HostVal.v9_eq (W2 m c)).trans ?_
  rw [show W2 m c (Proc.devRef .tc main_v8) = (dat0 (U1 m) c).arrAt 5 cfg0.N from W2_arr m c 5, R0Value.final0]
  rw [show U1 m c main_v6 = _ from HostVal.v6_eq m c, show U1 m c main_v7 = _ from HostVal.v7_eq m c,
    show U1 m c main_v2 = _ from HostVal.v2_eq m c, show U1 m c main_v4 = _ from HostVal.v4_eq m c,
    show U1 m c main_v5 = _ from HostVal.v5_eq m c]
  exact AttrBridge.attr_bridge _ _ _ _

/-- The relation layer is entered with the arguments it stages as launched. -/
theorem V3_arg (b : Ref sig .tc) (h1 : b ∉ hostOps1_W) (h0 : ∀ w, Pipeline.arrRef spec0 w ≠ b) (h00 : b ∉ hostOps0_W) :
    U3 m c b = m ((c : Thread nD τ).loc b) := through_host m c b h1 h0 h00

end Cert.KernelIdeal.KernelValue

end
-- ==== Proof.RelaFull.lean ====
/-
  The relation layer's result array as one function of the arrays its pallas_call stages: with `ws`, `wr`, `wo` the three
  parts of the transposed weights and `s`, `o` the two nodes an edge (b, r) names,
     ( relu( (Σ_k obj(b,s,k)·ws(k,q) + Σ_k obj(b,o,k)·wo(k,q)) + Σ_k rela(b,r,k)·wr(k,q) + bias(0,q) ) + rela(b,r,q) ) · mask(b,r,0).
-/
import proofs.«410875_j5720896438794_3_alg».proof.Proof.Gen.KernelIdeal.Launch
import proofs.«410875_j5720896438794_3_alg».proof.Proof.Spec

noncomputable section

open scoped BigOperators

namespace Cert.KernelIdeal.RelaFull

open Cert.KernelIdeal Cert.KernelIdeal.Gen Cert.Spec
open Idealize.ShloMosaic Idealize.ShloMosaic.ValueIdx

/-- The relation layer's value at (b, r, q). -/
def relaFullAt (obj : Vec Ideal S32x256x1024 .f32) (rela : Vec Ideal S32x2048x1024 .f32) (edges : Vec Ideal S32x2048x2 .i32) (mask : Vec Ideal S32x2048x1 .f32)
    (ws wr wo : Vec Ideal S1024x1024 .bf16) (bias : Vec Ideal S1x1024 .f32) (b : Fin 32) (r : Fin 2048) (q : Fin 1024) : Ideal .f32 :=
  (max ((((∑ k : Fin 1024, obj (ix3 b (nodeOf (edges (ix3 b r 0))) k) * ws (ix2 k q))
          + (∑ k : Fin 1024, obj (ix3 b (nodeOf (edges (ix3 b r 1))) k) * wo (ix2 k q)))
        + (∑ k : Fin 1024, rela (ix3 b r k) * wr (ix2 k q))) + bias (ix2 0 q)) (Ideal.ofBits .f32 0x00000000#32)
    + rela (ix3 b r q)) * mask (ix3 b r 0)

/-- The relation layer's result as one array. -/
def relaFull (obj : Vec Ideal S32x256x1024 .f32) (rela : Vec Ideal S32x2048x1024 .f32) (edges : Vec Ideal S32x2048x2 .i32) (mask : Vec Ideal S32x2048x1 .f32)
    (ws wr wo : Vec Ideal S1024x1024 .bf16) (bias : Vec Ideal S1x1024 .f32) : Vec Ideal S32x2048x1024 .f32 :=
  fun i => relaFullAt obj rela edges mask ws wr wo bias (i 0) (i 1) (i 2)

theorem relaFull_apply (obj : Vec Ideal S32x256x1024 .f32) (rela : Vec Ideal S32x2048x1024 .f32) (edges : Vec Ideal S32x2048x2 .i32) (mask : Vec Ideal S32x2048x1 .f32)
    (ws wr wo : Vec Ideal S1024x1024 .bf16) (bias : Vec Ideal S1x1024 .f32) (b : Fin 32) (r : Fin 2048) (q : Fin 1024) :
    relaFull obj rela edges mask ws wr wo bias (ix3 b r q) = relaFullAt obj rela edges mask ws wr wo bias b r q := rfl

end Cert.KernelIdeal.RelaFull

end
-- ==== Proof.RelaBridge.lean ====
/-
  The relation layer's result is the specification's: the three weight parts are the three stretches of the transposed
  relation weights (ws(k,q) = Wr(q,k), wr(k,q) = Wr(q,1024+k), wo(k,q) = Wr(q,2048+k)), the bias row the bias.
-/
import proofs.«410875_j5720896438794_3_alg».proof.Proof.RelaFull
import proofs.«410875_j5720896438794_3_alg».proof.Proof.HostValues
import proofs.«410875_j5720896438794_3_alg».proof.Proof.Spec

noncomputable section

namespace Cert.KernelIdeal.RelaBridge

open Cert.KernelIdeal Cert.KernelIdeal.Gen Cert.Spec Cert.KernelIdeal.HostVal Cert.KernelIdeal.RelaFull
open Idealize.ShloMosaic Idealize.ShloMosaic.ValueIdx

theorem rela_bridge (x0 : FVec Ideal S32x256x1024 .f32) (x2 : FVec Ideal S32x2048x1024 .f32) (x3 : IVec S32x2048x2 32) (x4 : FVec Ideal S32x2048x1 .f32)
    (x7 : FVec Ideal S1024x3072 .f32) (x8 : FVec Ideal S1024 .f32) :
    relaFull x0 x2 x3 x4
      (truncf .bf16 (extractStridedSlice S1024x1024 ![0, 0] (transpose S3072x1024 [1, 0] x7 transposes_S1024x3072_S3072x1024_1_0) slices_S3072x1024_S1024x1024_0_0) bitsLt_bf16_f32)
      (truncf .bf16 (extractStridedSlice S1024x1024 ![1024, 0] (transpose S3072x1024 [1, 0] x7 transposes_S1024x3072_S3072x1024_1_0) slices_S3072x1024_S1024x1024_1024_0) bitsLt_bf16_f32)
      (truncf .bf16 (extractStridedSlice S1024x1024 ![2048, 0] (transpose S3072x1024 [1, 0] x7 transposes_S1024x3072_S3072x1024_1_0) slices_S3072x1024_S1024x1024_2048_0) bitsLt_bf16_f32)
      (shapeCast S1x1024 x8 shapeCasts_S1024_S1x1024)
    = newRela x0 x2 x3 x4 x7 x8 := by
  funext i
  obtain ⟨b, r, q, rfl⟩ : ∃ (b : Fin 32) (r : Fin 2048) (q : Fin 1024), i = ix3 b r q := ⟨i 0, i 1, i 2, eq_ix3 i⟩
  rw [relaFull_apply, newRela_apply]
  unfold relaFullAt newRelaAt relaAcc
  simp only [truncf_apply, wcutR_apply 0 (by decide), wcutR_apply 1024 (by decide), wcutR_apply 2048 (by decide), biasrow_apply]

end Cert.KernelIdeal.RelaBridge

end
-- ==== Proof.PayRela.lean ====
/-
  The relation kernel's pure values read at an index, over the extended reals.

  The scratch projections: each is the node table [256, 1024] times a weight [1024, 1024], so its element (n, q) is
  Σ_k x(0, n, k) · w(k, q).  The one-hot gather: row p of the 0/1 matrix [512, 256] has its single 1 at the node the
  edge word names, so its product with a scratch table reads that table's row: Σ_n [n = node] · s(n, q) = s(node, q);
  the other terms are 0 · x = 0, which holds for every extended real x.  The remaining payloads only relabel indices.
-/
import proofs.«410875_j5720896438794_3_alg».proof.Proof.Gen.KernelIdeal.Skeleton
import proofs.«410875_j5720896438794_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayRela

open Idealize.ShloMosaic Idealize.ShloMosaic.ValueIdx Idealize.SL.Sem Cert.KernelIdeal Cert.KernelIdeal.Gen

/-! ## The projection product [256, 1024] × [1024, 1024]: its operand indices, axis by axis -/

theorem lhs_proj_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_proj_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_proj_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_proj_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into the zero splat at (n, q): the sum over k of the left operand at (n, k) times the right at (k, q). -/
theorem matmul_proj_apply (a : FVec Ideal S256x1024 .bf16) (b : FVec Ideal S1024x1024 .bf16) (n : Fin 256) (q : Fin 1024) :
    matmul (F := Ideal) dot_S256x1024_S1024x1024_S256x1024_1_0_0_1_n_n none a b (constant (F := Ideal) S256x1024 .f32 0x00000000#32) (ix2 n q)
      = ∑ k : Fin 1024, a (ix2 n k) * b (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 n q) ((ValueIdx.contrEquiv1 dot_S256x1024_S1024x1024_S256x1024_1_0_0_1_n_n 1024 rfl rfl).symm k) = ix2 n k := funext fun a => Fin.ext (by
    match a with
    | ⟨0, _⟩ => exact lhs_proj_0 _ _
    | ⟨1, _⟩ => exact (lhs_proj_1 _ _).trans hk)
  have er : dot_S256x1024_S1024x1024_S256x1024_1_0_0_1_n_n.rhsIdx (ix2 n q) ((ValueIdx.contrEquiv1 dot_S256x1024_S1024x1024_S256x1024_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- The node table with its leading unit axis dropped and its format narrowed, at (n, k): the table at (0, n, k). -/
theorem k1_pay2_apply (x : Vec Ideal S1x256x1024 .f32) (n : Fin 256) (k : Fin 1024) :
    Cert.KernelIdeal.Gen.k1_pay2 (F := Ideal) x (ix2 n k) = x (ix3 0 n k) := by
  unfold Gen.k1_pay2
  rw [truncf_apply]
  exact shapeCast_1ab_ab_apply x _ n k

/-- The subject projection at (n, q): Σ_k x(0, n, k) · w(k, q). -/
theorem k1_pay3_apply (x : Vec Ideal S1x256x1024 .f32) (w : Vec Ideal S1024x1024 .bf16) (n : Fin 256) (q : Fin 1024) :
    Cert.KernelIdeal.Gen.k1_pay3 (F := Ideal) x w (ix2 n q) = ∑ k : Fin 1024, x (ix3 0 n k) * w (ix2 k q) := by
  unfold Gen.k1_pay3
  rw [shapeCast_self, truncf_apply, shapeCast_self]
  refine (matmul_proj_apply _ _ n q).trans ?_
  exact Finset.sum_congr rfl fun k _ => by rw [k1_pay2_apply]

/-- The object projection at (n, q): the same sum with the other weight. -/
theorem k1_pay4_apply (x : Vec Ideal S1x256x1024 .f32) (w : Vec Ideal S1024x1024 .bf16) (n : Fin 256) (q : Fin 1024) :
    Cert.KernelIdeal.Gen.k1_pay4 (F := Ideal) x w (ix2 n q) = ∑ k : Fin 1024, x (ix3 0 n k) * w (ix2 k q) := by
  unfold Gen.k1_pay4
  rw [shapeCast_self, truncf_apply, shapeCast_self]
  refine (matmul_proj_apply _ _ n q).trans ?_
  exact Finset.sum_congr rfl fun k _ => by rw [k1_pay2_apply]

/-! ## Words: pointwise integer operations, the clamp, and one entry of the 0/1 row -/

theorem cmpi_apply {s : Shape} {w : Nat} (c : CmpIPredicate) (x y : IVec s w) (i : s.Idx) :
    cmpi c x y i = IntOp.cmpi c (x i) (y i) := rfl
theorem maxsi_apply {s : Shape} {w : Nat} (x y : IVec s w) (i : s.Idx) : maxsi x y i = IntOp.maxsi (x i) (y i) := rfl
theorem minsi_apply {s : Shape} {w : Nat} (x y : IVec s w) (i : s.Idx) : minsi x y i = IntOp.minsi (x i) (y i) := rfl

/-- A word whose signed value lies in [0, 256) has that value as its unsigned one. -/
theorem toNat_of_range (e : BitVec 32) (h0 : 0 ≤ e.toInt) (h1 : e.toInt < 256) : e.toNat < 256 ∧ e.toInt = (e.toNat : Int) := by
  have hc := BitVec.toInt_eq_toNat_cond e
  have hl := e.isLt
  split at hc <;> omega

/-- The clamp to [0, 255] is the identity on a word in range. -/
theorem clamp_eq (e : BitVec 32) (h0 : 0 ≤ e.toInt) (h1 : e.toInt < 256) :
    IntOp.minsi 255#32 (IntOp.maxsi 0#32 e) = e := by
  have hmax : IntOp.maxsi 0#32 e = e := by
    unfold IntOp.maxsi
    rw [if_neg]
    simp only [BitVec.slt, decide_eq_true_eq, not_lt]
    simpa using h0
  rw [hmax]
  unfold IntOp.minsi
  rw [if_neg]
  simp only [BitVec.slt, decide_eq_true_eq, not_lt]
  have : (255#32 : BitVec 32).toInt = 255 := by decide
  rw [this]; omega

/-- One entry of the 0/1 row of a word in range: "n equals the word", widened and converted, is 1 at the word's node
    and 0 elsewhere. -/
theorem onehot_word (e : BitVec 32) (h0 : 0 ≤ e.toInt) (h1 : e.toInt < 256) (n : Fin 256) :
    (FloatOps.sitofp (F := Ideal) .f32 ((IntOp.cmpi .eq (BitVec.ofNat 32 n.val) e).setWidth 32) : Ideal .f32)
      = if n.val = e.toNat % 256 then 1 else 0 := by
  obtain ⟨hlt, _⟩ := toNat_of_range e h0 h1
  by_cases hn : n.val = e.toNat % 256
  · rw [if_pos hn]
    have he : BitVec.ofNat 32 n.val = e := by
      apply BitVec.eq_of_toNat_eq
      rw [BitVec.toNat_ofNat]
      omega
    rw [he]
    have : IntOp.cmpi .eq e e = 1#1 := by simp [IntOp.cmpi]
    rw [this]
    show (((1#1 : BitVec 1).setWidth 32).toInt : ℝ) = (1 : EReal)
    have : ((1#1 : BitVec 1).setWidth 32).toInt = 1 := by decide
    rw [this]; simp
  · rw [if_neg hn]
    have hne : ¬ BitVec.ofNat 32 n.val = e := by
      intro he
      apply hn
      have := congrArg BitVec.toNat he
      rw [BitVec.toNat_ofNat] at this
      have hn' := n.isLt
      omega
    have hb : (BitVec.ofNat 32 n.val == e) = false := beq_eq_false_iff_ne.mpr hne
    have : IntOp.cmpi .eq (BitVec.ofNat 32 n.val) e = 0#1 := by
      show BitVec.ofBool (BitVec.ofNat 32 n.val == e) = 0#1
      rw [hb]; rfl
    rw [this]
    show (((0#1 : BitVec 1).setWidth 32).toInt : ℝ) = (0 : EReal)
    have : ((0#1 : BitVec 1).setWidth 32).toInt = 0 := by decide
    rw [this]; simp

/-! ## Layout: one column broadcast along the rows -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The gather product [512, 256] × [256, 1024]: its operand indices, axis by axis -/

theorem lhs_gath_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_gath_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_gath_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_gath_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The product into the zero splat at (p, q): the sum over n of the left operand at (p, n) times the right at (n, q). -/
theorem matmul_gath_apply (a : FVec Ideal S512x256 .bf16) (b : FVec Ideal S256x1024 .bf16) (p : Fin 512) (q : Fin 1024) :
    matmul (F := Ideal) dot_S512x256_S256x1024_S512x1024_1_0_0_1_n_n none a b (constant (F := Ideal) S512x1024 .f32 0x00000000#32) (ix2 p q)
      = ∑ n : Fin 256, a (ix2 p n) * b (ix2 n q) := by
  simp only [matmul]
  rw [Ideal.matmul_constant_zero_apply, ← Equiv.sum_comp (ValueIdx.contrEquiv1 dot_S512x256_S256x1024_S512x1024_1_0_0_1_n_n 256 rfl rfl).symm]
  refine Finset.sum_congr rfl fun k _ => ?_
  have hk := ValueIdx.contrEquiv1_symm_val dot_S512x256_S256x1024_S512x1024_1_0_0_1_n_n 256 rfl rfl k
  have el : dot_S512x256_S256x1024_S512x1024_1_0_0_1_n_n.lhsIdx (ix2 p q) ((ValueIdx.contrEquiv1 dot_S512x256_S256x1024_S512x1024_1_0_0_1_n_n 256 rfl rfl).symm k) = ix2 p k := funext fun a => Fin.ext (by
    match a with
    | ⟨0, _⟩ => exact lhs_gath_0 _ _
    | ⟨1, _⟩ => exact (lhs_gath_1 _ _).trans hk)
  have er : dot_S512x256_S256x1024_S512x1024_1_0_0_1_n_n.rhsIdx (ix2 p q) ((ValueIdx.contrEquiv1 dot_S512x256_S256x1024_S512x1024_1_0_0_1_n_n 256 rfl rfl).symm k) = ix2 k q := funext fun a => Fin.ext (by
    match a with
    | ⟨0, _⟩ => exact (rhs_gath_0 _ _).trans hk
    | ⟨1, _⟩ => exact rhs_gath_1 _ _)
  rw [el, er]

/-! ## The edge block's two columns, clamped, and the 0/1 rows they select -/

/-- The subject column of the edge block at row p: the edge word (0, p, 0). -/
theorem edgeCol0_apply (e : IVec S1x512x2 32) (p : Fin 512) :
    (extractStridedSlice S512x1 ![0, 0] (shapeCast S512x2 e shapeCasts_S1x512x2_S512x2) slices_S512x2_o0_0_S512x1 : IVec S512x1 32) (ix2 p (0 : Fin 1))
      = e (ix3 0 p 0) := by
  refine (slice2_axis1_apply 0 _ _ p (0 : Fin 1) (0 : Fin 2) rfl).trans ?_
  exact shapeCast_1ab_ab_apply e _ p 0

/-- The object column of the edge block at row p: the edge word (0, p, 1). -/
theorem edgeCol1_apply (e : IVec S1x512x2 32) (p : Fin 512) :
    (extractStridedSlice S512x1 ![0, 1] (shapeCast S512x2 e shapeCasts_S1x512x2_S512x2) slices_S512x2_o0_1_S512x1 : IVec S512x1 32) (ix2 p (0 : Fin 1))
      = e (ix3 0 p 1) := by
  refine (slice2_axis1_apply 1 _ _ p (0 : Fin 1) (1 : Fin 2) rfl).trans ?_
  exact shapeCast_1ab_ab_apply e _ p 1

/-- The 0/1 matrix of a column of words `c`, at (p, n): "n equals the word in row p", widened and converted. -/
theorem onehot_apply (c : IVec S512x1 32) (p : Fin 512) (n : Fin 256) :
    (truncf .bf16 (sitofp (F := Ideal) .f32 (extui 32 (cmpi .eq (iota .tc S512x256 32 [1] iota_S512x256_d1_w32)
        (broadcastTo S512x256 c broadcasts_S512x1_S512x256)) natLt_1_32)) bitsLt_bf16_f32 : FVec Ideal S512x256 .bf16) (ix2 p n)
      = FloatOps.sitofp (F := Ideal) .f32 ((IntOp.cmpi .eq (BitVec.ofNat 32 n.val) (c (ix2 p (0 : Fin 1)))).setWidth 32) := by
  rw [truncf_apply, sitofp_apply, extui_apply, cmpi_apply, iota_single_apply, broadcastTo_a1_ab_apply]

/-- A 0/1 row contracted with a table reads the table's row: Σ_n [n = node] · s(n, q) = s(node, q). Every other term
    is 0 · x = 0, whatever the extended real x. -/
theorem gather_sum (c : IVec S512x1 32) (s : FVec Ideal S256x1024 .bf16) (p : Fin 512) (q : Fin 1024) (w : BitVec 32)
    (hc : c (ix2 p (0 : Fin 1)) = w) (h : 0 ≤ w.toInt ∧ w.toInt < 256) :
    ∑ n : Fin 256, (truncf .bf16 (sitofp (F := Ideal) .f32 (extui 32 (cmpi .eq (iota .tc S512x256 32 [1] iota_S512x256_d1_w32)
        (broadcastTo S512x256 c broadcasts_S512x1_S512x256)) natLt_1_32)) bitsLt_bf16_f32 : FVec Ideal S512x256 .bf16) (ix2 p n) * s (ix2 n q)
      = s (ix2 (Cert.Spec.nodeOf w) q) := by
  rw [Finset.sum_eq_single (Cert.Spec.nodeOf w)]
  · rw [onehot_apply, hc, onehot_word w h.1 h.2, if_pos (show (Cert.Spec.nodeOf w).val = w.toNat % 256 from rfl), one_mul]
  · intro b _ hb
    rw [onehot_apply, hc, onehot_word w h.1 h.2, if_neg (show ¬ b.val = w.toNat % 256 from fun hh => hb (Fin.ext hh)), zero_mul]
  · intro hh
    exact absurd (Finset.mem_univ _) hh

/-- The gathered sum at (p, q): the subject table's row at the subject node plus the object table's row at the
    object node. -/
theorem k1_pay6_apply (e : Vec Ideal S1x512x2 .i32) (s0 s1 : Vec Ideal S256x1024 .bf16) (p : Fin 512) (q : Fin 1024)
    (h0 : 0 ≤ (e (ix3 0 p 0)).toInt ∧ (e (ix3 0 p 0)).toInt < 256)
    (h1 : 0 ≤ (e (ix3 0 p 1)).toInt ∧ (e (ix3 0 p 1)).toInt < 256) :
    Cert.KernelIdeal.Gen.k1_pay6 (F := Ideal) e s0 s1 (ix2 p q)
      = s0 (ix2 (Cert.Spec.nodeOf (e (ix3 0 p 0))) q) + s1 (ix2 (Cert.Spec.nodeOf (e (ix3 0 p 1))) q) := by
  unfold Gen.k1_pay6
  rw [addf_apply]
  refine congrArg₂ (· + ·) ?_ ?_
  · refine (matmul_gath_apply _ _ p q).trans ?_
    refine gather_sum _ s0 p q (e (ix3 0 p 0)) ?_ h0
    rw [minsi_apply, maxsi_apply, broadcast_apply, broadcast_apply, edgeCol0_apply]
    exact clamp_eq _ h0.1 h0.2
  · refine (matmul_gath_apply _ _ p q).trans ?_
    refine gather_sum _ s1 p q (e (ix3 0 p 1)) ?_ h1
    rw [minsi_apply, maxsi_apply, broadcast_apply, broadcast_apply, edgeCol1_apply]
    exact clamp_eq _ h1.1 h1.2

/-! ## The payloads that only relabel indices -/

/-- The relation block with its leading unit axis dropped, at (p, q): the block at (0, p, q). -/
@[simp] theorem k1_pay5_apply (v : Vec Ideal S1x512x1024 .f32) (p : Fin 512) (q : Fin 1024) :
    Cert.KernelIdeal.Gen.k1_pay5 (F := Ideal) v (ix2 p q) = v (ix3 0 p q) := by
  unfold Gen.k1_pay5
  exact shapeCast_1ab_ab_apply v _ p q

/-- The same block narrowed: the narrowing is the identity on extended reals. -/
@[simp] theorem k1_pay7_apply (v : Vec Ideal S1x512x1024 .f32) (p : Fin 512) (q : Fin 1024) :
    Cert.KernelIdeal.Gen.k1_pay7 (F := Ideal) v (ix2 p q) = v (ix3 0 p q) := by
  unfold Gen.k1_pay7
  rw [truncf_apply]
  exact k1_pay5_apply v p q

/-- A cast of a shape to itself changes nothing. -/
@[simp] theorem k1_pay8_eq (v : Vec Ideal S1024x1024 .bf16) : Cert.KernelIdeal.Gen.k1_pay8 (F := Ideal) v = v := by
  unfold Gen.k1_pay8
  exact shapeCast_self v _

end Cert.KernelIdeal.PayRela

end
-- ==== Proof.PayRelaOut.lean ====
/-
  The relation kernel's stored block read at an index, over the extended reals.

  At (0, p, q) the stored value is
      ( max( (g(p, q) + Σ_k r(p, k) · W(k, q)) + b(0, q), 0 ) + x(p, q) ) · m(0, p, 0),
  g the gathered sum, r the relation block narrowed, W the relation weight, b the bias row, x the relation block and m the
  mask column.  Composed with the values the kernel passes in — the gathered sum as the two scratch rows at the edge's
  nodes, r and x both the relation block — this is the relation layer's formula for one block.
-/
import proofs.«410875_j5720896438794_3_alg».proof.Proof.Gen.KernelIdeal.Skeleton
import proofs.«410875_j5720896438794_3_alg».proof.Proof.PayRela
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayRelaOut

open Idealize.ShloMosaic Idealize.ShloMosaic.ValueIdx Idealize.SL.Sem Cert.KernelIdeal Cert.KernelIdeal.Gen Cert.KernelIdeal.PayRela

/-! ## The relation product [512, 1024] × [1024, 1024]: its operand indices, axis by axis -/

theorem lhs_rel_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_rel_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_rel_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_rel_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero splat at (p, q): the sum over k of the left operand at (p, k) times the right at (k, q). -/
theorem matmul_rel_apply (a : FVec Ideal S512x1024 .bf16) (b : FVec Ideal S1024x1024 .bf16) (p : Fin 512) (q : Fin 1024) :
    matmul (F := Ideal) dot_S512x1024_S1024x1024_S512x1024_1_0_0_1_n_n none a b (constant (F := Ideal) S512x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_rel_0 _ _
    | ⟨1, _⟩ => exact (lhs_rel_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_rel_0 _ _).trans hk
    | ⟨1, _⟩ => exact rhs_rel_1 _ _)
  rw [el, er]

/-! ## The stored block at an index -/

/-- The stored block at (0, p, q), from the values it is computed from. -/
theorem k1_pay1_apply (v31 v32 : FVec Ideal S512x1024 .f32) (v33 : FVec Ideal S512x1024 .bf16) (v35 : FVec Ideal S1024x1024 .bf16)
    (v38 : Vec Ideal S1x1024 .f32) (v45 : Vec Ideal S1x512x1 .f32) (p : Fin 512) (q : Fin 1024) :
    Cert.KernelIdeal.Gen.k1_pay1 (F := Ideal) v31 v32 v33 v35 (constant (F := Ideal) S512x1024 .f32 0x00000000#32) v38 v45 (ix3 0 p q)
      = (max ((v32 (ix2 p q) + ∑ k : Fin 1024, v33 (ix2 p k) * v35 (ix2 k q)) + v38 (ix2 0 q)) (Ideal.ofBits .f32 0x00000000#32)
          + v31 (ix2 p q)) * v45 (ix3 0 p 0) := by
  unfold Gen.k1_pay1
  refine (shapeCast_ab_1ab_apply _ _ (0 : Fin 1) p q).trans ?_
  rw [mulf_apply, addf_apply, maximumf_apply, addf_apply, addf_apply, broadcast_apply, matmul_rel_apply,
    broadcastTo_1b_ab_apply, shapeCast_self, broadcastTo_a1_ab_apply]
  rw [show shapeCast S512x1 v45 shapeCasts_S1x512x1_S512x1 (ix2 p (0 : Fin 1)) = v45 (ix3 0 p 0) from
    shapeCast_1ab_ab_apply v45 _ p (0 : Fin 1)]
  rfl

/-- The block the kernel stores, at (0, p, q): the relation layer's value there, the edge's two nodes read from the two
    scratch tables. -/
theorem relaBlock_apply (x1 : Vec Ideal S1x512x1024 .f32) (e : Vec Ideal S1x512x2 .i32) (s0 s1 : Vec Ideal S256x1024 .bf16)
    (x5 : Vec Ideal S1024x1024 .bf16) (x7 : Vec Ideal S1x1024 .f32) (x3 : Vec Ideal S1x512x1 .f32) (p : Fin 512) (q : Fin 1024)
    (h0 : 0 ≤ (e (ix3 0 p 0)).toInt ∧ (e (ix3 0 p 0)).toInt < 256)
    (h1 : 0 ≤ (e (ix3 0 p 1)).toInt ∧ (e (ix3 0 p 1)).toInt < 256) :
    Cert.KernelIdeal.Gen.k1_pay1 (F := Ideal) (Cert.KernelIdeal.Gen.k1_pay5 (F := Ideal) x1) (Cert.KernelIdeal.Gen.k1_pay6 (F := Ideal) e s0 s1)
        (Cert.KernelIdeal.Gen.k1_pay7 (F := Ideal) x1) (Cert.KernelIdeal.Gen.k1_pay8 (F := Ideal) x5)
        (constant (F := Ideal) S512x1024 .f32 0x00000000#32) x7 x3 (ix3 0 p q)
      = (max (((s0 (ix2 (Cert.Spec.nodeOf (e (ix3 0 p 0))) q) + s1 (ix2 (Cert.Spec.nodeOf (e (ix3 0 p 1))) q))
              + ∑ k : Fin 1024, x1 (ix3 0 p k) * x5 (ix2 k q)) + x7 (ix2 0 q)) (Ideal.ofBits .f32 0x00000000#32)
          + x1 (ix3 0 p q)) * x3 (ix3 0 p 0) := by
  rw [k1_pay1_apply, k1_pay5_apply, k1_pay6_apply e s0 s1 p q h0 h1, k1_pay8_eq]
  simp only [k1_pay7_apply]

end Cert.KernelIdeal.PayRelaOut

end
-- ==== Proof.R1Pieces.lean ====
/-
  What the relation kernel's body leaves in each buffer it writes, as values of the blocks it reads.

  At the first point of a batch the body stores the two projections of the batch's node table, each covering its
  carried buffer, then reads both back and stores the output block computed from them; at a later point it reads the
  two carried buffers as it finds them.  Each buffer is written by one store that covers it, so what it holds afterwards
  is that store's payload, whatever it held before.
-/
import proofs.«410875_j5720896438794_3_alg».proof.Proof.R1RunA
import proofs.«410875_j5720896438794_3_alg».proof.Proof.R1RunB
import Idealize.ShloMosaic.Lib.Pipeline.Value

set_option maxRecDepth 16384

noncomputable section

namespace Cert.KernelIdeal.Pieces

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point of a batch: the two carried buffers -/

/-- At a first point the one store into the first carried buffer covers it. -/
theorem cover_A_s0 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S256x1024.size (by sl_kernel_rfl) y

/-- A first point leaves in the first carried buffer the subject projection of the batch's node table. -/
theorem s0_A (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) :
    VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.1) = k1_pay3 x0 x4 := by
  rw [View.read_writes_eq_canon _ _ _ (cover_A_s0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero hz2]
  simp only [View.readAt_eq_ld, harg2.read_unread, harg6.read_unread, View.ld_unit_zero (S := S1x256x1024) hz3,
    View.ld_unit_zero (S := S1024x1024) hz2]

/-- At a first point the one store into the second carried buffer covers it. -/
theorem cover_A_s1 (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S256x1024.size (by sl_kernel_rfl) y

/-- A first point leaves in the second carried buffer the object projection of the batch's node table. -/
theorem s1_A (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) :
    VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1) = k1_pay4 x0 x6 := by
  rw [View.read_writes_eq_canon _ _ _ (cover_A_s1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero hz2]
  simp only [View.readAt_eq_ld, harg2.read_unread, harg8.read_unread, View.ld_unit_zero (S := S1x256x1024) hz3,
    View.ld_unit_zero (S := S1024x1024) hz2]

/-! ## The first point of a batch: the output block -/

/-- At a first point the one store into the output block covers it. -/
theorem cover_A_o (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (y : S1x512x1024.Idx) :
    ∃ pc ∈ (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x512x1024.size (by sl_kernel_rfl) y

/-- A first point leaves in the output block the relation layer's value computed from the point's own blocks and from
    the two projections it has just stored and read back. -/
theorem o_A (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) :
    VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 x0 x1 x2 x3 x4 x5 x6 x7).1)
      = k1_pay1 (k1_pay5 x1) (k1_pay6 x2 (k1_pay3 x0 x4) (k1_pay4 x0 x6)) (k1_pay7 x1) (k1_pay8 x5) (constant S512x1024 .f32 0x00000000#32) x7 x3 := by
  rw [View.read_writes_eq_canon _ _ _ (cover_A_o c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero (S := S1x512x1024) hz3]
  simp only [View.readAt_eq_ld, harg2.read_unread, harg3.read_unread, harg4.read_unread, harg5.read_unread, harg6.read_unread,
    harg7.read_unread, harg8.read_unread, harg9.read_unread, View.readCov_unit_zero (S := S256x1024) _ hz2,
    View.ld_unit_zero (S := S1x256x1024) hz3, View.ld_unit_zero (S := S1x512x1024) hz3, View.ld_unit_zero (S := S1x512x2) hz3,
    View.ld_unit_zero (S := S1x512x1) hz3, View.ld_unit_zero (S := S1024x1024) hz2, View.ld_unit_zero (S := S1x1024) hz2]

/-! ## A later point of a batch: the output block -/

/-- At a later point the one store into the output block covers it. -/
theorem cover_B_o (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 xs1 : Vec F S256x1024 .bf16) (y : S1x512x1024.Idx) :
    ∃ pc ∈ (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1 S1x512x1024.size (by sl_kernel_rfl) y

/-- A later point leaves in the output block the relation layer's value computed from the point's own blocks and from
    the two carried buffers as it finds them. -/
theorem o_B (c : Dev nD) (i : grid1.Coords) (arg2 : Memref sig .tc .vmem S1x256x1024 .f32) (harg2 : arg2.IsWhole) (arg3 : Memref sig .tc .vmem S1x512x1024 .f32) (harg3 : arg3.IsWhole) (arg4 : Memref sig .tc .vmem S1x512x2 .i32) (harg4 : arg4.IsWhole) (arg5 : Memref sig .tc .vmem S1x512x1 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S256x1024 .bf16) (harg11 : arg11.IsWhole) (arg12 : Memref sig .tc .vmem S256x1024 .bf16) (harg12 : arg12.IsWhole) (hc0 : ¬cond1_0 i)
    (x0 : Vec F S1x256x1024 .f32) (x1 : Vec F S1x512x1024 .f32) (x2 : Vec F S1x512x2 .i32) (x3 : Vec F S1x512x1 .f32) (x4 : Vec F S1024x1024 .bf16) (x5 : Vec F S1024x1024 .bf16) (x6 : Vec F S1024x1024 .bf16) (x7 : Vec F S1x1024 .f32) (xs0 xs1 : Vec F S256x1024 .bf16) :
    VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1)
      = k1_pay1 (k1_pay5 x1) (k1_pay6 x2 xs0 xs1) (k1_pay7 x1) (k1_pay8 x5) (constant S512x1024 .f32 0x00000000#32) x7 x3 := by
  rw [View.read_writes_eq_canon _ _ _ (cover_B_o c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun1_B
  dsimp only
  sl_unfold_words
  rw [View.canon_unit_zero (S := S1x512x1024) hz3]
  simp only [View.readAt_eq_ld, harg3.read_unread, harg4.read_unread, harg5.read_unread,
    harg7.read_unread, harg9.read_unread, harg11.read_unread, harg12.read_unread,
    View.ld_unit_zero (S := S1x512x1024) hz3, View.ld_unit_zero (S := S1x512x2) hz3,
    View.ld_unit_zero (S := S1x512x1) hz3, View.ld_unit_zero (S := S1024x1024) hz2, View.ld_unit_zero (S := S1x1024) hz2,
    View.ld_unit_zero (S := S256x1024) hz2]

end Cert.KernelIdeal.Pieces

end
-- ==== Proof.R1Scratch.lean ====
/-
  What the two carried buffers hold after each point of the relation kernel's grid, over the extended reals.

  Point t = 4 b + r works on batch b.  At r = 0 the body overwrites the first buffer with the batch's node table times
  the subject weight and the second with the node table times the object weight; at r = 1, 2, 3 it leaves both as they
  were.  So after EVERY point t the first buffer holds, at (n, q), Σ_k obj(t / 4, n, k) · Ws(k, q), and the second the
  same sum with Wo: by induction on the point, since (t - 1) / 4 = t / 4 unless 4 divides t.
-/
import proofs.«410875_j5720896438794_3_alg».proof.Proof.R1Frame
import proofs.«410875_j5720896438794_3_alg».proof.Proof.R1Pieces
import proofs.«410875_j5720896438794_3_alg».proof.Proof.PayRela
import Idealize.ShloMosaic.Lib.ValueIdx
import Idealize.ShloMosaic.Lib.Pipeline.Value

open scoped BigOperators

noncomputable section

namespace Cert.KernelIdeal.R1Scratch

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The projection of one batch's node table, entry by entry -/

/-- Row n, column q of batch b's node table times a weight: Σ_k x(b, n, k) · w(k, q). -/
def projAt (x : Vec Ideal S32x256x1024 .f32) (w : Vec Ideal S1024x1024 .bf16) (b : Fin 32) (n : Fin 256) (q : Fin 1024) : Ideal .bf16 :=
  ∑ k : Fin 1024, x (ix3 b n k) * w (ix2 k q)

theorem projAt_def (x : Vec Ideal S32x256x1024 .f32) (w : Vec Ideal S1024x1024 .bf16) (b : Fin 32) (n : Fin 256) (q : Fin 1024) :
    projAt x w b n q = ∑ k : Fin 1024, x (ix3 b n k) * w (ix2 k q) := rfl

/-! ## The blocks a first point projects, read off the arrays -/

/-- The printed index maps, decided over the grid: point t reads batch t / 4 of the node features and the one block of
    each of the two projection weights. -/
theorem idx_facts : ∀ t : Fin cfg1.N,
    win1_0.index t (0 : Fin 3) = t.val / 4 ∧ win1_0.index t (1 : Fin 3) = 0 ∧ win1_0.index t (2 : Fin 3) = 0
    ∧ win1_4.index t (0 : Fin 2) = 0 ∧ win1_4.index t (1 : Fin 2) = 0
    ∧ win1_6.index t (0 : Fin 2) = 0 ∧ win1_6.index t (1 : Fin 2) = 0 :=
  (by decide +kernel : ∀ t : Fin grid1.N, _)

/-- Window 0's block at point t is batch t / 4 of the node features. -/
theorem iblk1_0_apply (c : Dev nD) (t : Fin cfg1.N) (y : S1x256x1024.Idx) (k : S32x256x1024.Idx)
    (hk0 : (k 0).val = t.val / 4) (hk1 : (k 1).val = (y 1).val) (hk2 : (k 2).val = (y 2).val) :
    (iblk1 V c 0 t : Vec Ideal S1x256x1024 .f32) y = (V c main_arg0 : Vec Ideal S32x256x1024 .f32) k := by
  obtain ⟨e0, e1, e2, -⟩ := idx_facts t
  have hy0 : (y 0).val = 0 := by
    have h : (y 0).val < 1 := (y 0).isLt
    omega
  unfold iblk1
  rw [View.read_apply]
  show V c main_arg0 _ = V c main_arg0 _
  congr 1
  funext a
  apply Fin.ext
  match a with
  | ⟨0, _⟩ => show win1_0.index t (0 : Fin 3) * 1 + 1 * (y 0).val = (k 0).val; rw [e0, hk0, hy0]; omega
  | ⟨1, _⟩ => show win1_0.index t (1 : Fin 3) * 256 + 1 * (y 1).val = (k 1).val; rw [e1, hk1]; omega
  | ⟨2, _⟩ => show win1_0.index t (2 : Fin 3) * 1024 + 1 * (y 2).val = (k 2).val; rw [e2, hk2]; omega

/-- Window 4's one block is the subject projection's weight. -/
theorem iblk1_4_eq (c : Dev nD) (t : Fin cfg1.N) : (iblk1 V c 4 t : Vec Ideal S1024x1024 .bf16) = V c main_v12 := by
  obtain ⟨-, -, -, e0, e1, -⟩ := idx_facts t
  funext y
  unfold iblk1
  rw [View.read_apply]
  show V c main_v12 _ = V c main_v12 y
  congr 1
  funext a
  apply Fin.ext
  match a with
  | ⟨0, _⟩ => show win1_4.index t (0 : Fin 2) * 1024 + 1 * (y 0).val = (y 0).val; rw [e0]; omega
  | ⟨1, _⟩ => show win1_4.index t (1 : Fin 2) * 1024 + 1 * (y 1).val = (y 1).val; rw [e1]; omega

/-- Window 6's one block is the object projection's weight. -/
theorem iblk1_6_eq (c : Dev nD) (t : Fin cfg1.N) : (iblk1 V c 6 t : Vec Ideal S1024x1024 .bf16) = V c main_v16 := by
  obtain ⟨-, -, -, -, -, e0, e1⟩ := idx_facts t
  funext y
  unfold iblk1
  rw [View.read_apply]
  show V c main_v16 _ = V c main_v16 y
  congr 1
  funext a
  apply Fin.ext
  match a with
  | ⟨0, _⟩ => show win1_6.index t (0 : Fin 2) * 1024 + 1 * (y 0).val = (y 0).val; rw [e0]; omega
  | ⟨1, _⟩ => show win1_6.index t (1 : Fin 2) * 1024 + 1 * (y 1).val = (y 1).val; rw [e1]; omega

/-! ## A first point of a batch writes the two projections of the batch's node table -/

/-- What a first point leaves in the first carried buffer, at (n, q). -/
theorem first0 (c : Dev nD) (t : Fin cfg1.N) (h0 : t.val % 4 = 0) (hb : t.val / 4 < 32) (n : Fin 256) (q : Fin 1024) :
    sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (ix2 n q)
      = projAt (V c main_arg0) (V c main_v12) ⟨t.val / 4, hb⟩ n q := by
  unfold sout1_A_0
  refine (congrFun (Pieces.s0_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)) (ix2 n q)).trans ?_
  refine (PayRela.k1_pay3_apply (iblk1 V c 0 t) (iblk1 V c 4 t) n q).trans ?_
  unfold projAt
  refine Finset.sum_congr rfl fun k _ => ?_
  rw [iblk1_0_apply V c t (ix3 0 n k) (ix3 ⟨t.val / 4, hb⟩ n k) rfl rfl rfl, iblk1_4_eq V c t]

/-- What a first point leaves in the second carried buffer, at (n, q). -/
theorem first1 (c : Dev nD) (t : Fin cfg1.N) (h0 : t.val % 4 = 0) (hb : t.val / 4 < 32) (n : Fin 256) (q : Fin 1024) :
    sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (ix2 n q)
      = projAt (V c main_arg0) (V c main_v16) ⟨t.val / 4, hb⟩ n q := by
  unfold sout1_A_1
  refine (congrFun (Pieces.s1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)) (ix2 n q)).trans ?_
  refine (PayRela.k1_pay4_apply (iblk1 V c 0 t) (iblk1 V c 6 t) n q).trans ?_
  unfold projAt
  refine Finset.sum_congr rfl fun k _ => ?_
  rw [iblk1_0_apply V c t (ix3 0 n k) (ix3 ⟨t.val / 4, hb⟩ n k) rfl rfl rfl, iblk1_6_eq V c t]

/-! ## The invariant, by induction on the point -/

/-- After position m the first carried buffer holds batch m / 4's subject projection. -/
theorem scratch0_aux (c : Dev nD) (m : ℕ) : ∀ (hm : m < cfg1.N) (hb : m / 4 < 32) (n : Fin 256) (q : Fin 1024),
    (outsAt1 (F := Ideal) V c m hm).2.1 (ix2 n q)
      = projAt (V c main_arg0) (V c main_v12) ⟨m / 4, hb⟩ n q := by
  induction m using Nat.strong_induction_on with
  | _ m ih =>
    intro hm hb n q
    by_cases h0 : m % 4 = 0
    · rw [outsAt1_A V c ⟨m, hm⟩ h0]
      dsimp only
      exact first0 V c ⟨m, hm⟩ h0 hb n q
    · rw [outsAt1_B V c ⟨m, hm⟩ h0]
      dsimp only
      have hb' : (m - 1) / 4 < 32 := by omega
      refine (ih (m - 1) (by omega) _ hb' n q).trans ?_
      have e : (⟨(m - 1) / 4, hb'⟩ : Fin 32) = ⟨m / 4, hb⟩ := Fin.ext (by show (m - 1) / 4 = m / 4; omega)
      rw [e]

/-- After position m the second carried buffer holds batch m / 4's object projection. -/
theorem scratch1_aux (c : Dev nD) (m : ℕ) : ∀ (hm : m < cfg1.N) (hb : m / 4 < 32) (n : Fin 256) (q : Fin 1024),
    (outsAt1 (F := Ideal) V c m hm).2.2 (ix2 n q)
      = projAt (V c main_arg0) (V c main_v16) ⟨m / 4, hb⟩ n q := by
  induction m using Nat.strong_induction_on with
  | _ m ih =>
    intro hm hb n q
    by_cases h0 : m % 4 = 0
    · rw [outsAt1_A V c ⟨m, hm⟩ h0]
      dsimp only
      exact first1 V c ⟨m, hm⟩ h0 hb n q
    · rw [outsAt1_B V c ⟨m, hm⟩ h0]
      dsimp only
      have hb' : (m - 1) / 4 < 32 := by omega
      refine (ih (m - 1) (by omega) _ hb' n q).trans ?_
      have e : (⟨(m - 1) / 4, hb'⟩ : Fin 32) = ⟨m / 4, hb⟩ := Fin.ext (by show (m - 1) / 4 = m / 4; omega)
      rw [e]

/-- After point t the first carried buffer holds, at (n, q), Σ_k obj(t / 4, n, k) · Ws(k, q). -/
theorem scratch0_eq (c : Dev nD) (t : Fin cfg1.N) (n : Fin 256) (q : Fin 1024) (hb : t.val / 4 < 32) :
    (outsAt1 (F := Ideal) V c t.val t.isLt).2.1 (ix2 n q)
      = projAt (V c main_arg0) (V c main_v12) ⟨t.val / 4, hb⟩ n q :=
  scratch0_aux V c t.val t.isLt hb n q

/-- After point t the second carried buffer holds, at (n, q), Σ_k obj(t / 4, n, k) · Wo(k, q). -/
theorem scratch1_eq (c : Dev nD) (t : Fin cfg1.N) (n : Fin 256) (q : Fin 1024) (hb : t.val / 4 < 32) :
    (outsAt1 (F := Ideal) V c t.val t.isLt).2.2 (ix2 n q)
      = projAt (V c main_arg0) (V c main_v16) ⟨t.val / 4, hb⟩ n q :=
  scratch1_aux V c t.val t.isLt hb n q

/-- The grid has 128 points, so every point's batch is one of the 32. -/
theorem batch_lt (t : Fin cfg1.N) : t.val / 4 < 32 := by
  have h : t.val < 128 := t.isLt
  omega

end Cert.KernelIdeal.R1Scratch

end
-- ==== Proof.R1Value.lean ====
import proofs.«410875_j5720896438794_3_alg».proof.Proof.R1Frame
import proofs.«410875_j5720896438794_3_alg».proof.Proof.RelaFull
import proofs.«410875_j5720896438794_3_alg».proof.Proof.PayRelaOut
import proofs.«410875_j5720896438794_3_alg».proof.Proof.R1Pieces
import proofs.«410875_j5720896438794_3_alg».proof.Proof.R1Scratch
import Idealize.ShloMosaic.Lib.ValueIdx
import Idealize.ShloMosaic.Lib.Pipeline.Value
import Idealize.ShloMosaic.PureOps.Ideal.Laws

/-! # The relation layer's result array, from one point's block to the whole array

The relation layer runs on a grid of 32 × 4 points; point `t = 4 b + r` stages batch `b`'s 256 object rows, rows
`512 r … 512 r + 511` of batch `b`'s relation features, edge words and mask, the three weight parts and the bias whole,
and writes back rows `512 r … 512 r + 511` of batch `b` of the result. The first point of a batch (r = 0) projects the
batch's object rows through the subject's and the object's weight parts into two buffers that the batch's three later
points read: after any point the two buffers hold the projections of the point's own batch. With that, the block a
point writes is, entry by entry, the whole-array function read at the block's rows; the 128 blocks tile the array. -/

open scoped BigOperators

noncomputable section

namespace Cert.KernelIdeal.R1Value

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The grid has 128 points. -/
theorem N1 : cfg1.N = 128 := by decide

/-- The printed index maps, decided over the grid: point `t` reads block `t / 4` of the object features (all its rows),
    block `(t / 4, t % 4)` of the relation features, the edge words and the mask, the one block of each weight part and
    of the bias, and writes block `(t / 4, t % 4)` of the result. -/
theorem idx_facts : ∀ t : Fin cfg1.N,
    (win1_0.index t (0 : Fin 3) = t.val / 4 ∧ win1_0.index t (1 : Fin 3) = 0 ∧ win1_0.index t (2 : Fin 3) = 0)
    ∧ (win1_1.index t (0 : Fin 3) = t.val / 4 ∧ win1_1.index t (1 : Fin 3) = t.val % 4 ∧ win1_1.index t (2 : Fin 3) = 0)
    ∧ (win1_2.index t (0 : Fin 3) = t.val / 4 ∧ win1_2.index t (1 : Fin 3) = t.val % 4 ∧ win1_2.index t (2 : Fin 3) = 0)
    ∧ (win1_3.index t (0 : Fin 3) = t.val / 4 ∧ win1_3.index t (1 : Fin 3) = t.val % 4 ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 3) = t.val / 4 ∧ win1_8.index t (1 : Fin 3) = t.val % 4 ∧ win1_8.index t (2 : Fin 3) = 0) :=
  (by decide +kernel : ∀ t : Fin grid1.N, _)

/-! ## The input blocks, read off the arrays -/

/-- Window 0's block at point `t` is batch `t / 4` of the object features. -/
theorem iblk1_0_apply (c : Dev nD) (t : Fin cfg1.N) (y : S1x256x1024.Idx) (k : S32x256x1024.Idx)
    (hk0 : (k 0).val = t.val / 4) (hk1 : (k 1).val = (y 1).val) (hk2 : (k 2).val = (y 2).val) :
    (iblk1 V c 0 t : Vec Ideal S1x256x1024 .f32) y = (V c main_arg0 : Vec Ideal S32x256x1024 .f32) k := by
  obtain ⟨⟨e0, e1, e2⟩, -⟩ := idx_facts t
  have hy0 : (y 0).val < 1 := (y 0).isLt
  unfold iblk1
  rw [View.read_apply]
  show V c main_arg0 _ = V c main_arg0 _
  congr 1
  funext a
  apply Fin.ext
  match a with
  | ⟨0, _⟩ => show win1_0.index t (0 : Fin 3) * 1 + 1 * (y 0).val = (k 0).val; rw [e0, hk0]; omega
  | ⟨1, _⟩ => show win1_0.index t (1 : Fin 3) * 256 + 1 * (y 1).val = (k 1).val; rw [e1, hk1]; omega
  | ⟨2, _⟩ => show win1_0.index t (2 : Fin 3) * 1024 + 1 * (y 2).val = (k 2).val; rw [e2, hk2]; omega

/-- Window 1's block at point `t` is rows `512 (t % 4) …` of batch `t / 4` of the relation features. -/
theorem iblk1_1_apply (c : Dev nD) (t : Fin cfg1.N) (y : S1x512x1024.Idx) (k : S32x2048x1024.Idx)
    (hk0 : (k 0).val = t.val / 4) (hk1 : (k 1).val = 512 * (t.val % 4) + (y 1).val) (hk2 : (k 2).val = (y 2).val) :
    (iblk1 V c 1 t : Vec Ideal S1x512x1024 .f32) y = (V c main_arg2 : Vec Ideal S32x2048x1024 .f32) k := by
  obtain ⟨-, ⟨e0, e1, e2⟩, -⟩ := idx_facts t
  have hy0 : (y 0).val < 1 := (y 0).isLt
  unfold iblk1
  rw [View.read_apply]
  show V c main_arg2 _ = V c main_arg2 _
  congr 1
  funext a
  apply Fin.ext
  match a with
  | ⟨0, _⟩ => show win1_1.index t (0 : Fin 3) * 1 + 1 * (y 0).val = (k 0).val; rw [e0, hk0]; omega
  | ⟨1, _⟩ => show win1_1.index t (1 : Fin 3) * 512 + 1 * (y 1).val = (k 1).val; rw [e1, hk1]; omega
  | ⟨2, _⟩ => show win1_1.index t (2 : Fin 3) * 1024 + 1 * (y 2).val = (k 2).val; rw [e2, hk2]; omega

/-- Window 2's block at point `t` is rows `512 (t % 4) …` of batch `t / 4` of the edge words. -/
theorem iblk1_2_apply (c : Dev nD) (t : Fin cfg1.N) (y : S1x512x2.Idx) (k : S32x2048x2.Idx)
    (hk0 : (k 0).val = t.val / 4) (hk1 : (k 1).val = 512 * (t.val % 4) + (y 1).val) (hk2 : (k 2).val = (y 2).val) :
    (iblk1 V c 2 t : Vec Ideal S1x512x2 .i32) y = (V c main_arg3 : Vec Ideal S32x2048x2 .i32) k := by
  obtain ⟨-, -, ⟨e0, e1, e2⟩, -⟩ := idx_facts t
  have hy0 : (y 0).val < 1 := (y 0).isLt
  unfold iblk1
  rw [View.read_apply]
  show V c main_arg3 _ = V c main_arg3 _
  congr 1
  funext a
  apply Fin.ext
  match a with
  | ⟨0, _⟩ => show win1_2.index t (0 : Fin 3) * 1 + 1 * (y 0).val = (k 0).val; rw [e0, hk0]; omega
  | ⟨1, _⟩ => show win1_2.index t (1 : Fin 3) * 512 + 1 * (y 1).val = (k 1).val; rw [e1, hk1]; omega
  | ⟨2, _⟩ => show win1_2.index t (2 : Fin 3) * 2 + 1 * (y 2).val = (k 2).val; rw [e2, hk2]; omega

/-- Window 3's block at point `t` is rows `512 (t % 4) …` of batch `t / 4` of the mask. -/
theorem iblk1_3_apply (c : Dev nD) (t : Fin cfg1.N) (y : S1x512x1.Idx) (k : S32x2048x1.Idx)
    (hk0 : (k 0).val = t.val / 4) (hk1 : (k 1).val = 512 * (t.val % 4) + (y 1).val) (hk2 : (k 2).val = (y 2).val) :
    (iblk1 V c 3 t : Vec Ideal S1x512x1 .f32) y = (V c main_arg4 : Vec Ideal S32x2048x1 .f32) k := by
  obtain ⟨-, -, -, ⟨e0, e1, e2⟩, -⟩ := idx_facts t
  have hy0 : (y 0).val < 1 := (y 0).isLt
  unfold iblk1
  rw [View.read_apply]
  show V c main_arg4 _ = V c main_arg4 _
  congr 1
  funext a
  apply Fin.ext
  match a with
  | ⟨0, _⟩ => show win1_3.index t (0 : Fin 3) * 1 + 1 * (y 0).val = (k 0).val; rw [e0, hk0]; omega
  | ⟨1, _⟩ => show win1_3.index t (1 : Fin 3) * 512 + 1 * (y 1).val = (k 1).val; rw [e1, hk1]; omega
  | ⟨2, _⟩ => show win1_3.index t (2 : Fin 3) * 1 + 1 * (y 2).val = (k 2).val; rw [e2, hk2]; omega

/-- Window 4's one block is the subject's weight part. -/
theorem iblk1_4_eq (c : Dev nD) (t : Fin cfg1.N) : (iblk1 V c 4 t : Vec Ideal S1024x1024 .bf16) = V c main_v12 := by
  obtain ⟨-, -, -, -, ⟨e0, e1⟩, -⟩ := idx_facts t
  funext y
  unfold iblk1
  rw [View.read_apply]
  show V c main_v12 _ = V c main_v12 y
  congr 1
  funext a
  apply Fin.ext
  match a with
  | ⟨0, _⟩ => show win1_4.index t (0 : Fin 2) * 1024 + 1 * (y 0).val = (y 0).val; rw [e0]; omega
  | ⟨1, _⟩ => show win1_4.index t (1 : Fin 2) * 1024 + 1 * (y 1).val = (y 1).val; rw [e1]; omega

/-- Window 5's one block is the relation's weight part. -/
theorem iblk1_5_eq (c : Dev nD) (t : Fin cfg1.N) : (iblk1 V c 5 t : Vec Ideal S1024x1024 .bf16) = V c main_v14 := by
  obtain ⟨-, -, -, -, -, ⟨e0, e1⟩, -⟩ := idx_facts t
  funext y
  unfold iblk1
  rw [View.read_apply]
  show V c main_v14 _ = V c main_v14 y
  congr 1
  funext a
  apply Fin.ext
  match a with
  | ⟨0, _⟩ => show win1_5.index t (0 : Fin 2) * 1024 + 1 * (y 0).val = (y 0).val; rw [e0]; omega
  | ⟨1, _⟩ => show win1_5.index t (1 : Fin 2) * 1024 + 1 * (y 1).val = (y 1).val; rw [e1]; omega

/-- Window 6's one block is the object's weight part. -/
theorem iblk1_6_eq (c : Dev nD) (t : Fin cfg1.N) : (iblk1 V c 6 t : Vec Ideal S1024x1024 .bf16) = V c main_v16 := by
  obtain ⟨-, -, -, -, -, -, ⟨e0, e1⟩, -⟩ := idx_facts t
  funext y
  unfold iblk1
  rw [View.read_apply]
  show V c main_v16 _ = V c main_v16 y
  congr 1
  funext a
  apply Fin.ext
  match a with
  | ⟨0, _⟩ => show win1_6.index t (0 : Fin 2) * 1024 + 1 * (y 0).val = (y 0).val; rw [e0]; omega
  | ⟨1, _⟩ => show win1_6.index t (1 : Fin 2) * 1024 + 1 * (y 1).val = (y 1).val; rw [e1]; omega

/-- Window 7's one block is the bias row. -/
theorem iblk1_7_eq (c : Dev nD) (t : Fin cfg1.N) : (iblk1 V c 7 t : Vec Ideal S1x1024 .f32) = V c main_v17 := by
  obtain ⟨-, -, -, -, -, -, -, ⟨e0, e1⟩, -⟩ := idx_facts t
  funext y
  unfold iblk1
  rw [View.read_apply]
  show V c main_v17 _ = V c main_v17 y
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 1024 + 1 * (y 1).val = (y 1).val; rw [e1]; omega

/-! ## The result's blocks tile the array -/

/-- An index of the array is in point `t`'s block iff each coordinate is in the block's range on its axis. -/
theorem mem_blk8 (t : Fin cfg1.N) (i : S32x2048x1024.Idx) :
    i ∈ ((cfg1.win 8).blk t).view.set ↔ ∀ a : Fin 3, win1_8.index t a * S1x512x1024.size a ≤ (i a).val ∧ (i a).val < win1_8.index t a * S1x512x1024.size a + S1x512x1024.size a := by
  show i ∈ ((View.whole main_v18).slice (win1_8.rect t)).set ↔ _
  rw [View.set_slice_whole, Rect.mem_set_unit]
  exact Iff.rfl

/-- Row `r` of batch `b` is in the block of the point `4 b + r / 512`. -/
theorem cover8 (i : S32x2048x1024.Idx) : ∃ t : Fin cfg1.N, (cfg1.win 8).flush t = true ∧ i ∈ ((cfg1.win 8).blk t).view.set := by
  have hi0 : (i 0).val < 32 := (i 0).isLt
  have hi1 : (i 1).val < 2048 := (i 1).isLt
  have hi2 : (i 2).val < 1024 := (i 2).isLt
  let t : Fin cfg1.N := ⟨4 * (i 0).val + (i 1).val / 512, by rw [N1]; omega⟩
  obtain ⟨-, -, -, -, -, -, -, -, ⟨e0, e1, e2⟩⟩ := idx_facts t
  have ht : t.val = 4 * (i 0).val + (i 1).val / 512 := rfl
  refine ⟨t, flush1_8 t, ?_⟩
  rw [mem_blk8]
  intro a
  match a with
  | ⟨0, _⟩ => show win1_8.index t (0 : Fin 3) * 1 ≤ (i 0).val ∧ (i 0).val < win1_8.index t (0 : Fin 3) * 1 + 1; rw [e0, ht]; omega
  | ⟨1, _⟩ => show win1_8.index t (1 : Fin 3) * 512 ≤ (i 1).val ∧ (i 1).val < win1_8.index t (1 : Fin 3) * 512 + 512; rw [e1, ht]; omega
  | ⟨2, _⟩ => show win1_8.index t (2 : Fin 3) * 1024 ≤ (i 2).val ∧ (i 2).val < win1_8.index t (2 : Fin 3) * 1024 + 1024; rw [e2]; omega

/-! ## One point's block is its rows of the whole array -/

/-- If the relation, edge and mask blocks are rows `512 r4 …` of batch `b` of their arrays, the two buffers hold batch
    `b`'s object rows projected through the subject's and the object's weight parts, the relation's weight block and the
    bias block are their arrays, and every edge word names a node, then the block's value at `y` is the whole array's
    value at batch `b`, row `512 r4 + y 1`, column `y 2`. -/
theorem point_eq (OBJ : Vec Ideal S32x256x1024 .f32) (RELA : Vec Ideal S32x2048x1024 .f32) (EDGES : Vec Ideal S32x2048x2 .i32)
    (MASK : Vec Ideal S32x2048x1 .f32) (WS WR WO : Vec Ideal S1024x1024 .bf16) (BIAS : Vec Ideal S1x1024 .f32)
    (x1 : Vec Ideal S1x512x1024 .f32) (e : Vec Ideal S1x512x2 .i32) (x3 : Vec Ideal S1x512x1 .f32)
    (s0 s1 : Vec Ideal S256x1024 .bf16) (x5 : Vec Ideal S1024x1024 .bf16) (x7 : Vec Ideal S1x1024 .f32) (b : Fin 32) (r4 : Nat)
    (hx1 : ∀ (y : S1x512x1024.Idx) (k : S32x2048x1024.Idx), (k 0).val = b.val → (k 1).val = 512 * r4 + (y 1).val → (k 2).val = (y 2).val → x1 y = RELA k)
    (he : ∀ (y : S1x512x2.Idx) (k : S32x2048x2.Idx), (k 0).val = b.val → (k 1).val = 512 * r4 + (y 1).val → (k 2).val = (y 2).val → e y = EDGES k)
    (hx3 : ∀ (y : S1x512x1.Idx) (k : S32x2048x1.Idx), (k 0).val = b.val → (k 1).val = 512 * r4 + (y 1).val → (k 2).val = (y 2).val → x3 y = MASK k)
    (hs0 : ∀ (n : Fin 256) (q : Fin 1024), s0 (ix2 n q) = ∑ k : Fin 1024, OBJ (ix3 b n k) * WS (ix2 k q))
    (hs1 : ∀ (n : Fin 256) (q : Fin 1024), s1 (ix2 n q) = ∑ k : Fin 1024, OBJ (ix3 b n k) * WO (ix2 k q))
    (hx5 : x5 = WR) (hx7 : x7 = BIAS) (hrange : Cert.Spec.EdgesInRange EDGES)
    (y : S1x512x1024.Idx) (i : S32x2048x1024.Idx) (hi0 : (i 0).val = b.val) (hi1 : (i 1).val = 512 * r4 + (y 1).val)
    (hi2 : (i 2).val = (y 2).val) :
    k1_pay1 (F := Ideal) (k1_pay5 (F := Ideal) x1) (k1_pay6 (F := Ideal) e s0 s1) (k1_pay7 (F := Ideal) x1) (k1_pay8 (F := Ideal) x5)
        (constant (F := Ideal) S512x1024 .f32 0x00000000#32) x7 x3 y
      = RelaFull.relaFull OBJ RELA EDGES MASK WS WR WO BIAS i := by
  subst hx5 hx7
  obtain ⟨y0, p, q, rfl⟩ : ∃ (y0 : Fin 1) (p : Fin 512) (q : Fin 1024), y = ix3 y0 p q := ⟨y 0, y 1, y 2, eq_ix3 y⟩
  obtain rfl : y0 = 0 := Subsingleton.elim _ _
  obtain ⟨B, R, Q, rfl⟩ : ∃ (B : Fin 32) (R : Fin 2048) (Q : Fin 1024), i = ix3 B R Q := ⟨i 0, i 1, i 2, eq_ix3 i⟩
  obtain rfl : B = b := Fin.ext hi0
  obtain rfl : Q = q := Fin.ext hi2
  have hR : R.val = 512 * r4 + p.val := hi1
  have ee0 : e (ix3 0 p 0) = EDGES (ix3 B R 0) := he _ _ rfl hR rfl
  have ee1 : e (ix3 0 p 1) = EDGES (ix3 B R 1) := he _ _ rfl hR rfl
  have ex : ∀ k : Fin 1024, x1 (ix3 0 p k) = RELA (ix3 B R k) := fun k => hx1 _ _ rfl hR rfl
  have em : x3 (ix3 0 p 0) = MASK (ix3 B R 0) := hx3 _ _ rfl hR rfl
  rw [PayRelaOut.relaBlock_apply x1 e s0 s1 x5 x7 x3 p Q (by rw [ee0]; exact hrange _) (by rw [ee1]; exact hrange _),
    RelaFull.relaFull_apply]
  unfold RelaFull.relaFullAt
  simp only [ee0, ee1, ex, em, hs0, hs1]

/-! ## What the body leaves at a point, from the pieces the two runs found -/

/-- At a first-of-batch point the first buffer holds the batch's object rows through the subject's weight part … -/
theorem scr0_A (c : Dev nD) (t : Fin cfg1.N) (h0 : t.val % 4 = 0) :
    (outsAt1 (F := Ideal) V c t.val t.isLt).2.1 = k1_pay3 (F := Ideal) (iblk1 V c 0 t) (iblk1 V c 4 t) := by
  rw [outsAt1_A V c t h0]
  dsimp only
  unfold sout1_A_0
  exact Pieces.s0_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)

/-- … the second through the object's weight part … -/
theorem scr1_A (c : Dev nD) (t : Fin cfg1.N) (h0 : t.val % 4 = 0) :
    (outsAt1 (F := Ideal) V c t.val t.isLt).2.2 = k1_pay4 (F := Ideal) (iblk1 V c 0 t) (iblk1 V c 6 t) := by
  rw [outsAt1_A V c t h0]
  dsimp only
  unfold sout1_A_1
  exact Pieces.s1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)

/-- … and the output block is the block formula over those two projections. -/
theorem out_A (c : Dev nD) (t : Fin cfg1.N) (h0 : t.val % 4 = 0) :
    (outsAt1 (F := Ideal) V c t.val t.isLt).1
      = k1_pay1 (F := Ideal) (k1_pay5 (F := Ideal) (iblk1 V c 1 t)) (k1_pay6 (F := Ideal) (iblk1 V c 2 t) (k1_pay3 (F := Ideal) (iblk1 V c 0 t) (iblk1 V c 4 t)) (k1_pay4 (F := Ideal) (iblk1 V c 0 t) (iblk1 V c 6 t)))
          (k1_pay7 (F := Ideal) (iblk1 V c 1 t)) (k1_pay8 (F := Ideal) (iblk1 V c 5 t)) (constant (F := Ideal) S512x1024 .f32 0x00000000#32)
          (iblk1 V c 7 t) (iblk1 V c 3 t) := by
  rw [outsAt1_A V c t h0]
  dsimp only
  unfold out1_A_8
  exact Pieces.o_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)

/-- At a later point of a batch the two buffers are as the point before left them … -/
theorem scr0_B (c : Dev nD) (t : Fin cfg1.N) (h0 : ¬t.val % 4 = 0) : (outsAt1 (F := Ideal) V c t.val t.isLt).2.1 = (outsAt1 (F := Ideal) V c (t.val - 1) (Nat.lt_of_le_of_lt (Nat.sub_le _ _) t.isLt)).2.1 := by
  rw [outsAt1_B V c t h0]
theorem scr1_B (c : Dev nD) (t : Fin cfg1.N) (h0 : ¬t.val % 4 = 0) : (outsAt1 (F := Ideal) V c t.val t.isLt).2.2 = (outsAt1 (F := Ideal) V c (t.val - 1) (Nat.lt_of_le_of_lt (Nat.sub_le _ _) t.isLt)).2.2 := by
  rw [outsAt1_B V c t h0]

/-- … and the output block is the block formula over them. -/
theorem out_B (c : Dev nD) (t : Fin cfg1.N) (h0 : ¬t.val % 4 = 0) :
    (outsAt1 (F := Ideal) V c t.val t.isLt).1
      = k1_pay1 (F := Ideal) (k1_pay5 (F := Ideal) (iblk1 V c 1 t)) (k1_pay6 (F := Ideal) (iblk1 V c 2 t) (outsAt1 (F := Ideal) V c (t.val - 1) (Nat.lt_of_le_of_lt (Nat.sub_le _ _) t.isLt)).2.1 (outsAt1 (F := Ideal) V c (t.val - 1) (Nat.lt_of_le_of_lt (Nat.sub_le _ _) t.isLt)).2.2)
          (k1_pay7 (F := Ideal) (iblk1 V c 1 t)) (k1_pay8 (F := Ideal) (iblk1 V c 5 t)) (constant (F := Ideal) S512x1024 .f32 0x00000000#32)
          (iblk1 V c 7 t) (iblk1 V c 3 t) := by
  rw [outsAt1_B V c t h0]
  dsimp only
  unfold out1_B_8
  exact Pieces.o_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 (F := Ideal) V c (t.val - 1) (Nat.lt_of_le_of_lt (Nat.sub_le _ _) t.isLt)).2.1 (outsAt1 (F := Ideal) V c (t.val - 1) (Nat.lt_of_le_of_lt (Nat.sub_le _ _) t.isLt)).2.2

/-- AT EVERY POINT the output block is the block formula over the point's own relation, edge, mask, weight and bias
    blocks and over the two buffers as they stand after that point. -/
theorem out_eq (c : Dev nD) (t : Fin cfg1.N) :
    (outsAt1 (F := Ideal) V c t.val t.isLt).1
      = k1_pay1 (F := Ideal) (k1_pay5 (F := Ideal) (iblk1 V c 1 t)) (k1_pay6 (F := Ideal) (iblk1 V c 2 t) (outsAt1 (F := Ideal) V c t.val t.isLt).2.1 (outsAt1 (F := Ideal) V c t.val t.isLt).2.2)
          (k1_pay7 (F := Ideal) (iblk1 V c 1 t)) (k1_pay8 (F := Ideal) (iblk1 V c 5 t)) (constant (F := Ideal) S512x1024 .f32 0x00000000#32)
          (iblk1 V c 7 t) (iblk1 V c 3 t) := by
  by_cases h0 : t.val % 4 = 0
  · rw [out_A V c t h0, scr0_A V c t h0, scr1_A V c t h0]
  · rw [out_B V c t h0, scr0_B V c t h0, scr1_B V c t h0]

/-! ## What each point writes back, and the whole array -/

/-- The arrays whose entries the projections multiply, named at their literal types. -/
abbrev objArr (c : Dev nD) : Vec Ideal S32x256x1024 .f32 := V c main_arg0
abbrev wsArr (c : Dev nD) : Vec Ideal S1024x1024 .bf16 := V c main_v12
abbrev woArr (c : Dev nD) : Vec Ideal S1024x1024 .bf16 := V c main_v16
/-- The two buffers after point `t`, named at their literal type. -/
abbrev scr0At (c : Dev nD) (t : Fin cfg1.N) : Vec Ideal S256x1024 .bf16 := (outsAt1 (F := Ideal) V c t.val t.isLt).2.1
abbrev scr1At (c : Dev nD) (t : Fin cfg1.N) : Vec Ideal S256x1024 .bf16 := (outsAt1 (F := Ideal) V c t.val t.isLt).2.2

/-- WHAT POINT `t` WRITES BACK is block `t` of the relation layer's array of the arrays as the region finds them, given
    that after every point the two buffers hold the projections of the point's batch. -/
theorem flushed8_eq (c : Dev nD) (hrange : Cert.Spec.EdgesInRange (V c main_arg3))
    (hs0 : ∀ (t : Fin cfg1.N) (hb : t.val / 4 < 32) (n : Fin 256) (q : Fin 1024),
      scr0At V c t (ix2 n q) = ∑ k : Fin 1024, objArr V c (ix3 ⟨t.val / 4, hb⟩ n k) * wsArr V c (ix2 k q))
    (hs1 : ∀ (t : Fin cfg1.N) (hb : t.val / 4 < 32) (n : Fin 256) (q : Fin 1024),
      scr1At V c t (ix2 n q) = ∑ k : Fin 1024, objArr V c (ix3 ⟨t.val / 4, hb⟩ n k) * woArr V c (ix2 k q))
    (t : Fin cfg1.N) :
    (dat1 (F := Ideal) V c).flushed 8 t = ((cfg1.win 8).blk t).view.read (Elt Ideal)
      (RelaFull.relaFull (V c main_arg0) (V c main_arg2) (V c main_arg3) (V c main_arg4) (V c main_v12) (V c main_v14) (V c main_v16) (V c main_v17)) := by
  show (cfg1.win 8).cut (grid1.coords t) ((dat1 V c).after 8 t) = _
  rw [after1_8, out_eq]
  funext j
  obtain ⟨-, -, -, -, -, -, -, -, ⟨e0, e1, e2⟩⟩ := idx_facts t
  have hb : t.val / 4 < 32 := by have h128 : t.val < 128 := lt_of_lt_of_eq t.isLt N1; omega
  have hj0 : (j 0).val < 1 := (j 0).isLt
  refine point_eq (V c main_arg0) (V c main_arg2) (V c main_arg3) (V c main_arg4) (V c main_v12) (V c main_v14) (V c main_v16) (V c main_v17)
    (iblk1 V c 1 t) (iblk1 V c 2 t) (iblk1 V c 3 t) (outsAt1 (F := Ideal) V c t.val t.isLt).2.1 (outsAt1 (F := Ideal) V c t.val t.isLt).2.2 (iblk1 V c 5 t) (iblk1 V c 7 t) ⟨t.val / 4, hb⟩ (t.val % 4)
    (iblk1_1_apply V c t) (iblk1_2_apply V c t) (iblk1_3_apply V c t) (hs0 t hb) (hs1 t hb)
    (iblk1_5_eq V c t) (iblk1_7_eq V c t) hrange _ _ ?_ ?_ ?_
  · show win1_8.index t (0 : Fin 3) * 1 + 1 * (j 0).val = t.val / 4
    rw [e0]; omega
  · show win1_8.index t (1 : Fin 3) * 512 + 1 * (j 1).val = 512 * (t.val % 4) + (j 1).val
    rw [e1]; omega
  · show win1_8.index t (2 : Fin 3) * 1024 + 1 * (j 2).val = (j 2).val
    rw [e2]; omega

/-- THE ARRAY after the region, given what the two buffers hold after every point: the relation layer's array of the
    arrays as the region finds them. -/
theorem final1_of (c : Dev nD) (h : Cert.Spec.EdgesInRange (V c main_arg3))
    (hs0 : ∀ (t : Fin cfg1.N) (hb : t.val / 4 < 32) (n : Fin 256) (q : Fin 1024),
      scr0At V c t (ix2 n q) = ∑ k : Fin 1024, objArr V c (ix3 ⟨t.val / 4, hb⟩ n k) * wsArr V c (ix2 k q))
    (hs1 : ∀ (t : Fin cfg1.N) (hb : t.val / 4 < 32) (n : Fin 256) (q : Fin 1024),
      scr1At V c t (ix2 n q) = ∑ k : Fin 1024, objArr V c (ix3 ⟨t.val / 4, hb⟩ n k) * woArr V c (ix2 k q)) :
    (dat1 (F := Ideal) V c).arrAt 8 cfg1.N
      = (RelaFull.relaFull (V c main_arg0) (V c main_arg2) (V c main_arg3) (V c main_arg4) (V c main_v12) (V c main_v14) (V c main_v16) (V c main_v17)) :=
  (dat1 (F := Ideal) V c).arrAt_eq_of_cover 8 (RelaFull.relaFull (V c main_arg0) (V c main_arg2) (V c main_arg3) (V c main_arg4) (V c main_v12) (V c main_v14) (V c main_v16) (V c main_v17))
    (fun t _ => flushed8_eq V c h hs0 hs1 t) cover8

/-- THE ARRAY after the region: the relation layer's array of the arrays as the region finds them, for edges that name
    nodes. The two buffers hold, after every point, the projections of the point's batch. -/
theorem final1 (c : Dev nD) (h : Cert.Spec.EdgesInRange (V c main_arg3)) :
    (dat1 (F := Ideal) V c).arrAt 8 cfg1.N
      = (RelaFull.relaFull (V c main_arg0) (V c main_arg2) (V c main_arg3) (V c main_arg4) (V c main_v12) (V c main_v14) (V c main_v16) (V c main_v17)) :=
  final1_of V c h (fun t hb n q => R1Scratch.scratch0_eq V c t n q hb) (fun t hb n q => R1Scratch.scratch1_eq V c t n q hb)

end Cert.KernelIdeal.R1Value
-- ==== Proof.KernelRela.lean ====
/-
  What the idealized kernel's @main leaves in its third result: the relation layer's array, which is the specification's
  new relation features when every edge word names a node — the region's array is the closed form of its value proof,
  the arguments it stages reach it as launched, and the host lines' weight parts are read at coordinates.
-/
import proofs.«410875_j5720896438794_3_alg».proof.Proof.KernelAttr
import proofs.«410875_j5720896438794_3_alg».proof.Proof.RelaBridge
import proofs.«410875_j5720896438794_3_alg».proof.Proof.R1Value

noncomputable section

namespace Cert.KernelIdeal.KernelValue

open Cert.KernelIdeal Cert.KernelIdeal.Gen Cert.KernelIdeal.Hand Cert.Spec
open Idealize.ShloMosaic Idealize.ShloMosaic.TcCoe Idealize.SL.Sem

variable (m : (ℓ : Loc nD τ sig) → Buf (Elt Ideal) ℓ) (c : Dev nD)

/-- The new relation features, for edges that name nodes. -/
theorem rela_result (h : EdgesInRange (m ((c : Thread nD τ).loc main_arg3))) :
    W4 (F := Ideal) m c (Proc.devRef .tc main_v18)
      = newRela (m ((c : Thread nD τ).loc main_arg0)) (m ((c : Thread nD τ).loc main_arg2)) (m ((c : Thread nD τ).loc main_arg3)) (m ((c : Thread nD τ).loc main_arg4))
          (m ((c : Thread nD τ).loc main_arg7)) (m ((c : Thread nD τ).loc main_arg8)) := by
  have e0 := V3_arg m c main_arg0 (by decide) (by decide) (by decide)
  have e2 := V3_arg m c main_arg2 (by decide) (by decide) (by decide)
  have e3 := V3_arg m c main_arg3 (by decide) (by decide) (by decide)
  have e4 := V3_arg m c main_arg4 (by decide) (by decide) (by decide)
  rw [show W4 m c (Proc.devRef .tc main_v18) = (dat1 (U3 m) c).arrAt 8 cfg1.N from W4_arr m c 8,
    R1Value.final1 (U3 m) c (by rw [e3]; exact h), e0, e2, e3, e4]
  rw [show U3 m c main_v12 = _ from HostVal.v12_eq (W2 m c), show U3 m c main_v14 = _ from HostVal.v14_eq (W2 m c),
    show U3 m c main_v16 = _ from HostVal.v16_eq (W2 m c), show U3 m c main_v17 = _ from HostVal.v17_eq (W2 m c)]
  rw [show W2 m c (Proc.devRef .tc main_arg7) = m ((c : Thread nD τ).loc main_arg7) from
        (W2_of_ne m c main_arg7 (by decide)).trans ((StableHlo.after_of_writes_sub hostOps0 _ hostOps0_writes (by decide)).trans rfl),
    show W2 m c (Proc.devRef .tc main_arg8) = m ((c : Thread nD τ).loc main_arg8) from
        (W2_of_ne m c main_arg8 (by decide)).trans ((StableHlo.after_of_writes_sub hostOps0 _ hostOps0_writes (by decide)).trans rfl)]
  exact RelaBridge.rela_bridge _ _ _ _ _ _

end Cert.KernelIdeal.KernelValue

end
-- ==== Proof.RefRunStages.lean ====
import proofs.«410875_j5720896438794_3_alg».proof.Proof.RefRead
import Idealize.ShloMosaic.Lib.StableHlo.Run

/-! # The reference program's run, read stretch by stretch

The reference @main is a straight line of 66 host operations; the contents of its buffers after the line are the
operations' results composed in order. Composition is associative, so the line can be cut anywhere: the contents after
the whole line are the contents after the last stretch, started from the contents after the stretches before it. Cut
into four stretches — the attribute layer and the two index columns; the first gather; the second gather; the join
of the three pieces and the relation layer — each stretch reads a result of a stretch before it as one opaque value,
and the last result is the relation layer's stage function of the two gathers' stage functions. -/

noncomputable section

namespace Cert.ReferenceIdeal.RunStages

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## A three-operand operation's result, operand by operand -/

section Nary3
variable {τ' : Topo} {sig' : RefSig} {Val : EltTy → Type} {x a b y : Ref sig' .tc}

/-- An operation over a literal family of three references writes its function of the three operands' contents, each
    read at its own reference. -/
theorem nary3_result
    (f : ((k : Fin 3) → ((![x, a, b] : Fin 3 → Ref sig' .tc) k).ty.Contents Val) → y.ty.Contents Val) (hxs hy)
    (V : Valuation τ' sig' Val) :
    (nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, keyed for one simplifier pass. -/
theorem nary3_result'
    (f : ((k : Fin 3) → ((![x, a, b] : Fin 3 → Ref sig' .tc) k).ty.Contents Val) → y.ty.Contents Val) (hxs hy)
    (V : Valuation τ' sig' Val) :
    (nary (τ := τ') ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Nary3

/-! ## The line, cut into four stretches -/

/-- Operations 1 to 11: the attribute layer's reference and the two index columns sliced off the table. -/
abbrev opsA1 : List (HloOp τ sig (Elt F)) :=
  [ binary main_arg0 main_arg1 main_v0 ((fun a b => concatenate S32x256x2048 2 [⟨S32x256x1024, a⟩, ⟨S32x256x1024, b⟩] concatenates_S32x256x1024_S32x256x1024_S32x256x2048_d2) : (⟨S32x256x1024, .f32⟩ : BufTy).Contents (Elt F) → (⟨S32x256x1024, .f32⟩ : BufTy).Contents (Elt F) → (⟨S32x256x2048, .f32⟩ : BufTy).Contents (Elt F)),
    binary main_v0 main_arg5 main_v1 ((fun l r => Host.dotGeneral dot_S32x256x2048_S1024x2048_S32x256x1024_2_1_01_0_n_n none l r) : (⟨S32x256x2048, .f32⟩ : BufTy).Contents (Elt F) → (⟨S1024x2048, .f32⟩ : BufTy).Contents (Elt F) → (⟨S32x256x1024, .f32⟩ : BufTy).Contents (Elt F)),
    unary main_arg6 main_v2 (broadcastInDim S1x1x1024 ![2] bcast_S1024_S1x1x1024_2 : (⟨S1024, .f32⟩ : BufTy).Contents (Elt F) → (⟨S1x1x1024, .f32⟩ : BufTy).Contents (Elt F)),
    unary main_v2 main_v3 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    binary main_v1 main_v3 main_v4 (addf : (⟨S32x256x1024, .f32⟩ : BufTy).Contents (Elt F) → (⟨S32x256x1024, .f32⟩ : BufTy).Contents (Elt F) → (⟨S32x256x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x256x1024, .f32⟩) main_call0_v0) (broadcastInDim S32x256x1024 ![] bcast_S_S32x256x1024),
    TRef.binary (TRef.of (T := ⟨S32x256x1024, .f32⟩) main_v4) (TRef.of (T := ⟨S32x256x1024, .f32⟩) main_call0_v0) (TRef.of (T := ⟨S32x256x1024, .f32⟩) main_v5) maximumf,
    binary main_v5 main_arg1 main_v6 (addf : (⟨S32x256x1024, .f32⟩ : BufTy).Contents (Elt F) → (⟨S32x256x1024, .f32⟩ : BufTy).Contents (Elt F) → (⟨S32x256x1024, .f32⟩ : BufTy).Contents (Elt F)),
    unary main_arg3 main_v7 ((extractStridedSlice S32x2048x1 ![0, 0, 0] · slices_S32x2048x2_S32x2048x1_0_0_0) : (⟨S32x2048x2, .i32⟩ : BufTy).Contents (Elt F) → (⟨S32x2048x1, .i32⟩ : BufTy).Contents (Elt F)),
    unary main_arg3 main_v8 ((extractStridedSlice S32x2048x1 ![0, 0, 1] · slices_S32x2048x2_S32x2048x1_0_0_1) : (⟨S32x2048x2, .i32⟩ : BufTy).Contents (Elt F) → (⟨S32x2048x1, .i32⟩ : BufTy).Contents (Elt F)) ]

/-- Operations 12 to 33: the first gather along the node axis, by the first index column. -/
abbrev opsA2 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32x2048x1, .i32⟩) main_call1_v0) (broadcastInDim S32x2048x1 ![] bcast_S_S32x2048x1),
    TRef.binary (TRef.of (T := ⟨S32x2048x1, .i32⟩) main_v7) (TRef.of (T := ⟨S32x2048x1, .i32⟩) main_call1_v0) (TRef.of (T := ⟨S32x2048x1, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S32x2048x1, .i32⟩) main_call1_v2) (broadcastInDim S32x2048x1 ![] bcast_S_S32x2048x1),
    TRef.binary (TRef.of (T := ⟨S32x2048x1, .i32⟩) main_v7) (TRef.of (T := ⟨S32x2048x1, .i32⟩) main_call1_v2) (TRef.of (T := ⟨S32x2048x1, .i32⟩) main_call1_v3) addi,
    TRef.ternary (TRef.of (T := ⟨S32x2048x1, .i1⟩) main_call1_v1) (TRef.of (T := ⟨S32x2048x1, .i32⟩) main_call1_v3) (TRef.of (T := ⟨S32x2048x1, .i32⟩) main_v7) (TRef.of (T := ⟨S32x2048x1, .i32⟩) main_call1_v4) select,
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S32x2048x1, .i32⟩) main_call1_v5) (broadcastInDim S32x2048x1 ![] bcast_S_S32x2048x1),
    TRef.binary (TRef.of (T := ⟨S32x2048x1, .i32⟩) main_call1_v4) (TRef.of (T := ⟨S32x2048x1, .i32⟩) main_call1_v5) (TRef.of (T := ⟨S32x2048x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S32x2048x1, .i32⟩) main_call1_v8) (broadcastInDim S32x2048x1 ![0, 1, 2] bcast_S1x1x1_S32x2048x1_0_1_2),
    TRef.binary (TRef.of (T := ⟨S32x2048x1, .i32⟩) main_call1_v4) (TRef.of (T := ⟨S32x2048x1, .i32⟩) main_call1_v8) (TRef.of (T := ⟨S32x2048x1, .i1⟩) main_call1_v9) (cmpi .sle),
    TRef.binary (TRef.of (T := ⟨S32x2048x1, .i1⟩) main_call1_v6) (TRef.of (T := ⟨S32x2048x1, .i1⟩) main_call1_v9) (TRef.of (T := ⟨S32x2048x1, .i1⟩) main_call1_v10) andi,
    TRef.nullary (TRef.of (T := ⟨S_, .i1⟩) main_call1_c_3) (constantI S_ 1 1#1),
    TRef.binary (TRef.of (T := ⟨S32x2048x1, .i1⟩) main_call1_v10) (TRef.of (T := ⟨S_, .i1⟩) main_call1_c_3) (TRef.of (T := ⟨S32x2048, .i1⟩) main_call1_v11) (fun x v => Host.reduce IntOp.andi x v reducesTo_S32x2048x1_S32x2048_d2 h_S_),
    TRef.binary (TRef.of (T := ⟨S32x256x1024, .f32⟩) main_arg0) (TRef.of (T := ⟨S32x2048x1, .i32⟩) main_call1_v4) (TRef.of (T := ⟨S32x2048x1024, .f32⟩) main_call1_v12) (fun x i => Host.gather gather_S32x256x1024_S32x2048x1_S32x2048x1024_2_1_0_0_1_2_111024 x i),
    TRef.unary (TRef.of (T := ⟨S32x2048, .i1⟩) main_call1_v11) (TRef.of (T := ⟨S32x2048x1024, .i1⟩) main_call1_v13) (broadcastInDim S32x2048x1024 ![0, 1] bcast_S32x2048_S32x2048x1024_0_1),
    TRef.nullary (TRef.of (T := ⟨S_, .f32⟩) main_call1_cst) (constant S_ .f32 0x7FC00000#32),
    TRef.unary (TRef.of (T := ⟨S_, .f32⟩) main_call1_cst) (TRef.of (T := ⟨S32x2048x1024, .f32⟩) main_call1_v14) (broadcastInDim S32x2048x1024 ![] bcast_S_S32x2048x1024),
    TRef.ternary (TRef.of (T := ⟨S32x2048x1024, .i1⟩) main_call1_v13) (TRef.of (T := ⟨S32x2048x1024, .f32⟩) main_call1_v12) (TRef.of (T := ⟨S32x2048x1024, .f32⟩) main_call1_v14) (TRef.of (T := ⟨S32x2048x1024, .f32⟩) main_v9) select ]

/-- Operations 34 to 55: the second gather along the node axis, by the second index column. -/
abbrev opsA3 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S32x2048x1, .i32⟩) main_call2_v0) (broadcastInDim S32x2048x1 ![] bcast_S_S32x2048x1),
    TRef.binary (TRef.of (T := ⟨S32x2048x1, .i32⟩) main_v8) (TRef.of (T := ⟨S32x2048x1, .i32⟩) main_call2_v0) (TRef.of (T := ⟨S32x2048x1, .i1⟩) main_call2_v1) (cmpi .slt),
    TRef.nullary (TRef.of (T := ⟨S_, .i32⟩) main_call2_c_0) (constantI S_ 32 256#32),
    TRef.unary (TRef.of (T := ⟨S_, .i32⟩) main_call2_c_0) (TRef.of (T := ⟨S32x2048x1, .i32⟩) main_call2_v2) (broadcastInDim S32x2048x1 ![] bcast_S_S32x2048x1),
    TRef.binary (TRef.of (T := ⟨S32x2048x1, .i32⟩) main_v8) (TRef.of (T := ⟨S32x2048x1, .i32⟩) main_call2_v2) (TRef.of (T := ⟨S32x2048x1, .i32⟩) main_call2_v3) addi,
    TRef.ternary (TRef.of (T := ⟨S32x2048x1, .i1⟩) main_call2_v1) (TRef.of (T := ⟨S32x2048x1, .i32⟩) main_call2_v3) (TRef.of (T := ⟨S32x2048x1, .i32⟩) main_v8) (TRef.of (T := ⟨S32x2048x1, .i32⟩) main_call2_v4) select,
    TRef.nullary (TRef.of (T := ⟨S1, .i32⟩) main_call2_c_1) (constantI S1 32 255#32),
    TRef.nullary (TRef.of (T := ⟨S_, .i32⟩) main_call2_c_2) (constantI S_ 32 0#32),
    TRef.unary (TRef.of (T := ⟨S_, .i32⟩) main_call2_c_2) (TRef.of (T := ⟨S32x2048x1, .i32⟩) main_call2_v5) (broadcastInDim S32x2048x1 ![] bcast_S_S32x2048x1),
    TRef.binary (TRef.of (T := ⟨S32x2048x1, .i32⟩) main_call2_v4) (TRef.of (T := ⟨S32x2048x1, .i32⟩) main_call2_v5) (TRef.of (T := ⟨S32x2048x1, .i1⟩) main_call2_v6) (cmpi .sge),
    TRef.unary (TRef.of (T := ⟨S1, .i32⟩) main_call2_c_1) (TRef.of (T := ⟨S1x1x1, .i32⟩) main_call2_v7) (broadcastInDim S1x1x1 ![2] bcast_S1_S1x1x1_2),
    TRef.unary (TRef.of (T := ⟨S1x1x1, .i32⟩) main_call2_v7) (TRef.of (T := ⟨S32x2048x1, .i32⟩) main_call2_v8) (broadcastInDim S32x2048x1 ![0, 1, 2] bcast_S1x1x1_S32x2048x1_0_1_2),
    TRef.binary (TRef.of (T := ⟨S32x2048x1, .i32⟩) main_call2_v4) (TRef.of (T := ⟨S32x2048x1, .i32⟩) main_call2_v8) (TRef.of (T := ⟨S32x2048x1, .i1⟩) main_call2_v9) (cmpi .sle),
    TRef.binary (TRef.of (T := ⟨S32x2048x1, .i1⟩) main_call2_v6) (TRef.of (T := ⟨S32x2048x1, .i1⟩) main_call2_v9) (TRef.of (T := ⟨S32x2048x1, .i1⟩) main_call2_v10) andi,
    TRef.nullary (TRef.of (T := ⟨S_, .i1⟩) main_call2_c_3) (constantI S_ 1 1#1),
    TRef.binary (TRef.of (T := ⟨S32x2048x1, .i1⟩) main_call2_v10) (TRef.of (T := ⟨S_, .i1⟩) main_call2_c_3) (TRef.of (T := ⟨S32x2048, .i1⟩) main_call2_v11) (fun x v => Host.reduce IntOp.andi x v reducesTo_S32x2048x1_S32x2048_d2 h_S_),
    TRef.binary (TRef.of (T := ⟨S32x256x1024, .f32⟩) main_arg0) (TRef.of (T := ⟨S32x2048x1, .i32⟩) main_call2_v4) (TRef.of (T := ⟨S32x2048x1024, .f32⟩) main_call2_v12) (fun x i => Host.gather gather_S32x256x1024_S32x2048x1_S32x2048x1024_2_1_0_0_1_2_111024 x i),
    TRef.unary (TRef.of (T := ⟨S32x2048, .i1⟩) main_call2_v11) (TRef.of (T := ⟨S32x2048x1024, .i1⟩) main_call2_v13) (broadcastInDim S32x2048x1024 ![0, 1] bcast_S32x2048_S32x2048x1024_0_1),
    TRef.nullary (TRef.of (T := ⟨S_, .f32⟩) main_call2_cst) (constant S_ .f32 0x7FC00000#32),
    TRef.unary (TRef.of (T := ⟨S_, .f32⟩) main_call2_cst) (TRef.of (T := ⟨S32x2048x1024, .f32⟩) main_call2_v14) (broadcastInDim S32x2048x1024 ![] bcast_S_S32x2048x1024),
    TRef.ternary (TRef.of (T := ⟨S32x2048x1024, .i1⟩) main_call2_v13) (TRef.of (T := ⟨S32x2048x1024, .f32⟩) main_call2_v12) (TRef.of (T := ⟨S32x2048x1024, .f32⟩) main_call2_v14) (TRef.of (T := ⟨S32x2048x1024, .f32⟩) main_v10) select ]

/-- Operations 56 to 66: the three pieces joined, the relation layer's product, bias, cut at zero, residual and mask. -/
abbrev opsB : List (HloOp τ sig (Elt F)) :=
  [ nary ![main_v9, main_arg2, main_v10] main_v11 (fun u => concatenate S32x2048x3072 2 [⟨S32x2048x1024, u 0⟩, ⟨S32x2048x1024, u 1⟩, ⟨S32x2048x1024, u 2⟩] concatenates_S32x2048x1024_S32x2048x1024_S32x2048x1024_S32x2048x3072_d2),
    binary main_v11 main_arg7 main_v12 ((fun l r => Host.dotGeneral dot_S32x2048x3072_S1024x3072_S32x2048x1024_2_1_01_0_n_n none l r) : (⟨S32x2048x3072, .f32⟩ : BufTy).Contents (Elt F) → (⟨S1024x3072, .f32⟩ : BufTy).Contents (Elt F) → (⟨S32x2048x1024, .f32⟩ : BufTy).Contents (Elt F)),
    unary main_arg8 main_v13 (broadcastInDim S1x1x1024 ![2] bcast_S1024_S1x1x1024_2 : (⟨S1024, .f32⟩ : BufTy).Contents (Elt F) → (⟨S1x1x1024, .f32⟩ : BufTy).Contents (Elt F)),
    unary main_v13 main_v14 (broadcastInDim S32x2048x1024 ![0, 1, 2] bcast_S1x1x1024_S32x2048x1024_0_1_2 : (⟨S1x1x1024, .f32⟩ : BufTy).Contents (Elt F) → (⟨S32x2048x1024, .f32⟩ : BufTy).Contents (Elt F)),
    binary main_v12 main_v14 main_v15 (addf : (⟨S32x2048x1024, .f32⟩ : BufTy).Contents (Elt F) → (⟨S32x2048x1024, .f32⟩ : BufTy).Contents (Elt F) → (⟨S32x2048x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32x2048x1024, .f32⟩) main_call3_v0) (broadcastInDim S32x2048x1024 ![] bcast_S_S32x2048x1024),
    TRef.binary (TRef.of (T := ⟨S32x2048x1024, .f32⟩) main_v15) (TRef.of (T := ⟨S32x2048x1024, .f32⟩) main_call3_v0) (TRef.of (T := ⟨S32x2048x1024, .f32⟩) main_v16) maximumf,
    binary main_v16 main_arg2 main_v17 (addf : (⟨S32x2048x1024, .f32⟩ : BufTy).Contents (Elt F) → (⟨S32x2048x1024, .f32⟩ : BufTy).Contents (Elt F) → (⟨S32x2048x1024, .f32⟩ : BufTy).Contents (Elt F)),
    unary main_arg4 main_v18 (broadcastInDim S32x2048x1024 ![0, 1, 2] bcast_S32x2048x1_S32x2048x1024_0_1_2 : (⟨S32x2048x1, .f32⟩ : BufTy).Contents (Elt F) → (⟨S32x2048x1024, .f32⟩ : BufTy).Contents (Elt F)),
    binary main_v17 main_v18 main_v19 (mulf : (⟨S32x2048x1024, .f32⟩ : BufTy).Contents (Elt F) → (⟨S32x2048x1024, .f32⟩ : BufTy).Contents (Elt F) → (⟨S32x2048x1024, .f32⟩ : BufTy).Contents (Elt F)) ]

set_option maxRecDepth 8192 in
set_option maxHeartbeats 4000000 in
/-- The line is its four stretches in a row. -/
theorem ops_split : (ops : List (HloOp τ sig (Elt F))) = opsA1 ++ (opsA2 ++ (opsA3 ++ opsB)) := rfl

/-- The contents after two lines in a row are the second line's, started from the first line's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The last stretch: from the two gathers to the result -/

/-- The relation layer's result from the two gathered pieces `y9`, `y10` and the arguments it reads: the three pieces
    joined along the feature axis, times the weight, plus the bias, cut at zero, plus the relation features, times the
    mask column. -/
def tail19 (y9 x2 y10 : (⟨S32x2048x1024, .f32⟩ : BufTy).Contents (Elt F)) (x4 : (⟨S32x2048x1, .f32⟩ : BufTy).Contents (Elt F))
    (x7 : (⟨S1024x3072, .f32⟩ : BufTy).Contents (Elt F)) (x8 : (⟨S1024, .f32⟩ : BufTy).Contents (Elt F)) : (⟨S32x2048x1024, .f32⟩ : BufTy).Contents (Elt F) :=
  mulf (addf (maximumf (addf (Host.dotGeneral dot_S32x2048x3072_S1024x3072_S32x2048x1024_2_1_01_0_n_n none
      (concatenate S32x2048x3072 2 [⟨S32x2048x1024, y9⟩, ⟨S32x2048x1024, x2⟩, ⟨S32x2048x1024, y10⟩] concatenates_S32x2048x1024_S32x2048x1024_S32x2048x1024_S32x2048x3072_d2) x7)
      (broadcastInDim S32x2048x1024 ![0, 1, 2] bcast_S1x1x1024_S32x2048x1024_0_1_2 (broadcastInDim S1x1x1024 ![2] bcast_S1024_S1x1x1024_2 x8)))
      (broadcastInDim S32x2048x1024 ![] bcast_S_S32x2048x1024 (constant S_ .f32 0x00000000#32))) x2)
    (broadcastInDim S32x2048x1024 ![0, 1, 2] bcast_S32x2048x1_S32x2048x1024_0_1_2 x4)

/-- At the two gathers' stage functions it is the result's stage function. -/
theorem tail19_eq (x0 : (⟨S32x256x1024, .f32⟩ : BufTy).Contents (Elt F)) (x2 : (⟨S32x2048x1024, .f32⟩ : BufTy).Contents (Elt F))
    (x3 : (⟨S32x2048x2, .i32⟩ : BufTy).Contents (Elt F)) (x4 : (⟨S32x2048x1, .f32⟩ : BufTy).Contents (Elt F))
    (x7 : (⟨S1024x3072, .f32⟩ : BufTy).Contents (Elt F)) (x8 : (⟨S1024, .f32⟩ : BufTy).Contents (Elt F)) :
    tail19 (ReadP.val_main_v9 (F := F) x0 x3) x2 (ReadP.val_main_v10 (F := F) x0 x3) x4 x7 x8
      = ReadP.val_main_v19 (F := F) x0 x2 x3 x4 x7 x8 := rfl

set_option maxRecDepth 8192 in
set_option maxHeartbeats 4000000 in
/-- The last stretch writes the result as `tail19` of what it finds in the two gathers' buffers and the arguments. -/
theorem afterB_v19 (W : Valuation τ sig (Elt F)) :
    after (opsB (F := F)) W (Proc.devRef .tc main_v19)
      = tail19 (W (Proc.devRef .tc main_v9)) (W (Proc.devRef .tc main_arg2)) (W (Proc.devRef .tc main_v10))
          (W (Proc.devRef .tc main_arg4)) (W (Proc.devRef .tc main_arg7)) (W (Proc.devRef .tc main_arg8)) := by
  simp (disch := decide) only [after_cons, after_nil,
      nullary_result', unary_result', binary_result', ternary_result', nary3_result',
      nullary_result_ne', unary_result_ne', binary_result_ne', ternary_result_ne', nary_result_ne']
  try simp only [TRef.ofBuf, TRef.toBuf, cast_eq]
  rfl

/-! ## The first stretch: the index columns, and what it leaves alone -/

set_option maxRecDepth 8192 in
set_option maxHeartbeats 4000000 in
/-- The first stretch slices the two index columns off the table and leaves the arguments the later stretches read. -/
theorem afterA1_facts (L : Valuation τ sig (Elt F)) :
    after (opsA1 (F := F)) L (Proc.devRef .tc main_v7) = ReadP.val_main_v7 (F := F) (L (Proc.devRef .tc main_arg3))
    ∧ after (opsA1 (F := F)) L (Proc.devRef .tc main_v8) = ReadP.val_main_v8 (F := F) (L (Proc.devRef .tc main_arg3))
    ∧ after (opsA1 (F := F)) L (Proc.devRef .tc main_arg0) = L (Proc.devRef .tc main_arg0)
    ∧ after (opsA1 (F := F)) L (Proc.devRef .tc main_arg2) = L (Proc.devRef .tc main_arg2)
    ∧ after (opsA1 (F := F)) L (Proc.devRef .tc main_arg4) = L (Proc.devRef .tc main_arg4)
    ∧ after (opsA1 (F := F)) L (Proc.devRef .tc main_arg7) = L (Proc.devRef .tc main_arg7)
    ∧ after (opsA1 (F := F)) L (Proc.devRef .tc main_arg8) = L (Proc.devRef .tc main_arg8) := by
  refine ⟨?_, ?_, ?_, ?_, ?_, ?_, ?_⟩ <;>
    (simp (disch := decide) only [after_cons, after_nil,
      nullary_result', unary_result', binary_result', ternary_result', nary3_result',
      nullary_result_ne', unary_result_ne', binary_result_ne', ternary_result_ne', nary_result_ne']
     <;> rfl)

/-! ## The second stretch: the first gather -/

set_option maxRecDepth 8192 in
set_option maxHeartbeats 4000000 in
/-- The second stretch writes the first gather's stage function of the node features and the first index column. -/
theorem afterA2_v9 (W : Valuation τ sig (Elt F)) (x3 : (⟨S32x2048x2, .i32⟩ : BufTy).Contents (Elt F))
    (h7 : W (Proc.devRef .tc main_v7) = ReadP.val_main_v7 (F := F) x3) :
    after (opsA2 (F := F)) W (Proc.devRef .tc main_v9) = ReadP.val_main_v9 (F := F) (W (Proc.devRef .tc main_arg0)) x3 := by
  simp (disch := decide) only [after_cons, after_nil,
      nullary_result', unary_result', binary_result', ternary_result', nary3_result',
      nullary_result_ne', unary_result_ne', binary_result_ne', ternary_result_ne', nary_result_ne']
  try simp only [TRef.ofBuf, TRef.toBuf, cast_eq]
  rw [h7]
  rfl

set_option maxRecDepth 8192 in
set_option maxHeartbeats 4000000 in
/-- It leaves the second index column and the arguments the later stretches read. -/
theorem afterA2_keep (W : Valuation τ sig (Elt F)) :
    after (opsA2 (F := F)) W (Proc.devRef .tc main_v8) = W (Proc.devRef .tc main_v8)
    ∧ after (opsA2 (F := F)) W (Proc.devRef .tc main_arg0) = W (Proc.devRef .tc main_arg0)
    ∧ after (opsA2 (F := F)) W (Proc.devRef .tc main_arg2) = W (Proc.devRef .tc main_arg2)
    ∧ after (opsA2 (F := F)) W (Proc.devRef .tc main_arg4) = W (Proc.devRef .tc main_arg4)
    ∧ after (opsA2 (F := F)) W (Proc.devRef .tc main_arg7) = W (Proc.devRef .tc main_arg7)
    ∧ after (opsA2 (F := F)) W (Proc.devRef .tc main_arg8) = W (Proc.devRef .tc main_arg8) := by
  refine ⟨?_, ?_, ?_, ?_, ?_, ?_⟩ <;>
    (simp (disch := decide) only [after_cons, after_nil,
      nullary_result', unary_result', binary_result', ternary_result', nary3_result',
      nullary_result_ne', unary_result_ne', binary_result_ne', ternary_result_ne', nary_result_ne']
     <;> rfl)

/-! ## The third stretch: the second gather -/

set_option maxRecDepth 8192 in
set_option maxHeartbeats 4000000 in
/-- The third stretch writes the second gather's stage function of the node features and the second index column. -/
theorem afterA3_v10 (W : Valuation τ sig (Elt F)) (x3 : (⟨S32x2048x2, .i32⟩ : BufTy).Contents (Elt F))
    (h8 : W (Proc.devRef .tc main_v8) = ReadP.val_main_v8 (F := F) x3) :
    after (opsA3 (F := F)) W (Proc.devRef .tc main_v10) = ReadP.val_main_v10 (F := F) (W (Proc.devRef .tc main_arg0)) x3 := by
  simp (disch := decide) only [after_cons, after_nil,
      nullary_result', unary_result', binary_result', ternary_result', nary3_result',
      nullary_result_ne', unary_result_ne', binary_result_ne', ternary_result_ne', nary_result_ne']
  try simp only [TRef.ofBuf, TRef.toBuf, cast_eq]
  rw [h8]
  rfl

set_option maxRecDepth 8192 in
set_option maxHeartbeats 4000000 in
/-- It leaves the first gather's result and the arguments the last stretch reads. -/
theorem afterA3_keep (W : Valuation τ sig (Elt F)) :
    after (opsA3 (F := F)) W (Proc.devRef .tc main_v9) = W (Proc.devRef .tc main_v9)
    ∧ after (opsA3 (F := F)) W (Proc.devRef .tc main_arg2) = W (Proc.devRef .tc main_arg2)
    ∧ after (opsA3 (F := F)) W (Proc.devRef .tc main_arg4) = W (Proc.devRef .tc main_arg4)
    ∧ after (opsA3 (F := F)) W (Proc.devRef .tc main_arg7) = W (Proc.devRef .tc main_arg7)
    ∧ after (opsA3 (F := F)) W (Proc.devRef .tc main_arg8) = W (Proc.devRef .tc main_arg8) := by
  refine ⟨?_, ?_, ?_, ?_, ?_⟩ <;>
    (simp (disch := decide) only [after_cons, after_nil,
      nullary_result', unary_result', binary_result', ternary_result', nary3_result',
      nullary_result_ne', unary_result_ne', binary_result_ne', ternary_result_ne', nary_result_ne']
     <;> rfl)

/-! ## The stretches in a row -/

/-- After the whole line the result buffer holds the relation layer's stage function of the arguments. -/
theorem after_v19 (L : Valuation τ sig (Elt F)) :
    after (ops (F := F)) L (Proc.devRef .tc main_v19)
      = ReadP.val_main_v19 (F := F) (L (Proc.devRef .tc main_arg0)) (L (Proc.devRef .tc main_arg2)) (L (Proc.devRef .tc main_arg3))
          (L (Proc.devRef .tc main_arg4)) (L (Proc.devRef .tc main_arg7)) (L (Proc.devRef .tc main_arg8)) := by
  rw [ops_split, after_app, after_app, after_app]
  obtain ⟨a7, a8, a0, a2, a4, a77, a88⟩ := afterA1_facts (F := F) L
  generalize after (opsA1 (F := F)) L = W1 at a7 a8 a0 a2 a4 a77 a88 ⊢
  have b9 := afterA2_v9 (F := F) W1 _ a7
  obtain ⟨b8, b0, b2, b4, b7, b88⟩ := afterA2_keep (F := F) W1
  generalize after (opsA2 (F := F)) W1 = W2 at b9 b8 b0 b2 b4 b7 b88 ⊢
  have c10 := afterA3_v10 (F := F) W2 _ (b8.trans a8)
  obtain ⟨c9, c2, c4, c7, c8⟩ := afterA3_keep (F := F) W2
  generalize after (opsA3 (F := F)) W2 = W3 at c10 c9 c2 c4 c7 c8 ⊢
  rw [afterB_v19, c9, b9, c10, b0, a0, c2, b2, a2, c4, b4, a4, c7, b7, a77, c8, b88, a88]
  exact tail19_eq _ _ _ _ _ _

/-! ## The run -/

set_option maxRecDepth 8192 in
set_option maxHeartbeats 26400000 in
/-- On every device, for any float values, from any memory with zero counters: every weakly fair execution of @main
    terminates with the attribute layer's result and the relation layer's result at their stage functions of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = ReadP.val_main_v6 (F := F) (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v19) = ReadP.val_main_v19 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c main_v6).trans (by after_results_simp <;> rfl)).trans (ReadP.val_main_v6_eq _ _ _ _),
      (h c main_v19).trans (after_v19 (F := F) (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RunStages
-- ==== Proof.RefValue.lean ====
/-
  The reference program's two computed results are the specification's two functions.

  * The new attribute features. The reference contracts the concatenation [obj | attr] (2048 columns) with the
    weight's rows, adds the bias, takes the maximum with zero and adds the attribute features back. A sum over the
    2048 columns is the sum over the first 1024 plus the sum over the last 1024 (true in any commutative monoid), and
    on each stretch the concatenation reads one of its two pieces: this is the specification's expression.
  * The new relation features. The reference gathers, per edge (b, r), the subject's and the object's rows of the
    object features: the edge word is wrapped by 256 when negative, the row at the wrapped word (clamped into
    [0, 255]) is gathered, and the result is replaced by a NaN unless the wrapped word lies in [0, 255]. For an edge
    word e with 0 ≤ e < 256 the wrap is not taken, the bounds test passes (so the reduction by `and` over the size-one
    axis is 1 and the gathered row is kept) and the clamp is e itself: the gathered row is the row of the node e names.
    The contraction over [subject | relation | object] (3072 columns) is the sum of its three stretches of 1024; the
    specification adds them as (subject + object) + relation, one use of commutativity of addition away.
-/
import proofs.«410875_j5720896438794_3_alg».proof.Proof.RefRead
import proofs.«410875_j5720896438794_3_alg».proof.Proof.Spec
import Idealize.ShloMosaic.Lib.Pipeline.Value
import Idealize.ShloMosaic.Lib.ValueIdx
import Idealize.ShloMosaic.Lib.Affine
import Idealize.ShloMosaic.PureOps.Reduce
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The batched row gather read at an index

The operand is [32, 256, 1024], the start indices [32, 2048, 1], the result [32, 2048, 1024]: axis 0 is a batching axis
of both, the start index names a row on the operand's axis 1 (collapsed, slice size 1), and the result's axis 2 is the
offset along the operand's axis 2 (slice size 1024). -/

/-- The start-indices index of a result index: its two batch coordinates, 0 on the index vector's axis. -/
abbrev edgeIdx (j : S32x2048x1024.Idx) : S32x2048x1.Idx := fun a => match a with
  | ⟨0, _⟩ => ⟨(j 0).val, (j 0).isLt⟩
  | ⟨1, _⟩ => ⟨(j 1).val, (j 1).isLt⟩
  | ⟨2, _⟩ => ⟨0, Nat.one_pos⟩

/-- On the batching axis the operand is read at the result's own batch coordinate. -/
theorem gather_axis0 {w : Nat} (j : S32x2048x1024.Idx) (idx : IVec S32x2048x1 w) :
    (gather_S32x256x1024_S32x2048x1_S32x2048x1024_2_1_0_0_1_2_111024.operandIdx j idx 0).val = (j 0).val := by
  have hb : (0 : Fin S32x256x1024.rank) ∈ gather_S32x256x1024_S32x2048x1_S32x2048x1024_2_1_0_0_1_2_111024.operandBatchingDims :=
    List.mem_singleton.mpr rfl
  show GatherDims.start _ j idx 0 + GatherDims.batchCoord _ j 0 + GatherDims.offCoord _ j 0 = _
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

/-- On the offset axis the operand is read at the result's own column (the slice is the whole row). -/
theorem gather_axis2 {w : Nat} (j : S32x2048x1024.Idx) (idx : IVec S32x2048x1 w) :
    (gather_S32x256x1024_S32x2048x1_S32x2048x1024_2_1_0_0_1_2_111024.operandIdx j idx 2).val = (j 2).val := by
  have hs : (2 : Fin S32x256x1024.rank) ∉ gather_S32x256x1024_S32x2048x1_S32x2048x1024_2_1_0_0_1_2_111024.startIndexMap :=
    fun h => absurd (List.mem_singleton.mp h) (by decide)
  have hb : (2 : Fin S32x256x1024.rank) ∉ gather_S32x256x1024_S32x2048x1_S32x2048x1024_2_1_0_0_1_2_111024.operandBatchingDims :=
    fun h => absurd (List.mem_singleton.mp h) (by decide)
  have hc : (2 : Fin S32x256x1024.rank) ∉ gather_S32x256x1024_S32x2048x1_S32x2048x1024_2_1_0_0_1_2_111024.collapsedSliceDims :=
    fun h => absurd (List.mem_singleton.mp h) (by decide)
  have hk := (GatherDims.mem_sKept gather_S32x256x1024_S32x2048x1_S32x2048x1024_2_1_0_0_1_2_111024 2).mpr ⟨hc, hb⟩
  show GatherDims.start _ j idx 2 + GatherDims.batchCoord _ j 2 + GatherDims.offCoord _ j 2 = _
  rw [GatherDims.batchCoord_eq_zero _ _ _ hb, Nat.add_zero]
  unfold GatherDims.start GatherDims.offCoord
  rw [dif_neg hs, dif_pos hk, Nat.zero_add]
  rfl

/-- On the collapsed axis the operand is read at the start index, taken signed and clamped into [0, 256 − 1]. -/
theorem gather_axis1 {w : Nat} (j : S32x2048x1024.Idx) (idx : IVec S32x2048x1 w) :
    (gather_S32x256x1024_S32x2048x1_S32x2048x1024_2_1_0_0_1_2_111024.operandIdx j idx 1).val
      = min (idx (edgeIdx j)).toInt.toNat 255 := by
  have hs : (1 : Fin S32x256x1024.rank) ∈ gather_S32x256x1024_S32x2048x1_S32x2048x1024_2_1_0_0_1_2_111024.startIndexMap :=
    List.mem_singleton.mpr rfl
  have hb : (1 : Fin S32x256x1024.rank) ∉ gather_S32x256x1024_S32x2048x1_S32x2048x1024_2_1_0_0_1_2_111024.operandBatchingDims :=
    fun h => absurd (List.mem_singleton.mp h) (by decide)
  have hc : (1 : Fin S32x256x1024.rank) ∈ gather_S32x256x1024_S32x2048x1_S32x2048x1024_2_1_0_0_1_2_111024.collapsedSliceDims :=
    List.mem_singleton.mpr rfl
  show GatherDims.start _ j idx 1 + GatherDims.batchCoord _ j 1 + GatherDims.offCoord _ j 1 = _
  rw [GatherDims.batchCoord_eq_zero _ _ _ hb,
    GatherDims.offCoord_eq_zero _ _ _ (fun h => ((GatherDims.mem_sKept _ _).mp h).1 hc), Nat.add_zero]
  unfold GatherDims.start
  rw [dif_pos hs]
  have hsi : gather_S32x256x1024_S32x2048x1_S32x2048x1024_2_1_0_0_1_2_111024.siIdx j
      ⟨List.idxOf (1 : Fin S32x256x1024.rank) gather_S32x256x1024_S32x2048x1_S32x2048x1024_2_1_0_0_1_2_111024.startIndexMap,
        List.idxOf_lt_length_iff.2 hs⟩ = edgeIdx j := by
    funext a; refine Fin.ext ?_
    match a with
    | ⟨0, _⟩ => rfl
    | ⟨1, _⟩ => rfl
    | ⟨2, _⟩ => rfl
  rw [hsi]
  rfl

/-- THE BATCHED ROW GATHER READ AT (b, r, d): the operand's row, in batch b, that the start index idx (b, r, 0) names,
    read as a signed integer and clamped into [0, 255]; the batch and the column are the result's own. -/
theorem gather_rows_apply {α : Type} {w : Nat} (x : S32x256x1024.Idx → α) (idx : IVec S32x2048x1 w)
    (b : Fin 32) (r : Fin 2048) (d : Fin 1024) :
    Host.gather gather_S32x256x1024_S32x2048x1_S32x2048x1024_2_1_0_0_1_2_111024 x idx (ix3 b r d)
      = x (ix3 b ⟨min (idx (ix3 b r 0)).toInt.toNat 255, by omega⟩ d) := by
  unfold Host.gather
  congr 1
  funext a
  refine Fin.ext ?_
  have he : edgeIdx (ix3 b r d) = ix3 b r 0 := by
    funext a; match a with | ⟨0, _⟩ => rfl | ⟨1, _⟩ => rfl | ⟨2, _⟩ => rfl
  match a with
  | ⟨0, _⟩ => exact gather_axis0 _ _
  | ⟨1, _⟩ => exact (gather_axis1 _ _).trans (by rw [he])
  | ⟨2, _⟩ => exact gather_axis2 _ _

/-! ## An edge word in range: the wrap is not taken, the bounds test passes, the clamp is the word's value -/

section Words

/-- A nonnegative word is not wrapped: `select (e < 0) (e + 256) e = e`. -/
theorem wrap_of_nonneg (e : BitVec 32) (h0 : 0 ≤ e.toInt) :
    Scalar.select (IntOp.cmpi .slt e 0#32) (IntOp.addi e 256#32) e = e := by
  have hz : IntOp.cmpi .slt e 0#32 = 0#1 := eq_zero_of_ne_one (fun h => by
    have := IntOp.cmpi_slt.mp h
    rw [show (0#32 : BitVec 32).toInt = 0 from by decide] at this
    omega)
  rw [hz, select_zero]

/-- A word in [0, 256) passes the bounds test `0 ≤ e ∧ e ≤ 255`. -/
theorem bounds_of_inRange (e : BitVec 32) (h0 : 0 ≤ e.toInt) (h1 : e.toInt < 256) :
    IntOp.andi (IntOp.cmpi .sge e 0#32) (IntOp.cmpi .sle e 255#32) = 1#1 := by
  refine IntOp.andi_eq_one.mpr ⟨IntOp.cmpi_sge.mpr ?_, IntOp.cmpi_sle.mpr ?_⟩
  · rw [show (0#32 : BitVec 32).toInt = 0 from by decide]; exact h0
  · rw [show (255#32 : BitVec 32).toInt = 255 from by decide]; omega

/-- For a word in [0, 256) the clamped signed reading is the node the word names. -/
theorem clamp_of_inRange (e : BitVec 32) (h0 : 0 ≤ e.toInt) (h1 : e.toInt < 256)
    (hlt : min e.toInt.toNat 255 < 256) :
    (⟨min e.toInt.toNat 255, hlt⟩ : Fin 256) = Cert.Spec.nodeOf e := by
  refine Fin.ext ?_
  show min e.toInt.toNat 255 = e.toNat % 256
  have hn : e.toInt = (e.toNat : Int) := BitVec.toInt_eq_toNat_of_lt (BitVec.toInt_pos_iff.mp h0)
  rw [hn] at h1 ⊢
  rw [Int.toNat_natCast]
  omega

end Words

/-! ## A reduction by `and` of an array of ones, from one, is one -/

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  generalize (((List.finRange s.numel).map s.rowMajor.symm).filter fun i => h.drop i = j) = l
  have e : IntOp.andi 1#1 1#1 = 1#1 := by decide
  induction l with
  | nil => rfl
  | cons a l ih => rw [List.foldl_cons, hx a, e]; exact ih

/-! ## A sum over the concatenated axis is the sum of its stretches of 1024 -/

section Stretches
variable {M : Type} [AddCommMonoid M]

/-- A sum over 2048 columns is the sum over the columns 0 + k plus the sum over the columns 1024 + k, k < 1024. -/
theorem sum_stretch2 (f : Fin 2048 → M) :
    ∑ k : Fin 2048, f k
      = (∑ k : Fin 1024, f (Cert.Spec.colAt 0 (by decide) k)) + ∑ k : Fin 1024, f (Cert.Spec.colAt 1024 (by decide) k) := by
  refine (Fin.sum_univ_add (a := 1024) (b := 1024) (fun k : Fin (1024 + 1024) => f k)).trans ?_
  refine congrArg₂ (· + ·) ?_ rfl
  exact Finset.sum_congr rfl fun k _ => congrArg f (Fin.ext (Nat.zero_add _).symm)

/-- A sum over 3072 columns is the sum of its three stretches 0 + k, 1024 + k, 2048 + k, k < 1024. -/
theorem sum_stretch3 (f : Fin 3072 → M) :
    ∑ k : Fin 3072, f k
      = ((∑ k : Fin 1024, f (Cert.Spec.colAt 0 (by decide) k)) + ∑ k : Fin 1024, f (Cert.Spec.colAt 1024 (by decide) k))
        + ∑ k : Fin 1024, f (Cert.Spec.colAt 2048 (by decide) k) := by
  refine (Fin.sum_univ_add (a := 2048) (b := 1024) (fun k : Fin (2048 + 1024) => f k)).trans ?_
  refine congrArg₂ (· + ·) ?_ rfl
  exact sum_stretch2 (fun k : Fin 2048 => f (Fin.castAdd 1024 k))

end Stretches

/-! ## The two concatenations read at an index, stretch by stretch -/

section Concat
variable {α : Type}

/-- The attribute layer's input: columns below 1024 are the object features … -/
theorem attrIn_fst (x0 x1 : S32x256x1024.Idx → α) (j : S32x256x2048.Idx) (b : Fin 32) (n : Fin 256) (k : Fin 1024)
    (h0 : (j 0).val = b.val) (h1 : (j 1).val = n.val) (h2 : (j 2).val = 0 + k.val) :
    concatenate S32x256x2048 2 [⟨S32x256x1024, x0⟩, ⟨S32x256x1024, x1⟩] concatenates_S32x256x1024_S32x256x1024_S32x256x2048_d2 j
      = x0 (ix3 b n k) :=
  concatenate_pair_apply_left 2 x0 x1 _ j rfl (ix3 b n k) (fun a => match a with
    | ⟨0, _⟩ => h0.symm
    | ⟨1, _⟩ => h1.symm
    | ⟨2, _⟩ => by show k.val = (j 2).val; omega)

/-- … and columns from 1024 on the attribute features. -/
theorem attrIn_snd (x0 x1 : S32x256x1024.Idx → α) (j : S32x256x2048.Idx) (b : Fin 32) (n : Fin 256) (k : Fin 1024)
    (h0 : (j 0).val = b.val) (h1 : (j 1).val = n.val) (h2 : (j 2).val = 1024 + k.val) :
    concatenate S32x256x2048 2 [⟨S32x256x1024, x0⟩, ⟨S32x256x1024, x1⟩] concatenates_S32x256x1024_S32x256x1024_S32x256x2048_d2 j
      = x1 (ix3 b n k) :=
  concatenate_pair_apply_right 2 x0 x1 _ j rfl rfl (ix3 b n k) (fun a => match a with
    | ⟨0, _⟩ => fun _ => h0.symm
    | ⟨1, _⟩ => fun _ => h1.symm
    | ⟨2, _⟩ => fun hne => absurd rfl hne)
    (by show k.val + 1024 = (j 2).val; omega)

/-- The relation layer's input: piece `p` of the three (subject row, relation, object row) holds the columns from
    `1024 p` on. -/
theorem relaIn_piece (y0 y1 y2 : S32x2048x1024.Idx → α) (j : S32x2048x3072.Idx) (b : Fin 32) (r : Fin 2048) (k : Fin 1024)
    (p : Nat) (hp : p < 3) (y : S32x2048x1024.Idx → α)
    (hy : [(⟨S32x2048x1024, y0⟩ : (s : Shape) × (s.Idx → α)), ⟨S32x2048x1024, y1⟩, ⟨S32x2048x1024, y2⟩][p]'hp = ⟨S32x2048x1024, y⟩)
    (h0 : (j 0).val = b.val) (h1 : (j 1).val = r.val) (h2 : (j 2).val = 1024 * p + k.val) :
    concatenate S32x2048x3072 2 [⟨S32x2048x1024, y0⟩, ⟨S32x2048x1024, y1⟩, ⟨S32x2048x1024, y2⟩]
        concatenates_S32x2048x1024_S32x2048x1024_S32x2048x1024_S32x2048x3072_d2 j
      = y (ix3 b r k) := by
  refine concatenate_apply_piece 2 [⟨S32x2048x1024, y0⟩, ⟨S32x2048x1024, y1⟩, ⟨S32x2048x1024, y2⟩]
    concatenates_S32x2048x1024_S32x2048x1024_S32x2048x1024_S32x2048x3072_d2 j p hp S32x2048x1024 y hy rfl (1024 * p) ?_ (ix3 b r k) (fun a => match a with
    | ⟨0, _⟩ => fun _ => h0.symm
    | ⟨1, _⟩ => fun _ => h1.symm
    | ⟨2, _⟩ => fun hne => absurd rfl hne) (by show 1024 * p + k.val = (j 2).val; omega)
  match p, hp with
  | 0, _ => rfl
  | 1, _ => rfl
  | 2, _ => rfl

end Concat

/-- The gather with the clamped row named: if the clamp of the start index at (b, r, 0) is `n`, the result at
    (b, r, d) is the operand at (b, n, d). -/
theorem gather_rows_of {α : Type} {w : Nat} (x : S32x256x1024.Idx → α) (idx : IVec S32x2048x1 w)
    (b : Fin 32) (r : Fin 2048) (d : Fin 1024) (n : Fin 256) (hn : min (idx (ix3 b r 0)).toInt.toNat 255 = n.val) :
    Host.gather gather_S32x256x1024_S32x2048x1_S32x2048x1024_2_1_0_0_1_2_111024 x idx (ix3 b r d) = x (ix3 b n d) := by
  rw [gather_rows_apply]
  congr 1
  funext a
  match a with
  | ⟨0, _⟩ => rfl
  | ⟨1, _⟩ => exact Fin.ext hn
  | ⟨2, _⟩ => rfl

/-- The clamp of a word in [0, 256), as a number: the node the word names. -/
theorem clamp_val_of_inRange (e : BitVec 32) (h0 : 0 ≤ e.toInt) (h1 : e.toInt < 256) :
    min e.toInt.toNat 255 = (Cert.Spec.nodeOf e).val :=
  congrArg Fin.val (clamp_of_inRange e h0 h1 (by omega))

/-! ## The rows the reference gathers for an edge, under the range hypothesis -/

section Rows
variable (x0 : (⟨S32x256x1024, .f32⟩ : BufTy).Contents (Elt Ideal)) (x3 : (⟨S32x2048x2, .i32⟩ : BufTy).Contents (Elt Ideal))

/-- The subject's row: for an edge word in range, the reference's first gathered array at (b, r, k) is the object
    features at (b, subject node, k). -/
theorem subject_row (h : Cert.Spec.EdgesInRange x3) (b : Fin 32) (r : Fin 2048) (k : Fin 1024) :
    ReadP.val_main_v9 (F := Ideal) x0 x3 (ix3 b r k) = x0 (ix3 b (Cert.Spec.nodeOf (x3 (ix3 b r 0))) k) := by
  have hw : ∀ i, ReadP.val_main_call1_v4 (F := Ideal) x3 i = x3 (ReadP.idx_main_v7 i) := fun i => by
    rw [ReadP.val_main_call1_v4_apply, ReadP.val_main_call1_v1_apply, ReadP.val_main_call1_v3_apply, ReadP.val_main_v7_apply,
      ReadP.val_main_call1_v0_apply, ReadP.val_main_call1_c_apply, ReadP.val_main_call1_v2_apply, ReadP.val_main_call1_c_0_apply]
    exact wrap_of_nonneg _ (h _).1
  have hm : ∀ i, ReadP.val_main_call1_v10 (F := Ideal) x3 i = 1#1 := fun i => by
    rw [ReadP.val_main_call1_v10_apply, ReadP.val_main_call1_v6_apply, ReadP.val_main_call1_v9_apply, hw,
      ReadP.val_main_call1_v5_apply, ReadP.val_main_call1_c_2_apply, ReadP.val_main_call1_v8_apply,
      ReadP.val_main_call1_v7_apply, ReadP.val_main_call1_c_1_apply]
    exact bounds_of_inRange _ (h _).1 (h _).2
  have h11 : ∀ j, ReadP.val_main_call1_v11 (F := Ideal) x3 j = 1#1 := fun j =>
    reduce_andi_ones _ _ _ _ hm (fun _ => rfl) j
  have e7 : ReadP.idx_main_v7 (ix3 b r (0 : Fin 1)) = ix3 b r (0 : Fin 2) :=
    funext fun a => match a with | ⟨0, _⟩ => rfl | ⟨1, _⟩ => rfl | ⟨2, _⟩ => rfl
  rw [ReadP.val_main_v9_apply, ReadP.val_main_call1_v13_apply, h11, select_one]
  unfold ReadP.val_main_call1_v12
  refine gather_rows_of _ _ b r k _ ?_
  rw [hw, e7]
  exact clamp_val_of_inRange _ (h _).1 (h _).2

/-- The object's row: likewise for the second gathered array and the edge's second word. -/
theorem object_row (h : Cert.Spec.EdgesInRange x3) (b : Fin 32) (r : Fin 2048) (k : Fin 1024) :
    ReadP.val_main_v10 (F := Ideal) x0 x3 (ix3 b r k) = x0 (ix3 b (Cert.Spec.nodeOf (x3 (ix3 b r 1))) k) := by
  have hw : ∀ i, ReadP.val_main_call2_v4 (F := Ideal) x3 i = x3 (ReadP.idx_main_v8 i) := fun i => by
    rw [ReadP.val_main_call2_v4_apply, ReadP.val_main_call2_v1_apply, ReadP.val_main_call2_v3_apply, ReadP.val_main_v8_apply,
      ReadP.val_main_call2_v0_apply, ReadP.val_main_call2_c_apply, ReadP.val_main_call2_v2_apply, ReadP.val_main_call2_c_0_apply]
    exact wrap_of_nonneg _ (h _).1
  have hm : ∀ i, ReadP.val_main_call2_v10 (F := Ideal) x3 i = 1#1 := fun i => by
    rw [ReadP.val_main_call2_v10_apply, ReadP.val_main_call2_v6_apply, ReadP.val_main_call2_v9_apply, hw,
      ReadP.val_main_call2_v5_apply, ReadP.val_main_call2_c_2_apply, ReadP.val_main_call2_v8_apply,
      ReadP.val_main_call2_v7_apply, ReadP.val_main_call2_c_1_apply]
    exact bounds_of_inRange _ (h _).1 (h _).2
  have h11 : ∀ j, ReadP.val_main_call2_v11 (F := Ideal) x3 j = 1#1 := fun j =>
    reduce_andi_ones _ _ _ _ hm (fun _ => rfl) j
  have e8 : ReadP.idx_main_v8 (ix3 b r (0 : Fin 1)) = ix3 b r (1 : Fin 2) :=
    funext fun a => match a with | ⟨0, _⟩ => rfl | ⟨1, _⟩ => rfl | ⟨2, _⟩ => rfl
  rw [ReadP.val_main_v10_apply, ReadP.val_main_call2_v13_apply, h11, select_one]
  unfold ReadP.val_main_call2_v12
  refine gather_rows_of _ _ b r k _ ?_
  rw [hw, e8]
  exact clamp_val_of_inRange _ (h _).1 (h _).2

end Rows

/-! ## The two results -/

/-- The reference's new attribute features are the specification's. -/
theorem ref_attr (x0 x1 : (⟨S32x256x1024, .f32⟩ : BufTy).Contents (Elt Ideal))
    (x5 : (⟨S1024x2048, .f32⟩ : BufTy).Contents (Elt Ideal)) (x6 : (⟨S1024, .f32⟩ : BufTy).Contents (Elt Ideal)) :
    ReadP.val_main_v6 (F := Ideal) x0 x1 x5 x6 = Cert.Spec.newAttr x0 x1 x5 x6 := by
  funext i
  obtain ⟨b, n, d, rfl⟩ : ∃ (b : Fin 32) (n : Fin 256) (d : Fin 1024), i = ix3 b n d := ⟨i 0, i 1, i 2, eq_ix3 i⟩
  have hr : ∀ c : Fin 2048, ReadP.ridx_main_v1 (ix3 b n d) c = ix2 d c := fun c =>
    funext fun a => match a with | ⟨0, _⟩ => rfl | ⟨1, _⟩ => rfl
  have hb : ReadP.idx_main_v2 (ReadP.idx_main_v3 (ix3 b n d)) = ix1 d :=
    funext fun a => match a with | ⟨0, _⟩ => rfl
  have e0 : ∀ k : Fin 1024, ReadP.val_main_v0 (F := Ideal) x0 x1 (ReadP.lidx_main_v1 (ix3 b n d) (Cert.Spec.colAt 0 (by decide) k))
      = x0 (ix3 b n k) := fun k => attrIn_fst x0 x1 _ b n k rfl rfl rfl
  have e1 : ∀ k : Fin 1024, ReadP.val_main_v0 (F := Ideal) x0 x1 (ReadP.lidx_main_v1 (ix3 b n d) (Cert.Spec.colAt 1024 (by decide) k))
      = x1 (ix3 b n k) := fun k => attrIn_snd x0 x1 _ b n k rfl rfl rfl
  rw [Cert.Spec.newAttr_apply, ReadP.val_main_v6_apply, ReadP.val_main_v5_apply, ReadP.val_main_v4_apply,
    ReadP.val_main_v1_apply, ReadP.val_main_v3_apply, ReadP.val_main_v2_apply, ReadP.val_main_call0_v0_apply,
    ReadP.val_main_call0_cst_apply, sum_stretch2]
  simp only [hr, hb, e0, e1, Ideal.addf_def, Ideal.maximumf_def, Ideal.ofBits_def]
  rfl

/-- The reference's new relation features are the specification's, for edges that name nodes. -/
theorem ref_rela (x0 : (⟨S32x256x1024, .f32⟩ : BufTy).Contents (Elt Ideal)) (x2 : (⟨S32x2048x1024, .f32⟩ : BufTy).Contents (Elt Ideal))
    (x3 : (⟨S32x2048x2, .i32⟩ : BufTy).Contents (Elt Ideal)) (x4 : (⟨S32x2048x1, .f32⟩ : BufTy).Contents (Elt Ideal))
    (x7 : (⟨S1024x3072, .f32⟩ : BufTy).Contents (Elt Ideal)) (x8 : (⟨S1024, .f32⟩ : BufTy).Contents (Elt Ideal))
    (h : Cert.Spec.EdgesInRange x3) :
    ReadP.val_main_v19 (F := Ideal) x0 x2 x3 x4 x7 x8 = Cert.Spec.newRela x0 x2 x3 x4 x7 x8 := by
  funext i
  obtain ⟨b, r, d, rfl⟩ : ∃ (b : Fin 32) (r : Fin 2048) (d : Fin 1024), i = ix3 b r d := ⟨i 0, i 1, i 2, eq_ix3 i⟩
  have hr : ∀ c : Fin 3072, ReadP.ridx_main_v12 (ix3 b r d) c = ix2 d c := fun c =>
    funext fun a => match a with | ⟨0, _⟩ => rfl | ⟨1, _⟩ => rfl
  have hb : ReadP.idx_main_v13 (ReadP.idx_main_v14 (ix3 b r d)) = ix1 d :=
    funext fun a => match a with | ⟨0, _⟩ => rfl
  have hmk : ReadP.idx_main_v18 (ix3 b r d) = ix3 b r (0 : Fin 1) :=
    funext fun a => match a with | ⟨0, _⟩ => rfl | ⟨1, _⟩ => rfl | ⟨2, _⟩ => rfl
  have e0 : ∀ k : Fin 1024, ReadP.val_main_v11 (F := Ideal) x0 x2 x3 (ReadP.lidx_main_v12 (ix3 b r d) (Cert.Spec.colAt 0 (by decide) k))
      = x0 (ix3 b (Cert.Spec.nodeOf (x3 (ix3 b r 0))) k) := fun k =>
    (relaIn_piece _ x2 _ _ b r k 0 (by decide) _ rfl rfl rfl rfl).trans (subject_row x0 x3 h b r k)
  have e1 : ∀ k : Fin 1024, ReadP.val_main_v11 (F := Ideal) x0 x2 x3 (ReadP.lidx_main_v12 (ix3 b r d) (Cert.Spec.colAt 1024 (by decide) k))
      = x2 (ix3 b r k) := fun k =>
    relaIn_piece _ x2 _ _ b r k 1 (by decide) _ rfl rfl rfl rfl
  have e2 : ∀ k : Fin 1024, ReadP.val_main_v11 (F := Ideal) x0 x2 x3 (ReadP.lidx_main_v12 (ix3 b r d) (Cert.Spec.colAt 2048 (by decide) k))
      = x0 (ix3 b (Cert.Spec.nodeOf (x3 (ix3 b r 1))) k) := fun k =>
    (relaIn_piece _ x2 _ _ b r k 2 (by decide) _ rfl rfl rfl rfl).trans (object_row x0 x3 h b r k)
  rw [Cert.Spec.newRela_apply, ReadP.val_main_v19_apply, ReadP.val_main_v17_apply, ReadP.val_main_v16_apply,
    ReadP.val_main_v15_apply, ReadP.val_main_v12_apply, ReadP.val_main_v14_apply, ReadP.val_main_v13_apply,
    ReadP.val_main_call3_v0_apply, ReadP.val_main_call3_cst_apply, ReadP.val_main_v18_apply, sum_stretch3]
  simp only [hr, hb, hmk, e0, e1, e2, Ideal.addf_def, Ideal.mulf_def, Ideal.maximumf_def, Ideal.ofBits_def]
  unfold Cert.Spec.newRelaAt Cert.Spec.relaAcc
  rw [add_right_comm (∑ k : Fin 1024, x0 (ix3 b (Cert.Spec.nodeOf (x3 (ix3 b r 0))) k) * x7 (ix2 d (Cert.Spec.colAt 0 (by decide) k)))]

end Cert.ReferenceIdeal.RefValue
end
-- ==== Proof.PreDecode.lean ====
/-
  The precondition, decoded for the edge words.

  The precondition is one boolean: the conjunction, by `and`, of one "all entries satisfy p" test per input. For the
  integer input `edges` it carries two such tests, `0 ≤ e` and `e < 256`, each comparing every word (as a signed
  integer) with a constant spread over the whole array and then folding the resulting bits by `and` down to one.
  If the whole conjunction is 1 then each conjunct is 1; a fold by `and` that is 1 met a 1 at every index; and a signed
  comparison bit that is 1 says the inequality of the two words read as integers. So every edge word lies in [0, 256).
  The tests on the float inputs are not needed here and are dropped.
-/
import proofs.«410875_j5720896438794_3_alg».proof.Pre_finite_inputs
import proofs.«410875_j5720896438794_3_alg».proof.Proof.Spec
import Idealize.ShloMosaic.Lib.ReduceAll
import Idealize.ShloMosaic.Lib.StableHlo.Predicate
import Idealize.ShloMosaic.Lib.ValueIdx

namespace Cert.PreDecode

open Idealize.ShloMosaic Cert.Pre_finite_inputs

/-- The scalar shape has exactly one index: an index is a function out of the empty set of axes. -/
instance : Subsingleton S_.Idx := ⟨fun a b => funext fun d => d.elim0⟩

/-- Under the precondition every edge word, read as a signed integer, lies in [0, 256). -/
theorem edges_in_range [Cert.Pre_finite_inputs.Facts]
    (x0 x1 : FVec Ideal Cert.Pre_finite_inputs.S32x256x1024 .f32) (x2 : FVec Ideal Cert.Pre_finite_inputs.S32x2048x1024 .f32)
    (x3 : IVec Cert.Pre_finite_inputs.S32x2048x2 32)
    (x4 : FVec Ideal Cert.Pre_finite_inputs.S32x2048x1 .f32) (x5 : FVec Ideal Cert.Pre_finite_inputs.S1024x2048 .f32)
    (x6 : FVec Ideal Cert.Pre_finite_inputs.S1024 .f32)
    (x7 : FVec Ideal Cert.Pre_finite_inputs.S1024x3072 .f32) (x8 : FVec Ideal Cert.Pre_finite_inputs.S1024 .f32)
    (h : Cert.Pre_finite_inputs.fn (F := Ideal) x0 x1 x2 x3 x4 x5 x6 x7 x8 = fun _ => 1#1) :
    Cert.Spec.EdgesInRange x3 := by
  -- the one boolean, at the scalar's one index, as a nest of `and`s whose two outermost right operands are the edge tests
  have h0 := congrFun h ValueIdx.ix0
  dsimp only [fn, fn_part1, fn_part2, andi] at h0
  -- outermost: (… ∧ all (0 ≤ e)) ∧ all (e < 256)
  obtain ⟨hrest, hlt⟩ := IntOp.andi_eq_one.1 h0
  -- next: (the float tests) ∧ all (0 ≤ e); the float tests are dropped
  obtain ⟨-, hge⟩ := IntOp.andi_eq_one.1 hrest
  intro i
  -- a fold by `and` over all axes that is 1 had a 1 at index i
  have hge_i := Host.reduce_andi_all _ _ _ _ _ hge i
  have hlt_i := Host.reduce_andi_all _ _ _ _ _ hlt i
  -- at index i each test compares the word with the constant itself: a spread scalar reads the scalar everywhere
  dsimp only [cmpi, broadcastInDim, constantI] at hge_i hlt_i
  -- a signed comparison bit that is 1 is the inequality of the two words read as integers
  have a := IntOp.cmpi_sge.1 hge_i
  have b := IntOp.cmpi_slt.1 hlt_i
  -- the two constants read as integers: both are below 2³¹, so the word 0 is 0 and the word 256 is 256
  have z : (0#32 : BitVec 32).toInt = 0 := by decide
  have c : (256#32 : BitVec 32).toInt = 256 := by decide
  rw [z] at a
  rw [c] at b
  exact ⟨a, b⟩

end Cert.PreDecode
-- ==== Proof.lean ====
/-
  The certificate of the scene-graph layer's two Pallas calls against its jnp reference, over the extended reals.

  The kernel computes the attribute update relu([obj | attr]·Waᵀ + ba) + attr as one matrix product per half of the
  concatenated axis, and the relation update (relu([subj | rela | objn]·Wrᵀ + br) + rela)·mask by projecting the 256
  nodes of a batch once (into two buffers kept across the four row blocks of that batch) and picking the subject's and
  the object's projected rows with a 0/1 row times the projected table. Over the extended reals 0·x = 0 and 1·x = x for
  every x, a contraction over a concatenated axis is the sum of its stretches, and sums commute and associate, so both
  programs compute the same two functions of the arguments — provided every edge word names a node (0 ≤ e < 256): the
  reference wraps a negative index and fills an index past the table with NaN where the kernel clamps it.

  The frames: both kernel programs run as four segments (host lines, attribute call, host lines, relation call); the
  relation call's invariant names what the two projection buffers hold after each grid point. The reference's run is
  its operation list cut into stretches. `preserves` asks nothing: the idealization rewrote no operation.
-/
import proofs.«410875_j5720896438794_3_alg».proof.Defs
import proofs.«410875_j5720896438794_3_alg».proof.Proof.Gen.Kernel
import proofs.«410875_j5720896438794_3_alg».proof.Proof.Gen.KernelIdeal
import proofs.«410875_j5720896438794_3_alg».proof.Proof.Gen.ReferenceIdeal
import proofs.«410875_j5720896438794_3_alg».proof.Proof.Gen.Pre_finite_inputs
import proofs.«410875_j5720896438794_3_alg».proof.Proof.KFrameRun
import proofs.«410875_j5720896438794_3_alg».proof.Proof.FrameRun
import proofs.«410875_j5720896438794_3_alg».proof.Proof.KernelRela
import proofs.«410875_j5720896438794_3_alg».proof.Proof.RefRunStages
import proofs.«410875_j5720896438794_3_alg».proof.Proof.RefValue
import proofs.«410875_j5720896438794_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.RunStages.run (F := Ideal) m ρ)

/-- From memories agreeing on the arguments both programs end with the node features as launched, the specification's
    new attribute features and its new relation features. -/
theorem algebraic : Cert.algebraic_KernelIdeal_ReferenceIdeal := by
  intro m ρ m' ρ' hpre hagree
  have hE : ∀ c : Dev Cert.KernelIdeal.nD,
      Cert.Spec.EdgesInRange (m ((c.tc : Thread Cert.KernelIdeal.nD Cert.KernelIdeal.τ).loc Cert.KernelIdeal.main_arg3)) :=
    fun c => Cert.PreDecode.edges_in_range _ _ _ _ _ _ _ _ _ (hpre c)
  refine ⟨fun c => m ((c.tc : Thread Cert.KernelIdeal.nD Cert.KernelIdeal.τ).loc Cert.KernelIdeal.main_arg0),
    fun c => Cert.Spec.newAttr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.Spec.newRela (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · -- the kernel: every unscoped buffer ends at the fold's last contents; read the three results and the arguments
    refine (θ_run Cert.KernelIdeal.defs _ _).mono (fun r h c => ?_) (Cert.KernelIdeal.Hand.run_all m ρ)
    have hc := h c
    exact ⟨(hc _ (Cert.KernelIdeal.Hand.mem_uc Cert.KernelIdeal.main_arg0 (by decide))).trans (Cert.KernelIdeal.Hand.W4_main_arg0 m c),
      (hc _ (Cert.KernelIdeal.Hand.mem_uc Cert.KernelIdeal.main_v9 (by decide))).trans (Cert.KernelIdeal.KernelValue.attr_result m c),
      (hc _ (Cert.KernelIdeal.Hand.mem_uc Cert.KernelIdeal.main_v18 (by decide))).trans (Cert.KernelIdeal.KernelValue.rela_result m c (hE c)),
      (hc _ (Cert.KernelIdeal.Hand.mem_uc Cert.KernelIdeal.main_arg0 (by decide))).trans (Cert.KernelIdeal.Hand.W4_main_arg0 m c),
      (hc _ (Cert.KernelIdeal.Hand.mem_uc Cert.KernelIdeal.main_arg1 (by decide))).trans (Cert.KernelIdeal.Hand.W4_main_arg1 m c),
      (hc _ (Cert.KernelIdeal.Hand.mem_uc Cert.KernelIdeal.main_arg2 (by decide))).trans (Cert.KernelIdeal.Hand.W4_main_arg2 m c),
      (hc _ (Cert.KernelIdeal.Hand.mem_uc Cert.KernelIdeal.main_arg3 (by decide))).trans (Cert.KernelIdeal.Hand.W4_main_arg3 m c),
      (hc _ (Cert.KernelIdeal.Hand.mem_uc Cert.KernelIdeal.main_arg4 (by decide))).trans (Cert.KernelIdeal.Hand.W4_main_arg4 m c),
      (hc _ (Cert.KernelIdeal.Hand.mem_uc Cert.KernelIdeal.main_arg5 (by decide))).trans (Cert.KernelIdeal.Hand.W4_main_arg5 m c),
      (hc _ (Cert.KernelIdeal.Hand.mem_uc Cert.KernelIdeal.main_arg6 (by decide))).trans (Cert.KernelIdeal.Hand.W4_main_arg6 m c),
      (hc _ (Cert.KernelIdeal.Hand.mem_uc Cert.KernelIdeal.main_arg7 (by decide))).trans (Cert.KernelIdeal.Hand.W4_main_arg7 m c),
      (hc _ (Cert.KernelIdeal.Hand.mem_uc Cert.KernelIdeal.main_arg8 (by decide))).trans (Cert.KernelIdeal.Hand.W4_main_arg8 m c)⟩
  · -- the reference: its run over the stages, each result the specification's function of arguments that agree
    refine (θ_run Cert.ReferenceIdeal.defs _ _).mono (fun r h c => ?_) (Cert.ReferenceIdeal.RunStages.run (F := Ideal) m' ρ')
    obtain ⟨h6, h19, a0, a1, a2, a3, a4, a5, a6, a7, a8⟩ := h c
    obtain ⟨e0, e1, e2, e3, e4, e5, e6, e7, e8⟩ := hagree c
    refine ⟨a0.trans e0, h6.trans ?_, h19.trans ?_, a0, a1, a2, a3, a4, a5, a6, a7, a8⟩
    · rw [Cert.ReferenceIdeal.RefValue.ref_attr, e0, e1, e5, e6]
    · rw [Cert.ReferenceIdeal.RefValue.ref_rela _ _ _ _ _ _ (by rw [e3]; exact hE c), e0, e2, e3, e4, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
